-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x50 : Shape := ⟨2, ![16384, 50]⟩
abbrev S100001x128 : Shape := ⟨2, ![100001, 128]⟩
abbrev S_ : Shape := ⟨0, ![]⟩

class Facts : Prop where
  bcast_S_S100001x128 : S_.BroadcastsInDim S100001x128 (![] : Fin 0 → Fin S100001x128.rank)
  reducesTo_S100001x128_S_d0_1 : S100001x128.ReducesTo [0, 1] S_
  h_S_ : 0 < S_.numel
  bcast_S_S16384x50 : S_.BroadcastsInDim S16384x50 (![] : Fin 0 → Fin S16384x50.rank)
  reducesTo_S16384x50_S_d0_1 : S16384x50.ReducesTo [0, 1] S_

variable [Facts]

def fn {F : FTy → Type} [FloatOps F] (main_arg0 : IVec S16384x50 32) (main_arg1 : FVec F S100001x128 .f32) : IVec S_ 1 :=
  let main_v0 : FVec F S100001x128 .f32 := Host.absf main_arg1
  let main_cst : FVec F S_ .f32 := constant S_ .f32 0x7F800000#32
  let main_v1 : FVec F S100001x128 .f32 := broadcastInDim S100001x128 ![] bcast_S_S100001x128 main_cst
  let main_v2 : IVec S100001x128 1 := cmpf .olt main_v0 main_v1
  let main_c : IVec S_ 1 := constantI S_ 1 1#1
  let main_v3 : IVec S_ 1 := (fun x v => Host.reduce IntOp.andi x v reducesTo_S100001x128_S_d0_1 h_S_) main_v2 main_c
  let main_c_0 : IVec S_ 32 := constantI S_ 32 0#32
  let main_v4 : IVec S16384x50 32 := broadcastInDim S16384x50 ![] bcast_S_S16384x50 main_c_0
  let main_v5 : IVec S16384x50 1 := cmpi .sge main_arg0 main_v4
  let main_c_1 : IVec S_ 1 := constantI S_ 1 1#1
  let main_v6 : IVec S_ 1 := (fun x v => Host.reduce IntOp.andi x v reducesTo_S16384x50_S_d0_1 h_S_) main_v5 main_c_1
  let main_v7 : IVec S_ 1 := andi main_v3 main_v6
  let main_c_2 : IVec S_ 32 := constantI S_ 32 100001#32
  let main_v8 : IVec S16384x50 32 := broadcastInDim S16384x50 ![] bcast_S_S16384x50 main_c_2
  let main_v9 : IVec S16384x50 1 := cmpi .slt main_arg0 main_v8
  let main_c_3 : IVec S_ 1 := constantI S_ 1 1#1
  let main_v10 : IVec S_ 1 := (fun x v => Host.reduce IntOp.andi x v reducesTo_S16384x50_S_d0_1 h_S_) main_v9 main_c_3
  let main_v11 : IVec S_ 1 := andi main_v7 main_v10
  main_v11
-- ==== Kernel.lean ====
abbrev S16384x50 : Shape := ⟨2, ![16384, 50]⟩
abbrev S100001x128 : Shape := ⟨2, ![100001, 128]⟩
abbrev S16384x128 : Shape := ⟨2, ![16384, 128]⟩
abbrev S128x50 : Shape := ⟨2, ![128, 50]⟩
abbrev S128x128 : Shape := ⟨2, ![128, 128]⟩
abbrev S2x128 : Shape := ⟨2, ![2, 128]⟩
abbrev S2 : Shape := ⟨1, ![2]⟩
abbrev S1x1 : Shape := ⟨2, ![1, 1]⟩
abbrev S1 : Shape := ⟨1, ![1]⟩
abbrev S_ : Shape := ⟨0, ![]⟩
abbrev S1x128 : Shape := ⟨2, ![1, 128]⟩
abbrev S128 : Shape := ⟨1, ![128]⟩

abbrev nBuf : Space → Nat
  | .hbm => 3
  | .vmem => 4
  | .smem => 2
  | _ => 0

abbrev bufTy : (tb : Table) → Fin (tcTables nBuf tb) → BufTy
  | .hbm, ⟨0, _⟩ => ⟨S16384x50, .i32⟩
  | .hbm, ⟨1, _⟩ => ⟨S100001x128, .f32⟩
  | .hbm, ⟨2, _⟩ => ⟨S16384x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S2x128, .f32⟩
  | .local _ .smem, ⟨0, _⟩ => ⟨S128x50, .i32⟩
  | .local _ .smem, ⟨1, _⟩ => ⟨S128x50, .i32⟩
  | _, _ => ⟨S16384x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c50_i32 : BitVec 32 := 50#32
  let v4 : BitVec 32 := Scalar.addi c0_i32 c50_i32
  let c1_i32 : BitVec 32 := 1#32
  ⟨c0_i32, v4, c1_i32⟩
def k0_off1 (k0_t1 : Fin k0_t1_loop.trips) : Fin 2 → Nat :=
  let c0_6 : Index := 0#32
  let c0_i32 : BitVec 32 := 0#32
  let c1_i32 : BitVec 32 := 1#32
  let arg7 : BitVec 32 := Scf.iv c0_i32 c1_i32 k0_t1
  let v7 : Index := Scalar.indexCast arg7
  ![0, v7.toNat]
def k0_off2 (v8 : BitVec 32) : Fin 2 → Nat :=
  let c0_i32_10 : BitVec 32 := 0#32
  ![v8.toNat, 0]

def k0_chk1 (v8 : BitVec 32) : Prop :=
  (∀ a, (k0_off2 v8) a + S1x128.size a ≤ S100001x128.size a)
instance k0_chk1.dec : ∀ (v8 : BitVec 32), Decidable (k0_chk1 v8) := fun v8 => decidable_of_iff' _ (Iff.of_eq (k0_chk1.eq_1 v8))
theorem k0_off2_inb : ∀ (v8 : BitVec 32) (k0_hw1 : k0_chk1 v8), ∀ a, (k0_off2 v8) a + S1x128.size a ≤ S100001x128.size a := fun v8 k0_hw1 => k0_hw1

def k0_off3 (k0_t1 : Fin k0_t1_loop.trips) : Fin 2 → Nat :=
  let c1 : Index := 1#32
  let c0_i32 : BitVec 32 := 0#32
  let c1_i32 : BitVec 32 := 1#32
  let arg7 : BitVec 32 := Scf.iv c0_i32 c1_i32 k0_t1
  let v21 : Index := Scalar.indexCast arg7
  ![1, v21.toNat]
def k0_off4 (v22 : BitVec 32) : Fin 2 → Nat :=
  let c0_i32_19 : BitVec 32 := 0#32
  ![v22.toNat, 0]

def k0_chk2 (v22 : BitVec 32) : Prop :=
  (∀ a, (k0_off4 v22) a + S1x128.size a ≤ S100001x128.size a)
instance k0_chk2.dec : ∀ (v22 : BitVec 32), Decidable (k0_chk2 v22) := fun v22 => decidable_of_iff' _ (Iff.of_eq (k0_chk2.eq_1 v22))
theorem k0_off4_inb : ∀ (v22 : BitVec 32) (k0_hw2 : k0_chk2 v22), ∀ a, (k0_off4 v22) a + S1x128.size a ≤ S100001x128.size a := fun v22 k0_hw2 => k0_hw2

def k0_off5 (k0_t1 : Fin k0_t1_loop.trips) : Fin 2 → Nat :=
  let c2 : Index := 2#32
  let c0_i32 : BitVec 32 := 0#32
  let c1_i32 : BitVec 32 := 1#32
  let arg7 : BitVec 32 := Scf.iv c0_i32 c1_i32 k0_t1
  let v43 : Index := Scalar.indexCast arg7
  ![2, v43.toNat]
def k0_off6 (v44 : BitVec 32) : Fin 2 → Nat :=
  let c0_i32_34 : BitVec 32 := 0#32
  ![v44.toNat, 0]

def k0_chk3 (v44 : BitVec 32) : Prop :=
  (∀ a, (k0_off6 v44) a + S1x128.size a ≤ S100001x128.size a)
instance k0_chk3.dec : ∀ (v44 : BitVec 32), Decidable (k0_chk3 v44) := fun v44 => decidable_of_iff' _ (Iff.of_eq (k0_chk3.eq_1 v44))
theorem k0_off6_inb : ∀ (v44 : BitVec 32) (k0_hw3 : k0_chk3 v44), ∀ a, (k0_off6 v44) a + S1x128.size a ≤ S100001x128.size a := fun v44 k0_hw3 => k0_hw3

def k0_off7 (k0_t1 : Fin k0_t1_loop.trips) : Fin 2 → Nat :=
  let c3 : Index := 3#32
  let c0_i32 : BitVec 32 := 0#32
  let c1_i32 : BitVec 32 := 1#32
  let arg7 : BitVec 32 := Scf.iv c0_i32 c1_i32 k0_t1
  let v65 : Index := Scalar.indexCast arg7
  ![3, v65.toNat]
def k0_off8 (v66 : BitVec 32) : Fin 2 → Nat :=
  let c0_i32_49 : BitVec 32 := 0#32
  ![v66.toNat, 0]

def k0_chk4 (v66 : BitVec 32) : Prop :=
  (∀ a, (k0_off8 v66) a + S1x128.size a ≤ S100001x128.size a)
instance k0_chk4.dec : ∀ (v66 : BitVec 32), Decidable (k0_chk4 v66) := fun v66 => decidable_of_iff' _ (Iff.of_eq (k0_chk4.eq_1 v66))
theorem k0_off8_inb : ∀ (v66 : BitVec 32) (k0_hw4 : k0_chk4 v66), ∀ a, (k0_off8 v66) a + S1x128.size a ≤ S100001x128.size a := fun v66 k0_hw4 => k0_hw4

def k0_off9 (k0_t1 : Fin k0_t1_loop.trips) : Fin 2 → Nat :=
  let c4 : Index := 4#32
  let c0_i32 : BitVec 32 := 0#32
  let c1_i32 : BitVec 32 := 1#32
  let arg7 : BitVec 32 := Scf.iv c0_i32 c1_i32 k0_t1
  let v87 : Index := Scalar.indexCast arg7
  ![4, v87.toNat]
def k0_off10 (v88 : BitVec 32) : Fin 2 → Nat :=
  let c0_i32_64 : BitVec 32 := 0#32
  ![v88.toNat, 0]

def k0_chk5 (v88 : BitVec 32) : Prop :=
  (∀ a, (k0_off10 v88) a + S1x128.size a ≤ S100001x128.size a)
instance k0_chk5.dec : ∀ (v88 : BitVec 32), Decidable (k0_chk5 v88) := fun v88 => decidable_of_iff' _ (Iff.of_eq (k0_chk5.eq_1 v88))
theorem k0_off10_inb : ∀ (v88 : BitVec 32) (k0_hw5 : k0_chk5 v88), ∀ a, (k0_off10 v88) a + S1x128.size a ≤ S100001x128.size a := fun v88 k0_hw5 => k0_hw5

def k0_off11 (k0_t1 : Fin k0_t1_loop.trips) : Fin 2 → Nat :=
  let c5 : Index := 5#32
  let c0_i32 : BitVec 32 := 0#32
  let c1_i32 : BitVec 32 := 1#32
  let arg7 : BitVec 32 := Scf.iv c0_i32 c1_i32 k0_t1
  let v109 : Index := Scalar.indexCast arg7
  ![5, v109.toNat]
def k0_off12 (v110 : BitVec 32) : Fin 2 → Nat :=
  let c0_i32_79 : BitVec 32 := 0#32
  ![v110.toNat, 0]

def k0_chk6 (v110 : BitVec 32) : Prop :=
  (∀ a, (k0_off12 v110) a + S1x128.size a ≤ S100001x128.size a)
instance k0_chk6.dec : ∀ (v110 : BitVec 32), Decidable (k0_chk6 v110) := fun v110 => decidable_of_iff' _ (Iff.of_eq (k0_chk6.eq_1 v110))
theorem k0_off12_inb : ∀ (v110 : BitVec 32) (k0_hw6 : k0_chk6 v110), ∀ a, (k0_off12 v110) a + S1x128.size a ≤ S100001x128.size a := fun v110 k0_hw6 => k0_hw6

def k0_off13 (k0_t1 : Fin k0_t1_loop.trips) : Fin 2 → Nat :=
  let c6 : Index := 6#32
  let c0_i32 : BitVec 32 := 0#32
  let c1_i32 : BitVec 32 := 1#32
  let arg7 : BitVec 32 := Scf.iv c0_i32 c1_i32 k0_t1
  let v131 : Index := Scalar.indexCast arg7
  ![6, v131.toNat]
def k0_off14 (v132 : BitVec 32) : Fin 2 → Nat :=
  let c0_i32_94 : BitVec 32 := 0#32
  ![v132.toNat, 0]

def k0_chk7 (v132 : BitVec 32) : Prop :=
  (∀ a, (k0_off14 v132) a + S1x128.size a ≤ S100001x128.size a)
instance k0_chk7.dec : ∀ (v132 : BitVec 32), Decidable (k0_chk7 v132) := fun v132 => decidable_of_iff' _ (Iff.of_eq (k0_chk7.eq_1 v132))
theorem k0_off14_inb : ∀ (v132 : BitVec 32) (k0_hw7 : k0_chk7 v132), ∀ a, (k0_off14 v132) a + S1x128.size a ≤ S100001x128.size a := fun v132 k0_hw7 => k0_hw7

def k0_off15 (k0_t1 : Fin k0_t1_loop.trips) : Fin 2 → Nat :=
  let c7 : Index := 7#32
  let c0_i32 : BitVec 32 := 0#32
  let c1_i32 : BitVec 32 := 1#32
  let arg7 : BitVec 32 := Scf.iv c0_i32 c1_i32 k0_t1
  let v153 : Index := Scalar.indexCast arg7
  ![7, v153.toNat]
def k0_off16 (v154 : BitVec 32) : Fin 2 → Nat :=
  let c0_i32_109 : BitVec 32 := 0#32
  ![v154.toNat, 0]

def k0_chk8 (v154 : BitVec 32) : Prop :=
  (∀ a, (k0_off16 v154) a + S1x128.size a ≤ S100001x128.size a)
instance k0_chk8.dec : ∀ (v154 : BitVec 32), Decidable (k0_chk8 v154) := fun v154 => decidable_of_iff' _ (Iff.of_eq (k0_chk8.eq_1 v154))
theorem k0_off16_inb : ∀ (v154 : BitVec 32) (k0_hw8 : k0_chk8 v154), ∀ a, (k0_off16 v154) a + S1x128.size a ≤ S100001x128.size a := fun v154 k0_hw8 => k0_hw8

def k0_off17 (k0_t1 : Fin k0_t1_loop.trips) : Fin 2 → Nat :=
  let c8 : Index := 8#32
  let c0_i32 : BitVec 32 := 0#32
  let c1_i32 : BitVec 32 := 1#32
  let arg7 : BitVec 32 := Scf.iv c0_i32 c1_i32 k0_t1
  let v175 : Index := Scalar.indexCast arg7
  ![8, v175.toNat]
def k0_off18 (v176 : BitVec 32) : Fin 2 → Nat :=
  let c0_i32_124 : BitVec 32 := 0#32
  ![v176.toNat, 0]

def k0_chk9 (v176 : BitVec 32) : Prop :=
  (∀ a, (k0_off18 v176) a + S1x128.size a ≤ S100001x128.size a)
instance k0_chk9.dec : ∀ (v176 : BitVec 32), Decidable (k0_chk9 v176) := fun v176 => decidable_of_iff' _ (Iff.of_eq (k0_chk9.eq_1 v176))
theorem k0_off18_inb : ∀ (v176 : BitVec 32) (k0_hw9 : k0_chk9 v176), ∀ a, (k0_off18 v176) a + S1x128.size a ≤ S100001x128.size a := fun v176 k0_hw9 => k0_hw9

def k0_off19 (k0_t1 : Fin k0_t1_loop.trips) : Fin 2 → Nat :=
  let c9 : Index := 9#32
  let c0_i32 : BitVec 32 := 0#32
  let c1_i32 : BitVec 32 := 1#32
  let arg7 : BitVec 32 := Scf.iv c0_i32 c1_i32 k0_t1
  let v197 : Index := Scalar.indexCast arg7
  ![9, v197.toNat]
def k0_off20 (v198 : BitVec 32) : Fin 2 → Nat :=
  let c0_i32_139 : BitVec 32 := 0#32
  ![v198.toNat, 0]

def k0_chk10 (v198 : BitVec 32) : Prop :=
  (∀ a, (k0_off20 v198) a + S1x128.size a ≤ S100001x128.size a)
instance k0_chk10.dec : ∀ (v198 : BitVec 32), Decidable (k0_chk10 v198) := fun v198 => decidable_of_iff' _ (Iff.of_eq (k0_chk10.eq_1 v198))
theorem k0_off20_inb : ∀ (v198 : BitVec 32) (k0_hw10 : k0_chk10 v198), ∀ a, (k0_off20 v198) a + S1x128.size a ≤ S100001x128.size a := fun v198 k0_hw10 => k0_hw10

def k0_off21 (k0_t1 : Fin k0_t1_loop.trips) : Fin 2 → Nat :=
  let c10 : Index := 10#32
  let c0_i32 : BitVec 32 := 0#32
  let c1_i32 : BitVec 32 := 1#32
  let arg7 : BitVec 32 := Scf.iv c0_i32 c1_i32 k0_t1
  let v219 : Index := Scalar.indexCast arg7
  ![10, v219.toNat]
def k0_off22 (v220 : BitVec 32) : Fin 2 → Nat :=
  let c0_i32_154 : BitVec 32 := 0#32
  ![v220.toNat, 0]

def k0_chk11 (v220 : BitVec 32) : Prop :=
  (∀ a, (k0_off22 v220) a + S1x128.size a ≤ S100001x128.size a)
instance k0_chk11.dec : ∀ (v220 : BitVec 32), Decidable (k0_chk11 v220) := fun v220 => decidable_of_iff' _ (Iff.of_eq (k0_chk11.eq_1 v220))
theorem k0_off22_inb : ∀ (v220 : BitVec 32) (k0_hw11 : k0_chk11 v220), ∀ a, (k0_off22 v220) a + S1x128.size a ≤ S100001x128.size a := fun v220 k0_hw11 => k0_hw11

def k0_off23 (k0_t1 : Fin k0_t1_loop.trips) : Fin 2 → Nat :=
  let c11 : Index := 11#32
  let c0_i32 : BitVec 32 := 0#32
  let c1_i32 : BitVec 32 := 1#32
  let arg7 : BitVec 32 := Scf.iv c0_i32 c1_i32 k0_t1
  let v241 : Index := Scalar.indexCast arg7
  ![11, v241.toNat]
def k0_off24 (v242 : BitVec 32) : Fin 2 → Nat :=
  let c0_i32_169 : BitVec 32 := 0#32
  ![v242.toNat, 0]

def k0_chk12 (v242 : BitVec 32) : Prop :=
  (∀ a, (k0_off24 v242) a + S1x128.size a ≤ S100001x128.size a)
instance k0_chk12.dec : ∀ (v242 : BitVec 32), Decidable (k0_chk12 v242) := fun v242 => decidable_of_iff' _ (Iff.of_eq (k0_chk12.eq_1 v242))
theorem k0_off24_inb : ∀ (v242 : BitVec 32) (k0_hw12 : k0_chk12 v242), ∀ a, (k0_off24 v242) a + S1x128.size a ≤ S100001x128.size a := fun v242 k0_hw12 => k0_hw12

def k0_off25 (k0_t1 : Fin k0_t1_loop.trips) : Fin 2 → Nat :=
  let c12 : Index := 12#32
  let c0_i32 : BitVec 32 := 0#32
  let c1_i32 : BitVec 32 := 1#32
  let arg7 : BitVec 32 := Scf.iv c0_i32 c1_i32 k0_t1
  let v263 : Index := Scalar.indexCast arg7
  ![12, v263.toNat]
def k0_off26 (v264 : BitVec 32) : Fin 2 → Nat :=
  let c0_i32_184 : BitVec 32 := 0#32
  ![v264.toNat, 0]

def k0_chk13 (v264 : BitVec 32) : Prop :=
  (∀ a, (k0_off26 v264) a + S1x128.size a ≤ S100001x128.size a)
instance k0_chk13.dec : ∀ (v264 : BitVec 32), Decidable (k0_chk13 v264) := fun v264 => decidable_of_iff' _ (Iff.of_eq (k0_chk13.eq_1 v264))
theorem k0_off26_inb : ∀ (v264 : BitVec 32) (k0_hw13 : k0_chk13 v264), ∀ a, (k0_off26 v264) a + S1x128.size a ≤ S100001x128.size a := fun v264 k0_hw13 => k0_hw13

def k0_off27 (k0_t1 : Fin k0_t1_loop.trips) : Fin 2 → Nat :=
  let c13 : Index := 13#32
  let c0_i32 : BitVec 32 := 0#32
  let c1_i32 : BitVec 32 := 1#32
  let arg7 : BitVec 32 := Scf.iv c0_i32 c1_i32 k0_t1
  let v285 : Index := Scalar.indexCast arg7
  ![13, v285.toNat]
def k0_off28 (v286 : BitVec 32) : Fin 2 → Nat :=
  let c0_i32_199 : BitVec 32 := 0#32
  ![v286.toNat, 0]

def k0_chk14 (v286 : BitVec 32) : Prop :=
  (∀ a, (k0_off28 v286) a + S1x128.size a ≤ S100001x128.size a)
instance k0_chk14.dec : ∀ (v286 : BitVec 32), Decidable (k0_chk14 v286) := fun v286 => decidable_of_iff' _ (Iff.of_eq (k0_chk14.eq_1 v286))
theorem k0_off28_inb : ∀ (v286 : BitVec 32) (k0_hw14 : k0_chk14 v286), ∀ a, (k0_off28 v286) a + S1x128.size a ≤ S100001x128.size a := fun v286 k0_hw14 => k0_hw14

def k0_off29 (k0_t1 : Fin k0_t1_loop.trips) : Fin 2 → Nat :=
  let c14 : Index := 14#32
  let c0_i32 : BitVec 32 := 0#32
  let c1_i32 : BitVec 32 := 1#32
  let arg7 : BitVec 32 := Scf.iv c0_i32 c1_i32 k0_t1
  let v307 : Index := Scalar.indexCast arg7
  ![14, v307.toNat]
def k0_off30 (v308 : BitVec 32) : Fin 2 → Nat :=
  let c0_i32_214 : BitVec 32 := 0#32
  ![v308.toNat, 0]

def k0_chk15 (v308 : BitVec 32) : Prop :=
  (∀ a, (k0_off30 v308) a + S1x128.size a ≤ S100001x128.size a)
instance k0_chk15.dec : ∀ (v308 : BitVec 32), Decidable (k0_chk15 v308) := fun v308 => decidable_of_iff' _ (Iff.of_eq (k0_chk15.eq_1 v308))
theorem k0_off30_inb : ∀ (v308 : BitVec 32) (k0_hw15 : k0_chk15 v308), ∀ a, (k0_off30 v308) a + S1x128.size a ≤ S100001x128.size a := fun v308 k0_hw15 => k0_hw15

def k0_off31 (k0_t1 : Fin k0_t1_loop.trips) : Fin 2 → Nat :=
  let c15 : Index := 15#32
  let c0_i32 : BitVec 32 := 0#32
  let c1_i32 : BitVec 32 := 1#32
  let arg7 : BitVec 32 := Scf.iv c0_i32 c1_i32 k0_t1
  let v329 : Index := Scalar.indexCast arg7
  ![15, v329.toNat]
def k0_off32 (v330 : BitVec 32) : Fin 2 → Nat :=
  let c0_i32_229 : BitVec 32 := 0#32
  ![v330.toNat, 0]

def k0_chk16 (v330 : BitVec 32) : Prop :=
  (∀ a, (k0_off32 v330) a + S1x128.size a ≤ S100001x128.size a)
instance k0_chk16.dec : ∀ (v330 : BitVec 32), Decidable (k0_chk16 v330) := fun v330 => decidable_of_iff' _ (Iff.of_eq (k0_chk16.eq_1 v330))
theorem k0_off32_inb : ∀ (v330 : BitVec 32) (k0_hw16 : k0_chk16 v330), ∀ a, (k0_off32 v330) a + S1x128.size a ≤ S100001x128.size a := fun v330 k0_hw16 => k0_hw16

def k0_off33 (k0_t1 : Fin k0_t1_loop.trips) : Fin 2 → Nat :=
  let c16 : Index := 16#32
  let c0_i32 : BitVec 32 := 0#32
  let c1_i32 : BitVec 32 := 1#32
  let arg7 : BitVec 32 := Scf.iv c0_i32 c1_i32 k0_t1
  let v351 : Index := Scalar.indexCast arg7
  ![16, v351.toNat]
def k0_off34 (v352 : BitVec 32) : Fin 2 → Nat :=
  let c0_i32_244 : BitVec 32 := 0#32
  ![v352.toNat, 0]

def k0_chk17 (v352 : BitVec 32) : Prop :=
  (∀ a, (k0_off34 v352) a + S1x128.size a ≤ S100001x128.size a)
instance k0_chk17.dec : ∀ (v352 : BitVec 32), Decidable (k0_chk17 v352) := fun v352 => decidable_of_iff' _ (Iff.of_eq (k0_chk17.eq_1 v352))
theorem k0_off34_inb : ∀ (v352 : BitVec 32) (k0_hw17 : k0_chk17 v352), ∀ a, (k0_off34 v352) a + S1x128.size a ≤ S100001x128.size a := fun v352 k0_hw17 => k0_hw17

def k0_off35 (k0_t1 : Fin k0_t1_loop.trips) : Fin 2 → Nat :=
  let c17 : Index := 17#32
  let c0_i32 : BitVec 32 := 0#32
  let c1_i32 : BitVec 32 := 1#32
  let arg7 : BitVec 32 := Scf.iv c0_i32 c1_i32 k0_t1
  let v373 : Index := Scalar.indexCast arg7
  ![17, v373.toNat]
def k0_off36 (v374 : BitVec 32) : Fin 2 → Nat :=
  let c0_i32_259 : BitVec 32 := 0#32
  ![v374.toNat, 0]

def k0_chk18 (v374 : BitVec 32) : Prop :=
  (∀ a, (k0_off36 v374) a + S1x128.size a ≤ S100001x128.size a)
instance k0_chk18.dec : ∀ (v374 : BitVec 32), Decidable (k0_chk18 v374) := fun v374 => decidable_of_iff' _ (Iff.of_eq (k0_chk18.eq_1 v374))
theorem k0_off36_inb : ∀ (v374 : BitVec 32) (k0_hw18 : k0_chk18 v374), ∀ a, (k0_off36 v374) a + S1x128.size a ≤ S100001x128.size a := fun v374 k0_hw18 => k0_hw18

def k0_off37 (k0_t1 : Fin k0_t1_loop.trips) : Fin 2 → Nat :=
  let c18 : Index := 18#32
  let c0_i32 : BitVec 32 := 0#32
  let c1_i32 : BitVec 32 := 1#32
  let arg7 : BitVec 32 := Scf.iv c0_i32 c1_i32 k0_t1
  let v395 : Index := Scalar.indexCast arg7
  ![18, v395.toNat]
def k0_off38 (v396 : BitVec 32) : Fin 2 → Nat :=
  let c0_i32_274 : BitVec 32 := 0#32
  ![v396.toNat, 0]

def k0_chk19 (v396 : BitVec 32) : Prop :=
  (∀ a, (k0_off38 v396) a + S1x128.size a ≤ S100001x128.size a)
instance k0_chk19.dec : ∀ (v396 : BitVec 32), Decidable (k0_chk19 v396) := fun v396 => decidable_of_iff' _ (Iff.of_eq (k0_chk19.eq_1 v396))
theorem k0_off38_inb : ∀ (v396 : BitVec 32) (k0_hw19 : k0_chk19 v396), ∀ a, (k0_off38 v396) a + S1x128.size a ≤ S100001x128.size a := fun v396 k0_hw19 => k0_hw19

def k0_off39 (k0_t1 : Fin k0_t1_loop.trips) : Fin 2 → Nat :=
  let c19 : Index := 19#32
  let c0_i32 : BitVec 32 := 0#32
  let c1_i32 : BitVec 32 := 1#32
  let arg7 : BitVec 32 := Scf.iv c0_i32 c1_i32 k0_t1
  let v417 : Index := Scalar.indexCast arg7
  ![19, v417.toNat]
def k0_off40 (v418 : BitVec 32) : Fin 2 → Nat :=
  let c0_i32_289 : BitVec 32 := 0#32
  ![v418.toNat, 0]

def k0_chk20 (v418 : BitVec 32) : Prop :=
  (∀ a, (k0_off40 v418) a + S1x128.size a ≤ S100001x128.size a)
instance k0_chk20.dec : ∀ (v418 : BitVec 32), Decidable (k0_chk20 v418) := fun v418 => decidable_of_iff' _ (Iff.of_eq (k0_chk20.eq_1 v418))
theorem k0_off40_inb : ∀ (v418 : BitVec 32) (k0_hw20 : k0_chk20 v418), ∀ a, (k0_off40 v418) a + S1x128.size a ≤ S100001x128.size a := fun v418 k0_hw20 => k0_hw20

def k0_off41 (k0_t1 : Fin k0_t1_loop.trips) : Fin 2 → Nat :=
  let c20 : Index := 20#32
  let c0_i32 : BitVec 32 := 0#32
  let c1_i32 : BitVec 32 := 1#32
  let arg7 : BitVec 32 := Scf.iv c0_i32 c1_i32 k0_t1
  let v439 : Index := Scalar.indexCast arg7
  ![20, v439.toNat]
def k0_off42 (v440 : BitVec 32) : Fin 2 → Nat :=
  let c0_i32_304 : BitVec 32 := 0#32
  ![v440.toNat, 0]

def k0_chk21 (v440 : BitVec 32) : Prop :=
  (∀ a, (k0_off42 v440) a + S1x128.size a ≤ S100001x128.size a)
instance k0_chk21.dec : ∀ (v440 : BitVec 32), Decidable (k0_chk21 v440) := fun v440 => decidable_of_iff' _ (Iff.of_eq (k0_chk21.eq_1 v440))
theorem k0_off42_inb : ∀ (v440 : BitVec 32) (k0_hw21 : k0_chk21 v440), ∀ a, (k0_off42 v440) a + S1x128.size a ≤ S100001x128.size a := fun v440 k0_hw21 => k0_hw21

def k0_off43 (k0_t1 : Fin k0_t1_loop.trips) : Fin 2 → Nat :=
  let c21 : Index := 21#32
  let c0_i32 : BitVec 32 := 0#32
  let c1_i32 : BitVec 32 := 1#32
  let arg7 : BitVec 32 := Scf.iv c0_i32 c1_i32 k0_t1
  let v461 : Index := Scalar.indexCast arg7
  ![21, v461.toNat]
def k0_off44 (v462 : BitVec 32) : Fin 2 → Nat :=
  let c0_i32_319 : BitVec 32 := 0#32
  ![v462.toNat, 0]

def k0_chk22 (v462 : BitVec 32) : Prop :=
  (∀ a, (k0_off44 v462) a + S1x128.size a ≤ S100001x128.size a)
instance k0_chk22.dec : ∀ (v462 : BitVec 32), Decidable (k0_chk22 v462) := fun v462 => decidable_of_iff' _ (Iff.of_eq (k0_chk22.eq_1 v462))
theorem k0_off44_inb : ∀ (v462 : BitVec 32) (k0_hw22 : k0_chk22 v462), ∀ a, (k0_off44 v462) a + S1x128.size a ≤ S100001x128.size a := fun v462 k0_hw22 => k0_hw22

def k0_off45 (k0_t1 : Fin k0_t1_loop.trips) : Fin 2 → Nat :=
  let c22 : Index := 22#32
  let c0_i32 : BitVec 32 := 0#32
  let c1_i32 : BitVec 32 := 1#32
  let arg7 : BitVec 32 := Scf.iv c0_i32 c1_i32 k0_t1
  let v483 : Index := Scalar.indexCast arg7
  ![22, v483.toNat]
def k0_off46 (v484 : BitVec 32) : Fin 2 → Nat :=
  let c0_i32_334 : BitVec 32 := 0#32
  ![v484.toNat, 0]

def k0_chk23 (v484 : BitVec 32) : Prop :=
  (∀ a, (k0_off46 v484) a + S1x128.size a ≤ S100001x128.size a)
instance k0_chk23.dec : ∀ (v484 : BitVec 32), Decidable (k0_chk23 v484) := fun v484 => decidable_of_iff' _ (Iff.of_eq (k0_chk23.eq_1 v484))
theorem k0_off46_inb : ∀ (v484 : BitVec 32) (k0_hw23 : k0_chk23 v484), ∀ a, (k0_off46 v484) a + S1x128.size a ≤ S100001x128.size a := fun v484 k0_hw23 => k0_hw23

def k0_off47 (k0_t1 : Fin k0_t1_loop.trips) : Fin 2 → Nat :=
  let c23 : Index := 23#32
  let c0_i32 : BitVec 32 := 0#32
  let c1_i32 : BitVec 32 := 1#32
  let arg7 : BitVec 32 := Scf.iv c0_i32 c1_i32 k0_t1
  let v505 : Index := Scalar.indexCast arg7
  ![23, v505.toNat]
def k0_off48 (v506 : BitVec 32) : Fin 2 → Nat :=
  let c0_i32_349 : BitVec 32 := 0#32
  ![v506.toNat, 0]

def k0_chk24 (v506 : BitVec 32) : Prop :=
  (∀ a, (k0_off48 v506) a + S1x128.size a ≤ S100001x128.size a)
instance k0_chk24.dec : ∀ (v506 : BitVec 32), Decidable (k0_chk24 v506) := fun v506 => decidable_of_iff' _ (Iff.of_eq (k0_chk24.eq_1 v506))
theorem k0_off48_inb : ∀ (v506 : BitVec 32) (k0_hw24 : k0_chk24 v506), ∀ a, (k0_off48 v506) a + S1x128.size a ≤ S100001x128.size a := fun v506 k0_hw24 => k0_hw24

def k0_off49 (k0_t1 : Fin k0_t1_loop.trips) : Fin 2 → Nat :=
  let c24 : Index := 24#32
  let c0_i32 : BitVec 32 := 0#32
  let c1_i32 : BitVec 32 := 1#32
  let arg7 : BitVec 32 := Scf.iv c0_i32 c1_i32 k0_t1
  let v527 : Index := Scalar.indexCast arg7
  ![24, v527.toNat]
def k0_off50 (v528 : BitVec 32) : Fin 2 → Nat :=
  let c0_i32_364 : BitVec 32 := 0#32
  ![v528.toNat, 0]

def k0_chk25 (v528 : BitVec 32) : Prop :=
  (∀ a, (k0_off50 v528) a + S1x128.size a ≤ S100001x128.size a)
instance k0_chk25.dec : ∀ (v528 : BitVec 32), Decidable (k0_chk25 v528) := fun v528 => decidable_of_iff' _ (Iff.of_eq (k0_chk25.eq_1 v528))
theorem k0_off50_inb : ∀ (v528 : BitVec 32) (k0_hw25 : k0_chk25 v528), ∀ a, (k0_off50 v528) a + S1x128.size a ≤ S100001x128.size a := fun v528 k0_hw25 => k0_hw25

def k0_off51 (k0_t1 : Fin k0_t1_loop.trips) : Fin 2 → Nat :=
  let c25 : Index := 25#32
  let c0_i32 : BitVec 32 := 0#32
  let c1_i32 : BitVec 32 := 1#32
  let arg7 : BitVec 32 := Scf.iv c0_i32 c1_i32 k0_t1
  let v549 : Index := Scalar.indexCast arg7
  ![25, v549.toNat]
def k0_off52 (v550 : BitVec 32) : Fin 2 → Nat :=
  let c0_i32_379 : BitVec 32 := 0#32
  ![v550.toNat, 0]

def k0_chk26 (v550 : BitVec 32) : Prop :=
  (∀ a, (k0_off52 v550) a + S1x128.size a ≤ S100001x128.size a)
instance k0_chk26.dec : ∀ (v550 : BitVec 32), Decidable (k0_chk26 v550) := fun v550 => decidable_of_iff' _ (Iff.of_eq (k0_chk26.eq_1 v550))
theorem k0_off52_inb : ∀ (v550 : BitVec 32) (k0_hw26 : k0_chk26 v550), ∀ a, (k0_off52 v550) a + S1x128.size a ≤ S100001x128.size a := fun v550 k0_hw26 => k0_hw26

def k0_off53 (k0_t1 : Fin k0_t1_loop.trips) : Fin 2 → Nat :=
  let c26 : Index := 26#32
  let c0_i32 : BitVec 32 := 0#32
  let c1_i32 : BitVec 32 := 1#32
  let arg7 : BitVec 32 := Scf.iv c0_i32 c1_i32 k0_t1
  let v571 : Index := Scalar.indexCast arg7
  ![26, v571.toNat]
def k0_off54 (v572 : BitVec 32) : Fin 2 → Nat :=
  let c0_i32_394 : BitVec 32 := 0#32
  ![v572.toNat, 0]

def k0_chk27 (v572 : BitVec 32) : Prop :=
  (∀ a, (k0_off54 v572) a + S1x128.size a ≤ S100001x128.size a)
instance k0_chk27.dec : ∀ (v572 : BitVec 32), Decidable (k0_chk27 v572) := fun v572 => decidable_of_iff' _ (Iff.of_eq (k0_chk27.eq_1 v572))
theorem k0_off54_inb : ∀ (v572 : BitVec 32) (k0_hw27 : k0_chk27 v572), ∀ a, (k0_off54 v572) a + S1x128.size a ≤ S100001x128.size a := fun v572 k0_hw27 => k0_hw27

def k0_off55 (k0_t1 : Fin k0_t1_loop.trips) : Fin 2 → Nat :=
  let c27 : Index := 27#32
  let c0_i32 : BitVec 32 := 0#32
  let c1_i32 : BitVec 32 := 1#32
  let arg7 : BitVec 32 := Scf.iv c0_i32 c1_i32 k0_t1
  let v593 : Index := Scalar.indexCast arg7
  ![27, v593.toNat]
def k0_off56 (v594 : BitVec 32) : Fin 2 → Nat :=
  let c0_i32_409 : BitVec 32 := 0#32
  ![v594.toNat, 0]

def k0_chk28 (v594 : BitVec 32) : Prop :=
  (∀ a, (k0_off56 v594) a + S1x128.size a ≤ S100001x128.size a)
instance k0_chk28.dec : ∀ (v594 : BitVec 32), Decidable (k0_chk28 v594) := fun v594 => decidable_of_iff' _ (Iff.of_eq (k0_chk28.eq_1 v594))
theorem k0_off56_inb : ∀ (v594 : BitVec 32) (k0_hw28 : k0_chk28 v594), ∀ a, (k0_off56 v594) a + S1x128.size a ≤ S100001x128.size a := fun v594 k0_hw28 => k0_hw28

def k0_off57 (k0_t1 : Fin k0_t1_loop.trips) : Fin 2 → Nat :=
  let c28 : Index := 28#32
  let c0_i32 : BitVec 32 := 0#32
  let c1_i32 : BitVec 32 := 1#32
  let arg7 : BitVec 32 := Scf.iv c0_i32 c1_i32 k0_t1
  let v615 : Index := Scalar.indexCast arg7
  ![28, v615.toNat]
def k0_off58 (v616 : BitVec 32) : Fin 2 → Nat :=
  let c0_i32_424 : BitVec 32 := 0#32
  ![v616.toNat, 0]

def k0_chk29 (v616 : BitVec 32) : Prop :=
  (∀ a, (k0_off58 v616) a + S1x128.size a ≤ S100001x128.size a)
instance k0_chk29.dec : ∀ (v616 : BitVec 32), Decidable (k0_chk29 v616) := fun v616 => decidable_of_iff' _ (Iff.of_eq (k0_chk29.eq_1 v616))
theorem k0_off58_inb : ∀ (v616 : BitVec 32) (k0_hw29 : k0_chk29 v616), ∀ a, (k0_off58 v616) a + S1x128.size a ≤ S100001x128.size a := fun v616 k0_hw29 => k0_hw29

def k0_off59 (k0_t1 : Fin k0_t1_loop.trips) : Fin 2 → Nat :=
  let c29 : Index := 29#32
  let c0_i32 : BitVec 32 := 0#32
  let c1_i32 : BitVec 32 := 1#32
  let arg7 : BitVec 32 := Scf.iv c0_i32 c1_i32 k0_t1
  let v637 : Index := Scalar.indexCast arg7
  ![29, v637.toNat]
def k0_off60 (v638 : BitVec 32) : Fin 2 → Nat :=
  let c0_i32_439 : BitVec 32 := 0#32
  ![v638.toNat, 0]

def k0_chk30 (v638 : BitVec 32) : Prop :=
  (∀ a, (k0_off60 v638) a + S1x128.size a ≤ S100001x128.size a)
instance k0_chk30.dec : ∀ (v638 : BitVec 32), Decidable (k0_chk30 v638) := fun v638 => decidable_of_iff' _ (Iff.of_eq (k0_chk30.eq_1 v638))
theorem k0_off60_inb : ∀ (v638 : BitVec 32) (k0_hw30 : k0_chk30 v638), ∀ a, (k0_off60 v638) a + S1x128.size a ≤ S100001x128.size a := fun v638 k0_hw30 => k0_hw30

def k0_off61 (k0_t1 : Fin k0_t1_loop.trips) : Fin 2 → Nat :=
  let c30 : Index := 30#32
  let c0_i32 : BitVec 32 := 0#32
  let c1_i32 : BitVec 32 := 1#32
  let arg7 : BitVec 32 := Scf.iv c0_i32 c1_i32 k0_t1
  let v659 : Index := Scalar.indexCast arg7
  ![30, v659.toNat]
def k0_off62 (v660 : BitVec 32) : Fin 2 → Nat :=
  let c0_i32_454 : BitVec 32 := 0#32
  ![v660.toNat, 0]

def k0_chk31 (v660 : BitVec 32) : Prop :=
  (∀ a, (k0_off62 v660) a + S1x128.size a ≤ S100001x128.size a)
instance k0_chk31.dec : ∀ (v660 : BitVec 32), Decidable (k0_chk31 v660) := fun v660 => decidable_of_iff' _ (Iff.of_eq (k0_chk31.eq_1 v660))
theorem k0_off62_inb : ∀ (v660 : BitVec 32) (k0_hw31 : k0_chk31 v660), ∀ a, (k0_off62 v660) a + S1x128.size a ≤ S100001x128.size a := fun v660 k0_hw31 => k0_hw31

def k0_off63 (k0_t1 : Fin k0_t1_loop.trips) : Fin 2 → Nat :=
  let c31 : Index := 31#32
  let c0_i32 : BitVec 32 := 0#32
  let c1_i32 : BitVec 32 := 1#32
  let arg7 : BitVec 32 := Scf.iv c0_i32 c1_i32 k0_t1
  let v681 : Index := Scalar.indexCast arg7
  ![31, v681.toNat]
def k0_off64 (v682 : BitVec 32) : Fin 2 → Nat :=
  let c0_i32_469 : BitVec 32 := 0#32
  ![v682.toNat, 0]

def k0_chk32 (v682 : BitVec 32) : Prop :=
  (∀ a, (k0_off64 v682) a + S1x128.size a ≤ S100001x128.size a)
instance k0_chk32.dec : ∀ (v682 : BitVec 32), Decidable (k0_chk32 v682) := fun v682 => decidable_of_iff' _ (Iff.of_eq (k0_chk32.eq_1 v682))
theorem k0_off64_inb : ∀ (v682 : BitVec 32) (k0_hw32 : k0_chk32 v682), ∀ a, (k0_off64 v682) a + S1x128.size a ≤ S100001x128.size a := fun v682 k0_hw32 => k0_hw32

def k0_off65 (k0_t1 : Fin k0_t1_loop.trips) : Fin 2 → Nat :=
  let c32 : Index := 32#32
  let c0_i32 : BitVec 32 := 0#32
  let c1_i32 : BitVec 32 := 1#32
  let arg7 : BitVec 32 := Scf.iv c0_i32 c1_i32 k0_t1
  let v703 : Index := Scalar.indexCast arg7
  ![32, v703.toNat]
def k0_off66 (v704 : BitVec 32) : Fin 2 → Nat :=
  let c0_i32_484 : BitVec 32 := 0#32
  ![v704.toNat, 0]

def k0_chk33 (v704 : BitVec 32) : Prop :=
  (∀ a, (k0_off66 v704) a + S1x128.size a ≤ S100001x128.size a)
instance k0_chk33.dec : ∀ (v704 : BitVec 32), Decidable (k0_chk33 v704) := fun v704 => decidable_of_iff' _ (Iff.of_eq (k0_chk33.eq_1 v704))
theorem k0_off66_inb : ∀ (v704 : BitVec 32) (k0_hw33 : k0_chk33 v704), ∀ a, (k0_off66 v704) a + S1x128.size a ≤ S100001x128.size a := fun v704 k0_hw33 => k0_hw33

def k0_off67 (k0_t1 : Fin k0_t1_loop.trips) : Fin 2 → Nat :=
  let c33 : Index := 33#32
  let c0_i32 : BitVec 32 := 0#32
  let c1_i32 : BitVec 32 := 1#32
  let arg7 : BitVec 32 := Scf.iv c0_i32 c1_i32 k0_t1
  let v725 : Index := Scalar.indexCast arg7
  ![33, v725.toNat]
def k0_off68 (v726 : BitVec 32) : Fin 2 → Nat :=
  let c0_i32_499 : BitVec 32 := 0#32
  ![v726.toNat, 0]

def k0_chk34 (v726 : BitVec 32) : Prop :=
  (∀ a, (k0_off68 v726) a + S1x128.size a ≤ S100001x128.size a)
instance k0_chk34.dec : ∀ (v726 : BitVec 32), Decidable (k0_chk34 v726) := fun v726 => decidable_of_iff' _ (Iff.of_eq (k0_chk34.eq_1 v726))
theorem k0_off68_inb : ∀ (v726 : BitVec 32) (k0_hw34 : k0_chk34 v726), ∀ a, (k0_off68 v726) a + S1x128.size a ≤ S100001x128.size a := fun v726 k0_hw34 => k0_hw34

def k0_off69 (k0_t1 : Fin k0_t1_loop.trips) : Fin 2 → Nat :=
  let c34 : Index := 34#32
  let c0_i32 : BitVec 32 := 0#32
  let c1_i32 : BitVec 32 := 1#32
  let arg7 : BitVec 32 := Scf.iv c0_i32 c1_i32 k0_t1
  let v747 : Index := Scalar.indexCast arg7
  ![34, v747.toNat]
def k0_off70 (v748 : BitVec 32) : Fin 2 → Nat :=
  let c0_i32_514 : BitVec 32 := 0#32
  ![v748.toNat, 0]

def k0_chk35 (v748 : BitVec 32) : Prop :=
  (∀ a, (k0_off70 v748) a + S1x128.size a ≤ S100001x128.size a)
instance k0_chk35.dec : ∀ (v748 : BitVec 32), Decidable (k0_chk35 v748) := fun v748 => decidable_of_iff' _ (Iff.of_eq (k0_chk35.eq_1 v748))
theorem k0_off70_inb : ∀ (v748 : BitVec 32) (k0_hw35 : k0_chk35 v748), ∀ a, (k0_off70 v748) a + S1x128.size a ≤ S100001x128.size a := fun v748 k0_hw35 => k0_hw35

def k0_off71 (k0_t1 : Fin k0_t1_loop.trips) : Fin 2 → Nat :=
  let c35 : Index := 35#32
  let c0_i32 : BitVec 32 := 0#32
  let c1_i32 : BitVec 32 := 1#32
  let arg7 : BitVec 32 := Scf.iv c0_i32 c1_i32 k0_t1
  let v769 : Index := Scalar.indexCast arg7
  ![35, v769.toNat]
def k0_off72 (v770 : BitVec 32) : Fin 2 → Nat :=
  let c0_i32_529 : BitVec 32 := 0#32
  ![v770.toNat, 0]

def k0_chk36 (v770 : BitVec 32) : Prop :=
  (∀ a, (k0_off72 v770) a + S1x128.size a ≤ S100001x128.size a)
instance k0_chk36.dec : ∀ (v770 : BitVec 32), Decidable (k0_chk36 v770) := fun v770 => decidable_of_iff' _ (Iff.of_eq (k0_chk36.eq_1 v770))
theorem k0_off72_inb : ∀ (v770 : BitVec 32) (k0_hw36 : k0_chk36 v770), ∀ a, (k0_off72 v770) a + S1x128.size a ≤ S100001x128.size a := fun v770 k0_hw36 => k0_hw36

def k0_off73 (k0_t1 : Fin k0_t1_loop.trips) : Fin 2 → Nat :=
  let c36 : Index := 36#32
  let c0_i32 : BitVec 32 := 0#32
  let c1_i32 : BitVec 32 := 1#32
  let arg7 : BitVec 32 := Scf.iv c0_i32 c1_i32 k0_t1
  let v791 : Index := Scalar.indexCast arg7
  ![36, v791.toNat]
def k0_off74 (v792 : BitVec 32) : Fin 2 → Nat :=
  let c0_i32_544 : BitVec 32 := 0#32
  ![v792.toNat, 0]

def k0_chk37 (v792 : BitVec 32) : Prop :=
  (∀ a, (k0_off74 v792) a + S1x128.size a ≤ S100001x128.size a)
instance k0_chk37.dec : ∀ (v792 : BitVec 32), Decidable (k0_chk37 v792) := fun v792 => decidable_of_iff' _ (Iff.of_eq (k0_chk37.eq_1 v792))
theorem k0_off74_inb : ∀ (v792 : BitVec 32) (k0_hw37 : k0_chk37 v792), ∀ a, (k0_off74 v792) a + S1x128.size a ≤ S100001x128.size a := fun v792 k0_hw37 => k0_hw37

def k0_off75 (k0_t1 : Fin k0_t1_loop.trips) : Fin 2 → Nat :=
  let c37 : Index := 37#32
  let c0_i32 : BitVec 32 := 0#32
  let c1_i32 : BitVec 32 := 1#32
  let arg7 : BitVec 32 := Scf.iv c0_i32 c1_i32 k0_t1
  let v813 : Index := Scalar.indexCast arg7
  ![37, v813.toNat]
def k0_off76 (v814 : BitVec 32) : Fin 2 → Nat :=
  let c0_i32_559 : BitVec 32 := 0#32
  ![v814.toNat, 0]

def k0_chk38 (v814 : BitVec 32) : Prop :=
  (∀ a, (k0_off76 v814) a + S1x128.size a ≤ S100001x128.size a)
instance k0_chk38.dec : ∀ (v814 : BitVec 32), Decidable (k0_chk38 v814) := fun v814 => decidable_of_iff' _ (Iff.of_eq (k0_chk38.eq_1 v814))
theorem k0_off76_inb : ∀ (v814 : BitVec 32) (k0_hw38 : k0_chk38 v814), ∀ a, (k0_off76 v814) a + S1x128.size a ≤ S100001x128.size a := fun v814 k0_hw38 => k0_hw38

def k0_off77 (k0_t1 : Fin k0_t1_loop.trips) : Fin 2 → Nat :=
  let c38 : Index := 38#32
  let c0_i32 : BitVec 32 := 0#32
  let c1_i32 : BitVec 32 := 1#32
  let arg7 : BitVec 32 := Scf.iv c0_i32 c1_i32 k0_t1
  let v835 : Index := Scalar.indexCast arg7
  ![38, v835.toNat]
def k0_off78 (v836 : BitVec 32) : Fin 2 → Nat :=
  let c0_i32_574 : BitVec 32 := 0#32
  ![v836.toNat, 0]

def k0_chk39 (v836 : BitVec 32) : Prop :=
  (∀ a, (k0_off78 v836) a + S1x128.size a ≤ S100001x128.size a)
instance k0_chk39.dec : ∀ (v836 : BitVec 32), Decidable (k0_chk39 v836) := fun v836 => decidable_of_iff' _ (Iff.of_eq (k0_chk39.eq_1 v836))
theorem k0_off78_inb : ∀ (v836 : BitVec 32) (k0_hw39 : k0_chk39 v836), ∀ a, (k0_off78 v836) a + S1x128.size a ≤ S100001x128.size a := fun v836 k0_hw39 => k0_hw39

def k0_off79 (k0_t1 : Fin k0_t1_loop.trips) : Fin 2 → Nat :=
  let c39 : Index := 39#32
  let c0_i32 : BitVec 32 := 0#32
  let c1_i32 : BitVec 32 := 1#32
  let arg7 : BitVec 32 := Scf.iv c0_i32 c1_i32 k0_t1
  let v857 : Index := Scalar.indexCast arg7
  ![39, v857.toNat]
def k0_off80 (v858 : BitVec 32) : Fin 2 → Nat :=
  let c0_i32_589 : BitVec 32 := 0#32
  ![v858.toNat, 0]

def k0_chk40 (v858 : BitVec 32) : Prop :=
  (∀ a, (k0_off80 v858) a + S1x128.size a ≤ S100001x128.size a)
instance k0_chk40.dec : ∀ (v858 : BitVec 32), Decidable (k0_chk40 v858) := fun v858 => decidable_of_iff' _ (Iff.of_eq (k0_chk40.eq_1 v858))
theorem k0_off80_inb : ∀ (v858 : BitVec 32) (k0_hw40 : k0_chk40 v858), ∀ a, (k0_off80 v858) a + S1x128.size a ≤ S100001x128.size a := fun v858 k0_hw40 => k0_hw40

def k0_off81 (k0_t1 : Fin k0_t1_loop.trips) : Fin 2 → Nat :=
  let c40 : Index := 40#32
  let c0_i32 : BitVec 32 := 0#32
  let c1_i32 : BitVec 32 := 1#32
  let arg7 : BitVec 32 := Scf.iv c0_i32 c1_i32 k0_t1
  let v879 : Index := Scalar.indexCast arg7
  ![40, v879.toNat]
def k0_off82 (v880 : BitVec 32) : Fin 2 → Nat :=
  let c0_i32_604 : BitVec 32 := 0#32
  ![v880.toNat, 0]

def k0_chk41 (v880 : BitVec 32) : Prop :=
  (∀ a, (k0_off82 v880) a + S1x128.size a ≤ S100001x128.size a)
instance k0_chk41.dec : ∀ (v880 : BitVec 32), Decidable (k0_chk41 v880) := fun v880 => decidable_of_iff' _ (Iff.of_eq (k0_chk41.eq_1 v880))
theorem k0_off82_inb : ∀ (v880 : BitVec 32) (k0_hw41 : k0_chk41 v880), ∀ a, (k0_off82 v880) a + S1x128.size a ≤ S100001x128.size a := fun v880 k0_hw41 => k0_hw41

def k0_off83 (k0_t1 : Fin k0_t1_loop.trips) : Fin 2 → Nat :=
  let c41 : Index := 41#32
  let c0_i32 : BitVec 32 := 0#32
  let c1_i32 : BitVec 32 := 1#32
  let arg7 : BitVec 32 := Scf.iv c0_i32 c1_i32 k0_t1
  let v901 : Index := Scalar.indexCast arg7
  ![41, v901.toNat]
def k0_off84 (v902 : BitVec 32) : Fin 2 → Nat :=
  let c0_i32_619 : BitVec 32 := 0#32
  ![v902.toNat, 0]

def k0_chk42 (v902 : BitVec 32) : Prop :=
  (∀ a, (k0_off84 v902) a + S1x128.size a ≤ S100001x128.size a)
instance k0_chk42.dec : ∀ (v902 : BitVec 32), Decidable (k0_chk42 v902) := fun v902 => decidable_of_iff' _ (Iff.of_eq (k0_chk42.eq_1 v902))
theorem k0_off84_inb : ∀ (v902 : BitVec 32) (k0_hw42 : k0_chk42 v902), ∀ a, (k0_off84 v902) a + S1x128.size a ≤ S100001x128.size a := fun v902 k0_hw42 => k0_hw42

def k0_off85 (k0_t1 : Fin k0_t1_loop.trips) : Fin 2 → Nat :=
  let c42 : Index := 42#32
  let c0_i32 : BitVec 32 := 0#32
  let c1_i32 : BitVec 32 := 1#32
  let arg7 : BitVec 32 := Scf.iv c0_i32 c1_i32 k0_t1
  let v923 : Index := Scalar.indexCast arg7
  ![42, v923.toNat]
def k0_off86 (v924 : BitVec 32) : Fin 2 → Nat :=
  let c0_i32_634 : BitVec 32 := 0#32
  ![v924.toNat, 0]

def k0_chk43 (v924 : BitVec 32) : Prop :=
  (∀ a, (k0_off86 v924) a + S1x128.size a ≤ S100001x128.size a)
instance k0_chk43.dec : ∀ (v924 : BitVec 32), Decidable (k0_chk43 v924) := fun v924 => decidable_of_iff' _ (Iff.of_eq (k0_chk43.eq_1 v924))
theorem k0_off86_inb : ∀ (v924 : BitVec 32) (k0_hw43 : k0_chk43 v924), ∀ a, (k0_off86 v924) a + S1x128.size a ≤ S100001x128.size a := fun v924 k0_hw43 => k0_hw43

def k0_off87 (k0_t1 : Fin k0_t1_loop.trips) : Fin 2 → Nat :=
  let c43 : Index := 43#32
  let c0_i32 : BitVec 32 := 0#32
  let c1_i32 : BitVec 32 := 1#32
  let arg7 : BitVec 32 := Scf.iv c0_i32 c1_i32 k0_t1
  let v945 : Index := Scalar.indexCast arg7
  ![43, v945.toNat]
def k0_off88 (v946 : BitVec 32) : Fin 2 → Nat :=
  let c0_i32_649 : BitVec 32 := 0#32
  ![v946.toNat, 0]

def k0_chk44 (v946 : BitVec 32) : Prop :=
  (∀ a, (k0_off88 v946) a + S1x128.size a ≤ S100001x128.size a)
instance k0_chk44.dec : ∀ (v946 : BitVec 32), Decidable (k0_chk44 v946) := fun v946 => decidable_of_iff' _ (Iff.of_eq (k0_chk44.eq_1 v946))
theorem k0_off88_inb : ∀ (v946 : BitVec 32) (k0_hw44 : k0_chk44 v946), ∀ a, (k0_off88 v946) a + S1x128.size a ≤ S100001x128.size a := fun v946 k0_hw44 => k0_hw44

def k0_off89 (k0_t1 : Fin k0_t1_loop.trips) : Fin 2 → Nat :=
  let c44 : Index := 44#32
  let c0_i32 : BitVec 32 := 0#32
  let c1_i32 : BitVec 32 := 1#32
  let arg7 : BitVec 32 := Scf.iv c0_i32 c1_i32 k0_t1
  let v967 : Index := Scalar.indexCast arg7
  ![44, v967.toNat]
def k0_off90 (v968 : BitVec 32) : Fin 2 → Nat :=
  let c0_i32_664 : BitVec 32 := 0#32
  ![v968.toNat, 0]

def k0_chk45 (v968 : BitVec 32) : Prop :=
  (∀ a, (k0_off90 v968) a + S1x128.size a ≤ S100001x128.size a)
instance k0_chk45.dec : ∀ (v968 : BitVec 32), Decidable (k0_chk45 v968) := fun v968 => decidable_of_iff' _ (Iff.of_eq (k0_chk45.eq_1 v968))
theorem k0_off90_inb : ∀ (v968 : BitVec 32) (k0_hw45 : k0_chk45 v968), ∀ a, (k0_off90 v968) a + S1x128.size a ≤ S100001x128.size a := fun v968 k0_hw45 => k0_hw45

def k0_off91 (k0_t1 : Fin k0_t1_loop.trips) : Fin 2 → Nat :=
  let c45 : Index := 45#32
  let c0_i32 : BitVec 32 := 0#32
  let c1_i32 : BitVec 32 := 1#32
  let arg7 : BitVec 32 := Scf.iv c0_i32 c1_i32 k0_t1
  let v989 : Index := Scalar.indexCast arg7
  ![45, v989.toNat]
def k0_off92 (v990 : BitVec 32) : Fin 2 → Nat :=
  let c0_i32_679 : BitVec 32 := 0#32
  ![v990.toNat, 0]

def k0_chk46 (v990 : BitVec 32) : Prop :=
  (∀ a, (k0_off92 v990) a + S1x128.size a ≤ S100001x128.size a)
instance k0_chk46.dec : ∀ (v990 : BitVec 32), Decidable (k0_chk46 v990) := fun v990 => decidable_of_iff' _ (Iff.of_eq (k0_chk46.eq_1 v990))
theorem k0_off92_inb : ∀ (v990 : BitVec 32) (k0_hw46 : k0_chk46 v990), ∀ a, (k0_off92 v990) a + S1x128.size a ≤ S100001x128.size a := fun v990 k0_hw46 => k0_hw46

def k0_off93 (k0_t1 : Fin k0_t1_loop.trips) : Fin 2 → Nat :=
  let c46 : Index := 46#32
  let c0_i32 : BitVec 32 := 0#32
  let c1_i32 : BitVec 32 := 1#32
  let arg7 : BitVec 32 := Scf.iv c0_i32 c1_i32 k0_t1
  let v1011 : Index := Scalar.indexCast arg7
  ![46, v1011.toNat]
def k0_off94 (v1012 : BitVec 32) : Fin 2 → Nat :=
  let c0_i32_694 : BitVec 32 := 0#32
  ![v1012.toNat, 0]

def k0_chk47 (v1012 : BitVec 32) : Prop :=
  (∀ a, (k0_off94 v1012) a + S1x128.size a ≤ S100001x128.size a)
instance k0_chk47.dec : ∀ (v1012 : BitVec 32), Decidable (k0_chk47 v1012) := fun v1012 => decidable_of_iff' _ (Iff.of_eq (k0_chk47.eq_1 v1012))
theorem k0_off94_inb : ∀ (v1012 : BitVec 32) (k0_hw47 : k0_chk47 v1012), ∀ a, (k0_off94 v1012) a + S1x128.size a ≤ S100001x128.size a := fun v1012 k0_hw47 => k0_hw47

def k0_off95 (k0_t1 : Fin k0_t1_loop.trips) : Fin 2 → Nat :=
  let c47 : Index := 47#32
  let c0_i32 : BitVec 32 := 0#32
  let c1_i32 : BitVec 32 := 1#32
  let arg7 : BitVec 32 := Scf.iv c0_i32 c1_i32 k0_t1
  let v1033 : Index := Scalar.indexCast arg7
  ![47, v1033.toNat]
def k0_off96 (v1034 : BitVec 32) : Fin 2 → Nat :=
  let c0_i32_709 : BitVec 32 := 0#32
  ![v1034.toNat, 0]

def k0_chk48 (v1034 : BitVec 32) : Prop :=
  (∀ a, (k0_off96 v1034) a + S1x128.size a ≤ S100001x128.size a)
instance k0_chk48.dec : ∀ (v1034 : BitVec 32), Decidable (k0_chk48 v1034) := fun v1034 => decidable_of_iff' _ (Iff.of_eq (k0_chk48.eq_1 v1034))
theorem k0_off96_inb : ∀ (v1034 : BitVec 32) (k0_hw48 : k0_chk48 v1034), ∀ a, (k0_off96 v1034) a + S1x128.size a ≤ S100001x128.size a := fun v1034 k0_hw48 => k0_hw48

def k0_off97 (k0_t1 : Fin k0_t1_loop.trips) : Fin 2 → Nat :=
  let c48 : Index := 48#32
  let c0_i32 : BitVec 32 := 0#32
  let c1_i32 : BitVec 32 := 1#32
  let arg7 : BitVec 32 := Scf.iv c0_i32 c1_i32 k0_t1
  let v1055 : Index := Scalar.indexCast arg7
  ![48, v1055.toNat]
def k0_off98 (v1056 : BitVec 32) : Fin 2 → Nat :=
  let c0_i32_724 : BitVec 32 := 0#32
  ![v1056.toNat, 0]

def k0_chk49 (v1056 : BitVec 32) : Prop :=
  (∀ a, (k0_off98 v1056) a + S1x128.size a ≤ S100001x128.size a)
instance k0_chk49.dec : ∀ (v1056 : BitVec 32), Decidable (k0_chk49 v1056) := fun v1056 => decidable_of_iff' _ (Iff.of_eq (k0_chk49.eq_1 v1056))
theorem k0_off98_inb : ∀ (v1056 : BitVec 32) (k0_hw49 : k0_chk49 v1056), ∀ a, (k0_off98 v1056) a + S1x128.size a ≤ S100001x128.size a := fun v1056 k0_hw49 => k0_hw49

def k0_off99 (k0_t1 : Fin k0_t1_loop.trips) : Fin 2 → Nat :=
  let c49 : Index := 49#32
  let c0_i32 : BitVec 32 := 0#32
  let c1_i32 : BitVec 32 := 1#32
  let arg7 : BitVec 32 := Scf.iv c0_i32 c1_i32 k0_t1
  let v1077 : Index := Scalar.indexCast arg7
  ![49, v1077.toNat]
def k0_off100 (v1078 : BitVec 32) : Fin 2 → Nat :=
  let c0_i32_739 : BitVec 32 := 0#32
  ![v1078.toNat, 0]

def k0_chk50 (v1078 : BitVec 32) : Prop :=
  (∀ a, (k0_off100 v1078) a + S1x128.size a ≤ S100001x128.size a)
instance k0_chk50.dec : ∀ (v1078 : BitVec 32), Decidable (k0_chk50 v1078) := fun v1078 => decidable_of_iff' _ (Iff.of_eq (k0_chk50.eq_1 v1078))
theorem k0_off100_inb : ∀ (v1078 : BitVec 32) (k0_hw50 : k0_chk50 v1078), ∀ a, (k0_off100 v1078) a + S1x128.size a ≤ S100001x128.size a := fun v1078 k0_hw50 => k0_hw50

def k0_off101 (k0_t1 : Fin k0_t1_loop.trips) : Fin 2 → Nat :=
  let c50 : Index := 50#32
  let c0_i32 : BitVec 32 := 0#32
  let c1_i32 : BitVec 32 := 1#32
  let arg7 : BitVec 32 := Scf.iv c0_i32 c1_i32 k0_t1
  let v1099 : Index := Scalar.indexCast arg7
  ![50, v1099.toNat]
def k0_off102 (v1100 : BitVec 32) : Fin 2 → Nat :=
  let c0_i32_754 : BitVec 32 := 0#32
  ![v1100.toNat, 0]

def k0_chk51 (v1100 : BitVec 32) : Prop :=
  (∀ a, (k0_off102 v1100) a + S1x128.size a ≤ S100001x128.size a)
instance k0_chk51.dec : ∀ (v1100 : BitVec 32), Decidable (k0_chk51 v1100) := fun v1100 => decidable_of_iff' _ (Iff.of_eq (k0_chk51.eq_1 v1100))
theorem k0_off102_inb : ∀ (v1100 : BitVec 32) (k0_hw51 : k0_chk51 v1100), ∀ a, (k0_off102 v1100) a + S1x128.size a ≤ S100001x128.size a := fun v1100 k0_hw51 => k0_hw51

def k0_off103 (k0_t1 : Fin k0_t1_loop.trips) : Fin 2 → Nat :=
  let c51 : Index := 51#32
  let c0_i32 : BitVec 32 := 0#32
  let c1_i32 : BitVec 32 := 1#32
  let arg7 : BitVec 32 := Scf.iv c0_i32 c1_i32 k0_t1
  let v1121 : Index := Scalar.indexCast arg7
  ![51, v1121.toNat]
def k0_off104 (v1122 : BitVec 32) : Fin 2 → Nat :=
  let c0_i32_769 : BitVec 32 := 0#32
  ![v1122.toNat, 0]

def k0_chk52 (v1122 : BitVec 32) : Prop :=
  (∀ a, (k0_off104 v1122) a + S1x128.size a ≤ S100001x128.size a)
instance k0_chk52.dec : ∀ (v1122 : BitVec 32), Decidable (k0_chk52 v1122) := fun v1122 => decidable_of_iff' _ (Iff.of_eq (k0_chk52.eq_1 v1122))
theorem k0_off104_inb : ∀ (v1122 : BitVec 32) (k0_hw52 : k0_chk52 v1122), ∀ a, (k0_off104 v1122) a + S1x128.size a ≤ S100001x128.size a := fun v1122 k0_hw52 => k0_hw52

def k0_off105 (k0_t1 : Fin k0_t1_loop.trips) : Fin 2 → Nat :=
  let c52 : Index := 52#32
  let c0_i32 : BitVec 32 := 0#32
  let c1_i32 : BitVec 32 := 1#32
  let arg7 : BitVec 32 := Scf.iv c0_i32 c1_i32 k0_t1
  let v1143 : Index := Scalar.indexCast arg7
  ![52, v1143.toNat]
def k0_off106 (v1144 : BitVec 32) : Fin 2 → Nat :=
  let c0_i32_784 : BitVec 32 := 0#32
  ![v1144.toNat, 0]

def k0_chk53 (v1144 : BitVec 32) : Prop :=
  (∀ a, (k0_off106 v1144) a + S1x128.size a ≤ S100001x128.size a)
instance k0_chk53.dec : ∀ (v1144 : BitVec 32), Decidable (k0_chk53 v1144) := fun v1144 => decidable_of_iff' _ (Iff.of_eq (k0_chk53.eq_1 v1144))
theorem k0_off106_inb : ∀ (v1144 : BitVec 32) (k0_hw53 : k0_chk53 v1144), ∀ a, (k0_off106 v1144) a + S1x128.size a ≤ S100001x128.size a := fun v1144 k0_hw53 => k0_hw53

def k0_off107 (k0_t1 : Fin k0_t1_loop.trips) : Fin 2 → Nat :=
  let c53 : Index := 53#32
  let c0_i32 : BitVec 32 := 0#32
  let c1_i32 : BitVec 32 := 1#32
  let arg7 : BitVec 32 := Scf.iv c0_i32 c1_i32 k0_t1
  let v1165 : Index := Scalar.indexCast arg7
  ![53, v1165.toNat]
def k0_off108 (v1166 : BitVec 32) : Fin 2 → Nat :=
  let c0_i32_799 : BitVec 32 := 0#32
  ![v1166.toNat, 0]

def k0_chk54 (v1166 : BitVec 32) : Prop :=
  (∀ a, (k0_off108 v1166) a + S1x128.size a ≤ S100001x128.size a)
instance k0_chk54.dec : ∀ (v1166 : BitVec 32), Decidable (k0_chk54 v1166) := fun v1166 => decidable_of_iff' _ (Iff.of_eq (k0_chk54.eq_1 v1166))
theorem k0_off108_inb : ∀ (v1166 : BitVec 32) (k0_hw54 : k0_chk54 v1166), ∀ a, (k0_off108 v1166) a + S1x128.size a ≤ S100001x128.size a := fun v1166 k0_hw54 => k0_hw54

def k0_off109 (k0_t1 : Fin k0_t1_loop.trips) : Fin 2 → Nat :=
  let c54 : Index := 54#32
  let c0_i32 : BitVec 32 := 0#32
  let c1_i32 : BitVec 32 := 1#32
  let arg7 : BitVec 32 := Scf.iv c0_i32 c1_i32 k0_t1
  let v1187 : Index := Scalar.indexCast arg7
  ![54, v1187.toNat]
def k0_off110 (v1188 : BitVec 32) : Fin 2 → Nat :=
  let c0_i32_814 : BitVec 32 := 0#32
  ![v1188.toNat, 0]

def k0_chk55 (v1188 : BitVec 32) : Prop :=
  (∀ a, (k0_off110 v1188) a + S1x128.size a ≤ S100001x128.size a)
instance k0_chk55.dec : ∀ (v1188 : BitVec 32), Decidable (k0_chk55 v1188) := fun v1188 => decidable_of_iff' _ (Iff.of_eq (k0_chk55.eq_1 v1188))
theorem k0_off110_inb : ∀ (v1188 : BitVec 32) (k0_hw55 : k0_chk55 v1188), ∀ a, (k0_off110 v1188) a + S1x128.size a ≤ S100001x128.size a := fun v1188 k0_hw55 => k0_hw55

def k0_off111 (k0_t1 : Fin k0_t1_loop.trips) : Fin 2 → Nat :=
  let c55 : Index := 55#32
  let c0_i32 : BitVec 32 := 0#32
  let c1_i32 : BitVec 32 := 1#32
  let arg7 : BitVec 32 := Scf.iv c0_i32 c1_i32 k0_t1
  let v1209 : Index := Scalar.indexCast arg7
  ![55, v1209.toNat]
def k0_off112 (v1210 : BitVec 32) : Fin 2 → Nat :=
  let c0_i32_829 : BitVec 32 := 0#32
  ![v1210.toNat, 0]

def k0_chk56 (v1210 : BitVec 32) : Prop :=
  (∀ a, (k0_off112 v1210) a + S1x128.size a ≤ S100001x128.size a)
instance k0_chk56.dec : ∀ (v1210 : BitVec 32), Decidable (k0_chk56 v1210) := fun v1210 => decidable_of_iff' _ (Iff.of_eq (k0_chk56.eq_1 v1210))
theorem k0_off112_inb : ∀ (v1210 : BitVec 32) (k0_hw56 : k0_chk56 v1210), ∀ a, (k0_off112 v1210) a + S1x128.size a ≤ S100001x128.size a := fun v1210 k0_hw56 => k0_hw56

def k0_off113 (k0_t1 : Fin k0_t1_loop.trips) : Fin 2 → Nat :=
  let c56 : Index := 56#32
  let c0_i32 : BitVec 32 := 0#32
  let c1_i32 : BitVec 32 := 1#32
  let arg7 : BitVec 32 := Scf.iv c0_i32 c1_i32 k0_t1
  let v1231 : Index := Scalar.indexCast arg7
  ![56, v1231.toNat]
def k0_off114 (v1232 : BitVec 32) : Fin 2 → Nat :=
  let c0_i32_844 : BitVec 32 := 0#32
  ![v1232.toNat, 0]

def k0_chk57 (v1232 : BitVec 32) : Prop :=
  (∀ a, (k0_off114 v1232) a + S1x128.size a ≤ S100001x128.size a)
instance k0_chk57.dec : ∀ (v1232 : BitVec 32), Decidable (k0_chk57 v1232) := fun v1232 => decidable_of_iff' _ (Iff.of_eq (k0_chk57.eq_1 v1232))
theorem k0_off114_inb : ∀ (v1232 : BitVec 32) (k0_hw57 : k0_chk57 v1232), ∀ a, (k0_off114 v1232) a + S1x128.size a ≤ S100001x128.size a := fun v1232 k0_hw57 => k0_hw57

def k0_off115 (k0_t1 : Fin k0_t1_loop.trips) : Fin 2 → Nat :=
  let c57 : Index := 57#32
  let c0_i32 : BitVec 32 := 0#32
  let c1_i32 : BitVec 32 := 1#32
  let arg7 : BitVec 32 := Scf.iv c0_i32 c1_i32 k0_t1
  let v1253 : Index := Scalar.indexCast arg7
  ![57, v1253.toNat]
def k0_off116 (v1254 : BitVec 32) : Fin 2 → Nat :=
  let c0_i32_859 : BitVec 32 := 0#32
  ![v1254.toNat, 0]

def k0_chk58 (v1254 : BitVec 32) : Prop :=
  (∀ a, (k0_off116 v1254) a + S1x128.size a ≤ S100001x128.size a)
instance k0_chk58.dec : ∀ (v1254 : BitVec 32), Decidable (k0_chk58 v1254) := fun v1254 => decidable_of_iff' _ (Iff.of_eq (k0_chk58.eq_1 v1254))
theorem k0_off116_inb : ∀ (v1254 : BitVec 32) (k0_hw58 : k0_chk58 v1254), ∀ a, (k0_off116 v1254) a + S1x128.size a ≤ S100001x128.size a := fun v1254 k0_hw58 => k0_hw58

def k0_off117 (k0_t1 : Fin k0_t1_loop.trips) : Fin 2 → Nat :=
  let c58 : Index := 58#32
  let c0_i32 : BitVec 32 := 0#32
  let c1_i32 : BitVec 32 := 1#32
  let arg7 : BitVec 32 := Scf.iv c0_i32 c1_i32 k0_t1
  let v1275 : Index := Scalar.indexCast arg7
  ![58, v1275.toNat]
def k0_off118 (v1276 : BitVec 32) : Fin 2 → Nat :=
  let c0_i32_874 : BitVec 32 := 0#32
  ![v1276.toNat, 0]

def k0_chk59 (v1276 : BitVec 32) : Prop :=
  (∀ a, (k0_off118 v1276) a + S1x128.size a ≤ S100001x128.size a)
instance k0_chk59.dec : ∀ (v1276 : BitVec 32), Decidable (k0_chk59 v1276) := fun v1276 => decidable_of_iff' _ (Iff.of_eq (k0_chk59.eq_1 v1276))
theorem k0_off118_inb : ∀ (v1276 : BitVec 32) (k0_hw59 : k0_chk59 v1276), ∀ a, (k0_off118 v1276) a + S1x128.size a ≤ S100001x128.size a := fun v1276 k0_hw59 => k0_hw59

def k0_off119 (k0_t1 : Fin k0_t1_loop.trips) : Fin 2 → Nat :=
  let c59 : Index := 59#32
  let c0_i32 : BitVec 32 := 0#32
  let c1_i32 : BitVec 32 := 1#32
  let arg7 : BitVec 32 := Scf.iv c0_i32 c1_i32 k0_t1
  let v1297 : Index := Scalar.indexCast arg7
  ![59, v1297.toNat]
def k0_off120 (v1298 : BitVec 32) : Fin 2 → Nat :=
  let c0_i32_889 : BitVec 32 := 0#32
  ![v1298.toNat, 0]

def k0_chk60 (v1298 : BitVec 32) : Prop :=
  (∀ a, (k0_off120 v1298) a + S1x128.size a ≤ S100001x128.size a)
instance k0_chk60.dec : ∀ (v1298 : BitVec 32), Decidable (k0_chk60 v1298) := fun v1298 => decidable_of_iff' _ (Iff.of_eq (k0_chk60.eq_1 v1298))
theorem k0_off120_inb : ∀ (v1298 : BitVec 32) (k0_hw60 : k0_chk60 v1298), ∀ a, (k0_off120 v1298) a + S1x128.size a ≤ S100001x128.size a := fun v1298 k0_hw60 => k0_hw60

def k0_off121 (k0_t1 : Fin k0_t1_loop.trips) : Fin 2 → Nat :=
  let c60 : Index := 60#32
  let c0_i32 : BitVec 32 := 0#32
  let c1_i32 : BitVec 32 := 1#32
  let arg7 : BitVec 32 := Scf.iv c0_i32 c1_i32 k0_t1
  let v1319 : Index := Scalar.indexCast arg7
  ![60, v1319.toNat]
def k0_off122 (v1320 : BitVec 32) : Fin 2 → Nat :=
  let c0_i32_904 : BitVec 32 := 0#32
  ![v1320.toNat, 0]

def k0_chk61 (v1320 : BitVec 32) : Prop :=
  (∀ a, (k0_off122 v1320) a + S1x128.size a ≤ S100001x128.size a)
instance k0_chk61.dec : ∀ (v1320 : BitVec 32), Decidable (k0_chk61 v1320) := fun v1320 => decidable_of_iff' _ (Iff.of_eq (k0_chk61.eq_1 v1320))
theorem k0_off122_inb : ∀ (v1320 : BitVec 32) (k0_hw61 : k0_chk61 v1320), ∀ a, (k0_off122 v1320) a + S1x128.size a ≤ S100001x128.size a := fun v1320 k0_hw61 => k0_hw61

def k0_off123 (k0_t1 : Fin k0_t1_loop.trips) : Fin 2 → Nat :=
  let c61 : Index := 61#32
  let c0_i32 : BitVec 32 := 0#32
  let c1_i32 : BitVec 32 := 1#32
  let arg7 : BitVec 32 := Scf.iv c0_i32 c1_i32 k0_t1
  let v1341 : Index := Scalar.indexCast arg7
  ![61, v1341.toNat]
def k0_off124 (v1342 : BitVec 32) : Fin 2 → Nat :=
  let c0_i32_919 : BitVec 32 := 0#32
  ![v1342.toNat, 0]

def k0_chk62 (v1342 : BitVec 32) : Prop :=
  (∀ a, (k0_off124 v1342) a + S1x128.size a ≤ S100001x128.size a)
instance k0_chk62.dec : ∀ (v1342 : BitVec 32), Decidable (k0_chk62 v1342) := fun v1342 => decidable_of_iff' _ (Iff.of_eq (k0_chk62.eq_1 v1342))
theorem k0_off124_inb : ∀ (v1342 : BitVec 32) (k0_hw62 : k0_chk62 v1342), ∀ a, (k0_off124 v1342) a + S1x128.size a ≤ S100001x128.size a := fun v1342 k0_hw62 => k0_hw62

def k0_off125 (k0_t1 : Fin k0_t1_loop.trips) : Fin 2 → Nat :=
  let c62 : Index := 62#32
  let c0_i32 : BitVec 32 := 0#32
  let c1_i32 : BitVec 32 := 1#32
  let arg7 : BitVec 32 := Scf.iv c0_i32 c1_i32 k0_t1
  let v1363 : Index := Scalar.indexCast arg7
  ![62, v1363.toNat]
def k0_off126 (v1364 : BitVec 32) : Fin 2 → Nat :=
  let c0_i32_934 : BitVec 32 := 0#32
  ![v1364.toNat, 0]

def k0_chk63 (v1364 : BitVec 32) : Prop :=
  (∀ a, (k0_off126 v1364) a + S1x128.size a ≤ S100001x128.size a)
instance k0_chk63.dec : ∀ (v1364 : BitVec 32), Decidable (k0_chk63 v1364) := fun v1364 => decidable_of_iff' _ (Iff.of_eq (k0_chk63.eq_1 v1364))
theorem k0_off126_inb : ∀ (v1364 : BitVec 32) (k0_hw63 : k0_chk63 v1364), ∀ a, (k0_off126 v1364) a + S1x128.size a ≤ S100001x128.size a := fun v1364 k0_hw63 => k0_hw63

def k0_off127 (k0_t1 : Fin k0_t1_loop.trips) : Fin 2 → Nat :=
  let c63 : Index := 63#32
  let c0_i32 : BitVec 32 := 0#32
  let c1_i32 : BitVec 32 := 1#32
  let arg7 : BitVec 32 := Scf.iv c0_i32 c1_i32 k0_t1
  let v1385 : Index := Scalar.indexCast arg7
  ![63, v1385.toNat]
def k0_off128 (v1386 : BitVec 32) : Fin 2 → Nat :=
  let c0_i32_949 : BitVec 32 := 0#32
  ![v1386.toNat, 0]

def k0_chk64 (v1386 : BitVec 32) : Prop :=
  (∀ a, (k0_off128 v1386) a + S1x128.size a ≤ S100001x128.size a)
instance k0_chk64.dec : ∀ (v1386 : BitVec 32), Decidable (k0_chk64 v1386) := fun v1386 => decidable_of_iff' _ (Iff.of_eq (k0_chk64.eq_1 v1386))
theorem k0_off128_inb : ∀ (v1386 : BitVec 32) (k0_hw64 : k0_chk64 v1386), ∀ a, (k0_off128 v1386) a + S1x128.size a ≤ S100001x128.size a := fun v1386 k0_hw64 => k0_hw64

def k0_off129 (k0_t1 : Fin k0_t1_loop.trips) : Fin 2 → Nat :=
  let c64 : Index := 64#32
  let c0_i32 : BitVec 32 := 0#32
  let c1_i32 : BitVec 32 := 1#32
  let arg7 : BitVec 32 := Scf.iv c0_i32 c1_i32 k0_t1
  let v1407 : Index := Scalar.indexCast arg7
  ![64, v1407.toNat]
def k0_off130 (v1408 : BitVec 32) : Fin 2 → Nat :=
  let c0_i32_964 : BitVec 32 := 0#32
  ![v1408.toNat, 0]

def k0_chk65 (v1408 : BitVec 32) : Prop :=
  (∀ a, (k0_off130 v1408) a + S1x128.size a ≤ S100001x128.size a)
instance k0_chk65.dec : ∀ (v1408 : BitVec 32), Decidable (k0_chk65 v1408) := fun v1408 => decidable_of_iff' _ (Iff.of_eq (k0_chk65.eq_1 v1408))
theorem k0_off130_inb : ∀ (v1408 : BitVec 32) (k0_hw65 : k0_chk65 v1408), ∀ a, (k0_off130 v1408) a + S1x128.size a ≤ S100001x128.size a := fun v1408 k0_hw65 => k0_hw65

def k0_off131 (k0_t1 : Fin k0_t1_loop.trips) : Fin 2 → Nat :=
  let c65 : Index := 65#32
  let c0_i32 : BitVec 32 := 0#32
  let c1_i32 : BitVec 32 := 1#32
  let arg7 : BitVec 32 := Scf.iv c0_i32 c1_i32 k0_t1
  let v1429 : Index := Scalar.indexCast arg7
  ![65, v1429.toNat]
def k0_off132 (v1430 : BitVec 32) : Fin 2 → Nat :=
  let c0_i32_979 : BitVec 32 := 0#32
  ![v1430.toNat, 0]

def k0_chk66 (v1430 : BitVec 32) : Prop :=
  (∀ a, (k0_off132 v1430) a + S1x128.size a ≤ S100001x128.size a)
instance k0_chk66.dec : ∀ (v1430 : BitVec 32), Decidable (k0_chk66 v1430) := fun v1430 => decidable_of_iff' _ (Iff.of_eq (k0_chk66.eq_1 v1430))
theorem k0_off132_inb : ∀ (v1430 : BitVec 32) (k0_hw66 : k0_chk66 v1430), ∀ a, (k0_off132 v1430) a + S1x128.size a ≤ S100001x128.size a := fun v1430 k0_hw66 => k0_hw66

def k0_off133 (k0_t1 : Fin k0_t1_loop.trips) : Fin 2 → Nat :=
  let c66 : Index := 66#32
  let c0_i32 : BitVec 32 := 0#32
  let c1_i32 : BitVec 32 := 1#32
  let arg7 : BitVec 32 := Scf.iv c0_i32 c1_i32 k0_t1
  let v1451 : Index := Scalar.indexCast arg7
  ![66, v1451.toNat]
def k0_off134 (v1452 : BitVec 32) : Fin 2 → Nat :=
  let c0_i32_994 : BitVec 32 := 0#32
  ![v1452.toNat, 0]

def k0_chk67 (v1452 : BitVec 32) : Prop :=
  (∀ a, (k0_off134 v1452) a + S1x128.size a ≤ S100001x128.size a)
instance k0_chk67.dec : ∀ (v1452 : BitVec 32), Decidable (k0_chk67 v1452) := fun v1452 => decidable_of_iff' _ (Iff.of_eq (k0_chk67.eq_1 v1452))
theorem k0_off134_inb : ∀ (v1452 : BitVec 32) (k0_hw67 : k0_chk67 v1452), ∀ a, (k0_off134 v1452) a + S1x128.size a ≤ S100001x128.size a := fun v1452 k0_hw67 => k0_hw67

def k0_off135 (k0_t1 : Fin k0_t1_loop.trips) : Fin 2 → Nat :=
  let c67 : Index := 67#32
  let c0_i32 : BitVec 32 := 0#32
  let c1_i32 : BitVec 32 := 1#32
  let arg7 : BitVec 32 := Scf.iv c0_i32 c1_i32 k0_t1
  let v1473 : Index := Scalar.indexCast arg7
  ![67, v1473.toNat]
def k0_off136 (v1474 : BitVec 32) : Fin 2 → Nat :=
  let c0_i32_1009 : BitVec 32 := 0#32
  ![v1474.toNat, 0]

def k0_chk68 (v1474 : BitVec 32) : Prop :=
  (∀ a, (k0_off136 v1474) a + S1x128.size a ≤ S100001x128.size a)
instance k0_chk68.dec : ∀ (v1474 : BitVec 32), Decidable (k0_chk68 v1474) := fun v1474 => decidable_of_iff' _ (Iff.of_eq (k0_chk68.eq_1 v1474))
theorem k0_off136_inb : ∀ (v1474 : BitVec 32) (k0_hw68 : k0_chk68 v1474), ∀ a, (k0_off136 v1474) a + S1x128.size a ≤ S100001x128.size a := fun v1474 k0_hw68 => k0_hw68

def k0_off137 (k0_t1 : Fin k0_t1_loop.trips) : Fin 2 → Nat :=
  let c68 : Index := 68#32
  let c0_i32 : BitVec 32 := 0#32
  let c1_i32 : BitVec 32 := 1#32
  let arg7 : BitVec 32 := Scf.iv c0_i32 c1_i32 k0_t1
  let v1495 : Index := Scalar.indexCast arg7
  ![68, v1495.toNat]
def k0_off138 (v1496 : BitVec 32) : Fin 2 → Nat :=
  let c0_i32_1024 : BitVec 32 := 0#32
  ![v1496.toNat, 0]

def k0_chk69 (v1496 : BitVec 32) : Prop :=
  (∀ a, (k0_off138 v1496) a + S1x128.size a ≤ S100001x128.size a)
instance k0_chk69.dec : ∀ (v1496 : BitVec 32), Decidable (k0_chk69 v1496) := fun v1496 => decidable_of_iff' _ (Iff.of_eq (k0_chk69.eq_1 v1496))
theorem k0_off138_inb : ∀ (v1496 : BitVec 32) (k0_hw69 : k0_chk69 v1496), ∀ a, (k0_off138 v1496) a + S1x128.size a ≤ S100001x128.size a := fun v1496 k0_hw69 => k0_hw69

def k0_off139 (k0_t1 : Fin k0_t1_loop.trips) : Fin 2 → Nat :=
  let c69 : Index := 69#32
  let c0_i32 : BitVec 32 := 0#32
  let c1_i32 : BitVec 32 := 1#32
  let arg7 : BitVec 32 := Scf.iv c0_i32 c1_i32 k0_t1
  let v1517 : Index := Scalar.indexCast arg7
  ![69, v1517.toNat]
def k0_off140 (v1518 : BitVec 32) : Fin 2 → Nat :=
  let c0_i32_1039 : BitVec 32 := 0#32
  ![v1518.toNat, 0]

def k0_chk70 (v1518 : BitVec 32) : Prop :=
  (∀ a, (k0_off140 v1518) a + S1x128.size a ≤ S100001x128.size a)
instance k0_chk70.dec : ∀ (v1518 : BitVec 32), Decidable (k0_chk70 v1518) := fun v1518 => decidable_of_iff' _ (Iff.of_eq (k0_chk70.eq_1 v1518))
theorem k0_off140_inb : ∀ (v1518 : BitVec 32) (k0_hw70 : k0_chk70 v1518), ∀ a, (k0_off140 v1518) a + S1x128.size a ≤ S100001x128.size a := fun v1518 k0_hw70 => k0_hw70

def k0_off141 (k0_t1 : Fin k0_t1_loop.trips) : Fin 2 → Nat :=
  let c70 : Index := 70#32
  let c0_i32 : BitVec 32 := 0#32
  let c1_i32 : BitVec 32 := 1#32
  let arg7 : BitVec 32 := Scf.iv c0_i32 c1_i32 k0_t1
  let v1539 : Index := Scalar.indexCast arg7
  ![70, v1539.toNat]
def k0_off142 (v1540 : BitVec 32) : Fin 2 → Nat :=
  let c0_i32_1054 : BitVec 32 := 0#32
  ![v1540.toNat, 0]

def k0_chk71 (v1540 : BitVec 32) : Prop :=
  (∀ a, (k0_off142 v1540) a + S1x128.size a ≤ S100001x128.size a)
instance k0_chk71.dec : ∀ (v1540 : BitVec 32), Decidable (k0_chk71 v1540) := fun v1540 => decidable_of_iff' _ (Iff.of_eq (k0_chk71.eq_1 v1540))
theorem k0_off142_inb : ∀ (v1540 : BitVec 32) (k0_hw71 : k0_chk71 v1540), ∀ a, (k0_off142 v1540) a + S1x128.size a ≤ S100001x128.size a := fun v1540 k0_hw71 => k0_hw71

def k0_off143 (k0_t1 : Fin k0_t1_loop.trips) : Fin 2 → Nat :=
  let c71 : Index := 71#32
  let c0_i32 : BitVec 32 := 0#32
  let c1_i32 : BitVec 32 := 1#32
  let arg7 : BitVec 32 := Scf.iv c0_i32 c1_i32 k0_t1
  let v1561 : Index := Scalar.indexCast arg7
  ![71, v1561.toNat]
def k0_off144 (v1562 : BitVec 32) : Fin 2 → Nat :=
  let c0_i32_1069 : BitVec 32 := 0#32
  ![v1562.toNat, 0]

def k0_chk72 (v1562 : BitVec 32) : Prop :=
  (∀ a, (k0_off144 v1562) a + S1x128.size a ≤ S100001x128.size a)
instance k0_chk72.dec : ∀ (v1562 : BitVec 32), Decidable (k0_chk72 v1562) := fun v1562 => decidable_of_iff' _ (Iff.of_eq (k0_chk72.eq_1 v1562))
theorem k0_off144_inb : ∀ (v1562 : BitVec 32) (k0_hw72 : k0_chk72 v1562), ∀ a, (k0_off144 v1562) a + S1x128.size a ≤ S100001x128.size a := fun v1562 k0_hw72 => k0_hw72

def k0_off145 (k0_t1 : Fin k0_t1_loop.trips) : Fin 2 → Nat :=
  let c72 : Index := 72#32
  let c0_i32 : BitVec 32 := 0#32
  let c1_i32 : BitVec 32 := 1#32
  let arg7 : BitVec 32 := Scf.iv c0_i32 c1_i32 k0_t1
  let v1583 : Index := Scalar.indexCast arg7
  ![72, v1583.toNat]
def k0_off146 (v1584 : BitVec 32) : Fin 2 → Nat :=
  let c0_i32_1084 : BitVec 32 := 0#32
  ![v1584.toNat, 0]

def k0_chk73 (v1584 : BitVec 32) : Prop :=
  (∀ a, (k0_off146 v1584) a + S1x128.size a ≤ S100001x128.size a)
instance k0_chk73.dec : ∀ (v1584 : BitVec 32), Decidable (k0_chk73 v1584) := fun v1584 => decidable_of_iff' _ (Iff.of_eq (k0_chk73.eq_1 v1584))
theorem k0_off146_inb : ∀ (v1584 : BitVec 32) (k0_hw73 : k0_chk73 v1584), ∀ a, (k0_off146 v1584) a + S1x128.size a ≤ S100001x128.size a := fun v1584 k0_hw73 => k0_hw73

def k0_off147 (k0_t1 : Fin k0_t1_loop.trips) : Fin 2 → Nat :=
  let c73 : Index := 73#32
  let c0_i32 : BitVec 32 := 0#32
  let c1_i32 : BitVec 32 := 1#32
  let arg7 : BitVec 32 := Scf.iv c0_i32 c1_i32 k0_t1
  let v1605 : Index := Scalar.indexCast arg7
  ![73, v1605.toNat]
def k0_off148 (v1606 : BitVec 32) : Fin 2 → Nat :=
  let c0_i32_1099 : BitVec 32 := 0#32
  ![v1606.toNat, 0]

def k0_chk74 (v1606 : BitVec 32) : Prop :=
  (∀ a, (k0_off148 v1606) a + S1x128.size a ≤ S100001x128.size a)
instance k0_chk74.dec : ∀ (v1606 : BitVec 32), Decidable (k0_chk74 v1606) := fun v1606 => decidable_of_iff' _ (Iff.of_eq (k0_chk74.eq_1 v1606))
theorem k0_off148_inb : ∀ (v1606 : BitVec 32) (k0_hw74 : k0_chk74 v1606), ∀ a, (k0_off148 v1606) a + S1x128.size a ≤ S100001x128.size a := fun v1606 k0_hw74 => k0_hw74

def k0_off149 (k0_t1 : Fin k0_t1_loop.trips) : Fin 2 → Nat :=
  let c74 : Index := 74#32
  let c0_i32 : BitVec 32 := 0#32
  let c1_i32 : BitVec 32 := 1#32
  let arg7 : BitVec 32 := Scf.iv c0_i32 c1_i32 k0_t1
  let v1627 : Index := Scalar.indexCast arg7
  ![74, v1627.toNat]
def k0_off150 (v1628 : BitVec 32) : Fin 2 → Nat :=
  let c0_i32_1114 : BitVec 32 := 0#32
  ![v1628.toNat, 0]

def k0_chk75 (v1628 : BitVec 32) : Prop :=
  (∀ a, (k0_off150 v1628) a + S1x128.size a ≤ S100001x128.size a)
instance k0_chk75.dec : ∀ (v1628 : BitVec 32), Decidable (k0_chk75 v1628) := fun v1628 => decidable_of_iff' _ (Iff.of_eq (k0_chk75.eq_1 v1628))
theorem k0_off150_inb : ∀ (v1628 : BitVec 32) (k0_hw75 : k0_chk75 v1628), ∀ a, (k0_off150 v1628) a + S1x128.size a ≤ S100001x128.size a := fun v1628 k0_hw75 => k0_hw75

def k0_off151 (k0_t1 : Fin k0_t1_loop.trips) : Fin 2 → Nat :=
  let c75 : Index := 75#32
  let c0_i32 : BitVec 32 := 0#32
  let c1_i32 : BitVec 32 := 1#32
  let arg7 : BitVec 32 := Scf.iv c0_i32 c1_i32 k0_t1
  let v1649 : Index := Scalar.indexCast arg7
  ![75, v1649.toNat]
def k0_off152 (v1650 : BitVec 32) : Fin 2 → Nat :=
  let c0_i32_1129 : BitVec 32 := 0#32
  ![v1650.toNat, 0]

def k0_chk76 (v1650 : BitVec 32) : Prop :=
  (∀ a, (k0_off152 v1650) a + S1x128.size a ≤ S100001x128.size a)
instance k0_chk76.dec : ∀ (v1650 : BitVec 32), Decidable (k0_chk76 v1650) := fun v1650 => decidable_of_iff' _ (Iff.of_eq (k0_chk76.eq_1 v1650))
theorem k0_off152_inb : ∀ (v1650 : BitVec 32) (k0_hw76 : k0_chk76 v1650), ∀ a, (k0_off152 v1650) a + S1x128.size a ≤ S100001x128.size a := fun v1650 k0_hw76 => k0_hw76

def k0_off153 (k0_t1 : Fin k0_t1_loop.trips) : Fin 2 → Nat :=
  let c76 : Index := 76#32
  let c0_i32 : BitVec 32 := 0#32
  let c1_i32 : BitVec 32 := 1#32
  let arg7 : BitVec 32 := Scf.iv c0_i32 c1_i32 k0_t1
  let v1671 : Index := Scalar.indexCast arg7
  ![76, v1671.toNat]
def k0_off154 (v1672 : BitVec 32) : Fin 2 → Nat :=
  let c0_i32_1144 : BitVec 32 := 0#32
  ![v1672.toNat, 0]

def k0_chk77 (v1672 : BitVec 32) : Prop :=
  (∀ a, (k0_off154 v1672) a + S1x128.size a ≤ S100001x128.size a)
instance k0_chk77.dec : ∀ (v1672 : BitVec 32), Decidable (k0_chk77 v1672) := fun v1672 => decidable_of_iff' _ (Iff.of_eq (k0_chk77.eq_1 v1672))
theorem k0_off154_inb : ∀ (v1672 : BitVec 32) (k0_hw77 : k0_chk77 v1672), ∀ a, (k0_off154 v1672) a + S1x128.size a ≤ S100001x128.size a := fun v1672 k0_hw77 => k0_hw77

def k0_off155 (k0_t1 : Fin k0_t1_loop.trips) : Fin 2 → Nat :=
  let c77 : Index := 77#32
  let c0_i32 : BitVec 32 := 0#32
  let c1_i32 : BitVec 32 := 1#32
  let arg7 : BitVec 32 := Scf.iv c0_i32 c1_i32 k0_t1
  let v1693 : Index := Scalar.indexCast arg7
  ![77, v1693.toNat]
def k0_off156 (v1694 : BitVec 32) : Fin 2 → Nat :=
  let c0_i32_1159 : BitVec 32 := 0#32
  ![v1694.toNat, 0]

def k0_chk78 (v1694 : BitVec 32) : Prop :=
  (∀ a, (k0_off156 v1694) a + S1x128.size a ≤ S100001x128.size a)
instance k0_chk78.dec : ∀ (v1694 : BitVec 32), Decidable (k0_chk78 v1694) := fun v1694 => decidable_of_iff' _ (Iff.of_eq (k0_chk78.eq_1 v1694))
theorem k0_off156_inb : ∀ (v1694 : BitVec 32) (k0_hw78 : k0_chk78 v1694), ∀ a, (k0_off156 v1694) a + S1x128.size a ≤ S100001x128.size a := fun v1694 k0_hw78 => k0_hw78

def k0_off157 (k0_t1 : Fin k0_t1_loop.trips) : Fin 2 → Nat :=
  let c78 : Index := 78#32
  let c0_i32 : BitVec 32 := 0#32
  let c1_i32 : BitVec 32 := 1#32
  let arg7 : BitVec 32 := Scf.iv c0_i32 c1_i32 k0_t1
  let v1715 : Index := Scalar.indexCast arg7
  ![78, v1715.toNat]
def k0_off158 (v1716 : BitVec 32) : Fin 2 → Nat :=
  let c0_i32_1174 : BitVec 32 := 0#32
  ![v1716.toNat, 0]

def k0_chk79 (v1716 : BitVec 32) : Prop :=
  (∀ a, (k0_off158 v1716) a + S1x128.size a ≤ S100001x128.size a)
instance k0_chk79.dec : ∀ (v1716 : BitVec 32), Decidable (k0_chk79 v1716) := fun v1716 => decidable_of_iff' _ (Iff.of_eq (k0_chk79.eq_1 v1716))
theorem k0_off158_inb : ∀ (v1716 : BitVec 32) (k0_hw79 : k0_chk79 v1716), ∀ a, (k0_off158 v1716) a + S1x128.size a ≤ S100001x128.size a := fun v1716 k0_hw79 => k0_hw79

def k0_off159 (k0_t1 : Fin k0_t1_loop.trips) : Fin 2 → Nat :=
  let c79 : Index := 79#32
  let c0_i32 : BitVec 32 := 0#32
  let c1_i32 : BitVec 32 := 1#32
  let arg7 : BitVec 32 := Scf.iv c0_i32 c1_i32 k0_t1
  let v1737 : Index := Scalar.indexCast arg7
  ![79, v1737.toNat]
def k0_off160 (v1738 : BitVec 32) : Fin 2 → Nat :=
  let c0_i32_1189 : BitVec 32 := 0#32
  ![v1738.toNat, 0]

def k0_chk80 (v1738 : BitVec 32) : Prop :=
  (∀ a, (k0_off160 v1738) a + S1x128.size a ≤ S100001x128.size a)
instance k0_chk80.dec : ∀ (v1738 : BitVec 32), Decidable (k0_chk80 v1738) := fun v1738 => decidable_of_iff' _ (Iff.of_eq (k0_chk80.eq_1 v1738))
theorem k0_off160_inb : ∀ (v1738 : BitVec 32) (k0_hw80 : k0_chk80 v1738), ∀ a, (k0_off160 v1738) a + S1x128.size a ≤ S100001x128.size a := fun v1738 k0_hw80 => k0_hw80

def k0_off161 (k0_t1 : Fin k0_t1_loop.trips) : Fin 2 → Nat :=
  let c80 : Index := 80#32
  let c0_i32 : BitVec 32 := 0#32
  let c1_i32 : BitVec 32 := 1#32
  let arg7 : BitVec 32 := Scf.iv c0_i32 c1_i32 k0_t1
  let v1759 : Index := Scalar.indexCast arg7
  ![80, v1759.toNat]
def k0_off162 (v1760 : BitVec 32) : Fin 2 → Nat :=
  let c0_i32_1204 : BitVec 32 := 0#32
  ![v1760.toNat, 0]

def k0_chk81 (v1760 : BitVec 32) : Prop :=
  (∀ a, (k0_off162 v1760) a + S1x128.size a ≤ S100001x128.size a)
instance k0_chk81.dec : ∀ (v1760 : BitVec 32), Decidable (k0_chk81 v1760) := fun v1760 => decidable_of_iff' _ (Iff.of_eq (k0_chk81.eq_1 v1760))
theorem k0_off162_inb : ∀ (v1760 : BitVec 32) (k0_hw81 : k0_chk81 v1760), ∀ a, (k0_off162 v1760) a + S1x128.size a ≤ S100001x128.size a := fun v1760 k0_hw81 => k0_hw81

def k0_off163 (k0_t1 : Fin k0_t1_loop.trips) : Fin 2 → Nat :=
  let c81 : Index := 81#32
  let c0_i32 : BitVec 32 := 0#32
  let c1_i32 : BitVec 32 := 1#32
  let arg7 : BitVec 32 := Scf.iv c0_i32 c1_i32 k0_t1
  let v1781 : Index := Scalar.indexCast arg7
  ![81, v1781.toNat]
def k0_off164 (v1782 : BitVec 32) : Fin 2 → Nat :=
  let c0_i32_1219 : BitVec 32 := 0#32
  ![v1782.toNat, 0]

def k0_chk82 (v1782 : BitVec 32) : Prop :=
  (∀ a, (k0_off164 v1782) a + S1x128.size a ≤ S100001x128.size a)
instance k0_chk82.dec : ∀ (v1782 : BitVec 32), Decidable (k0_chk82 v1782) := fun v1782 => decidable_of_iff' _ (Iff.of_eq (k0_chk82.eq_1 v1782))
theorem k0_off164_inb : ∀ (v1782 : BitVec 32) (k0_hw82 : k0_chk82 v1782), ∀ a, (k0_off164 v1782) a + S1x128.size a ≤ S100001x128.size a := fun v1782 k0_hw82 => k0_hw82

def k0_off165 (k0_t1 : Fin k0_t1_loop.trips) : Fin 2 → Nat :=
  let c82 : Index := 82#32
  let c0_i32 : BitVec 32 := 0#32
  let c1_i32 : BitVec 32 := 1#32
  let arg7 : BitVec 32 := Scf.iv c0_i32 c1_i32 k0_t1
  let v1803 : Index := Scalar.indexCast arg7
  ![82, v1803.toNat]
def k0_off166 (v1804 : BitVec 32) : Fin 2 → Nat :=
  let c0_i32_1234 : BitVec 32 := 0#32
  ![v1804.toNat, 0]

def k0_chk83 (v1804 : BitVec 32) : Prop :=
  (∀ a, (k0_off166 v1804) a + S1x128.size a ≤ S100001x128.size a)
instance k0_chk83.dec : ∀ (v1804 : BitVec 32), Decidable (k0_chk83 v1804) := fun v1804 => decidable_of_iff' _ (Iff.of_eq (k0_chk83.eq_1 v1804))
theorem k0_off166_inb : ∀ (v1804 : BitVec 32) (k0_hw83 : k0_chk83 v1804), ∀ a, (k0_off166 v1804) a + S1x128.size a ≤ S100001x128.size a := fun v1804 k0_hw83 => k0_hw83

def k0_off167 (k0_t1 : Fin k0_t1_loop.trips) : Fin 2 → Nat :=
  let c83 : Index := 83#32
  let c0_i32 : BitVec 32 := 0#32
  let c1_i32 : BitVec 32 := 1#32
  let arg7 : BitVec 32 := Scf.iv c0_i32 c1_i32 k0_t1
  let v1825 : Index := Scalar.indexCast arg7
  ![83, v1825.toNat]
def k0_off168 (v1826 : BitVec 32) : Fin 2 → Nat :=
  let c0_i32_1249 : BitVec 32 := 0#32
  ![v1826.toNat, 0]

def k0_chk84 (v1826 : BitVec 32) : Prop :=
  (∀ a, (k0_off168 v1826) a + S1x128.size a ≤ S100001x128.size a)
instance k0_chk84.dec : ∀ (v1826 : BitVec 32), Decidable (k0_chk84 v1826) := fun v1826 => decidable_of_iff' _ (Iff.of_eq (k0_chk84.eq_1 v1826))
theorem k0_off168_inb : ∀ (v1826 : BitVec 32) (k0_hw84 : k0_chk84 v1826), ∀ a, (k0_off168 v1826) a + S1x128.size a ≤ S100001x128.size a := fun v1826 k0_hw84 => k0_hw84

def k0_off169 (k0_t1 : Fin k0_t1_loop.trips) : Fin 2 → Nat :=
  let c84 : Index := 84#32
  let c0_i32 : BitVec 32 := 0#32
  let c1_i32 : BitVec 32 := 1#32
  let arg7 : BitVec 32 := Scf.iv c0_i32 c1_i32 k0_t1
  let v1847 : Index := Scalar.indexCast arg7
  ![84, v1847.toNat]
def k0_off170 (v1848 : BitVec 32) : Fin 2 → Nat :=
  let c0_i32_1264 : BitVec 32 := 0#32
  ![v1848.toNat, 0]

def k0_chk85 (v1848 : BitVec 32) : Prop :=
  (∀ a, (k0_off170 v1848) a + S1x128.size a ≤ S100001x128.size a)
instance k0_chk85.dec : ∀ (v1848 : BitVec 32), Decidable (k0_chk85 v1848) := fun v1848 => decidable_of_iff' _ (Iff.of_eq (k0_chk85.eq_1 v1848))
theorem k0_off170_inb : ∀ (v1848 : BitVec 32) (k0_hw85 : k0_chk85 v1848), ∀ a, (k0_off170 v1848) a + S1x128.size a ≤ S100001x128.size a := fun v1848 k0_hw85 => k0_hw85

def k0_off171 (k0_t1 : Fin k0_t1_loop.trips) : Fin 2 → Nat :=
  let c85 : Index := 85#32
  let c0_i32 : BitVec 32 := 0#32
  let c1_i32 : BitVec 32 := 1#32
  let arg7 : BitVec 32 := Scf.iv c0_i32 c1_i32 k0_t1
  let v1869 : Index := Scalar.indexCast arg7
  ![85, v1869.toNat]
def k0_off172 (v1870 : BitVec 32) : Fin 2 → Nat :=
  let c0_i32_1279 : BitVec 32 := 0#32
  ![v1870.toNat, 0]

def k0_chk86 (v1870 : BitVec 32) : Prop :=
  (∀ a, (k0_off172 v1870) a + S1x128.size a ≤ S100001x128.size a)
instance k0_chk86.dec : ∀ (v1870 : BitVec 32), Decidable (k0_chk86 v1870) := fun v1870 => decidable_of_iff' _ (Iff.of_eq (k0_chk86.eq_1 v1870))
theorem k0_off172_inb : ∀ (v1870 : BitVec 32) (k0_hw86 : k0_chk86 v1870), ∀ a, (k0_off172 v1870) a + S1x128.size a ≤ S100001x128.size a := fun v1870 k0_hw86 => k0_hw86

def k0_off173 (k0_t1 : Fin k0_t1_loop.trips) : Fin 2 → Nat :=
  let c86 : Index := 86#32
  let c0_i32 : BitVec 32 := 0#32
  let c1_i32 : BitVec 32 := 1#32
  let arg7 : BitVec 32 := Scf.iv c0_i32 c1_i32 k0_t1
  let v1891 : Index := Scalar.indexCast arg7
  ![86, v1891.toNat]
def k0_off174 (v1892 : BitVec 32) : Fin 2 → Nat :=
  let c0_i32_1294 : BitVec 32 := 0#32
  ![v1892.toNat, 0]

def k0_chk87 (v1892 : BitVec 32) : Prop :=
  (∀ a, (k0_off174 v1892) a + S1x128.size a ≤ S100001x128.size a)
instance k0_chk87.dec : ∀ (v1892 : BitVec 32), Decidable (k0_chk87 v1892) := fun v1892 => decidable_of_iff' _ (Iff.of_eq (k0_chk87.eq_1 v1892))
theorem k0_off174_inb : ∀ (v1892 : BitVec 32) (k0_hw87 : k0_chk87 v1892), ∀ a, (k0_off174 v1892) a + S1x128.size a ≤ S100001x128.size a := fun v1892 k0_hw87 => k0_hw87

def k0_off175 (k0_t1 : Fin k0_t1_loop.trips) : Fin 2 → Nat :=
  let c87 : Index := 87#32
  let c0_i32 : BitVec 32 := 0#32
  let c1_i32 : BitVec 32 := 1#32
  let arg7 : BitVec 32 := Scf.iv c0_i32 c1_i32 k0_t1
  let v1913 : Index := Scalar.indexCast arg7
  ![87, v1913.toNat]
def k0_off176 (v1914 : BitVec 32) : Fin 2 → Nat :=
  let c0_i32_1309 : BitVec 32 := 0#32
  ![v1914.toNat, 0]

def k0_chk88 (v1914 : BitVec 32) : Prop :=
  (∀ a, (k0_off176 v1914) a + S1x128.size a ≤ S100001x128.size a)
instance k0_chk88.dec : ∀ (v1914 : BitVec 32), Decidable (k0_chk88 v1914) := fun v1914 => decidable_of_iff' _ (Iff.of_eq (k0_chk88.eq_1 v1914))
theorem k0_off176_inb : ∀ (v1914 : BitVec 32) (k0_hw88 : k0_chk88 v1914), ∀ a, (k0_off176 v1914) a + S1x128.size a ≤ S100001x128.size a := fun v1914 k0_hw88 => k0_hw88

def k0_off177 (k0_t1 : Fin k0_t1_loop.trips) : Fin 2 → Nat :=
  let c88 : Index := 88#32
  let c0_i32 : BitVec 32 := 0#32
  let c1_i32 : BitVec 32 := 1#32
  let arg7 : BitVec 32 := Scf.iv c0_i32 c1_i32 k0_t1
  let v1935 : Index := Scalar.indexCast arg7
  ![88, v1935.toNat]
def k0_off178 (v1936 : BitVec 32) : Fin 2 → Nat :=
  let c0_i32_1324 : BitVec 32 := 0#32
  ![v1936.toNat, 0]

def k0_chk89 (v1936 : BitVec 32) : Prop :=
  (∀ a, (k0_off178 v1936) a + S1x128.size a ≤ S100001x128.size a)
instance k0_chk89.dec : ∀ (v1936 : BitVec 32), Decidable (k0_chk89 v1936) := fun v1936 => decidable_of_iff' _ (Iff.of_eq (k0_chk89.eq_1 v1936))
theorem k0_off178_inb : ∀ (v1936 : BitVec 32) (k0_hw89 : k0_chk89 v1936), ∀ a, (k0_off178 v1936) a + S1x128.size a ≤ S100001x128.size a := fun v1936 k0_hw89 => k0_hw89

def k0_off179 (k0_t1 : Fin k0_t1_loop.trips) : Fin 2 → Nat :=
  let c89 : Index := 89#32
  let c0_i32 : BitVec 32 := 0#32
  let c1_i32 : BitVec 32 := 1#32
  let arg7 : BitVec 32 := Scf.iv c0_i32 c1_i32 k0_t1
  let v1957 : Index := Scalar.indexCast arg7
  ![89, v1957.toNat]
def k0_off180 (v1958 : BitVec 32) : Fin 2 → Nat :=
  let c0_i32_1339 : BitVec 32 := 0#32
  ![v1958.toNat, 0]

def k0_chk90 (v1958 : BitVec 32) : Prop :=
  (∀ a, (k0_off180 v1958) a + S1x128.size a ≤ S100001x128.size a)
instance k0_chk90.dec : ∀ (v1958 : BitVec 32), Decidable (k0_chk90 v1958) := fun v1958 => decidable_of_iff' _ (Iff.of_eq (k0_chk90.eq_1 v1958))
theorem k0_off180_inb : ∀ (v1958 : BitVec 32) (k0_hw90 : k0_chk90 v1958), ∀ a, (k0_off180 v1958) a + S1x128.size a ≤ S100001x128.size a := fun v1958 k0_hw90 => k0_hw90

def k0_off181 (k0_t1 : Fin k0_t1_loop.trips) : Fin 2 → Nat :=
  let c90 : Index := 90#32
  let c0_i32 : BitVec 32 := 0#32
  let c1_i32 : BitVec 32 := 1#32
  let arg7 : BitVec 32 := Scf.iv c0_i32 c1_i32 k0_t1
  let v1979 : Index := Scalar.indexCast arg7
  ![90, v1979.toNat]
def k0_off182 (v1980 : BitVec 32) : Fin 2 → Nat :=
  let c0_i32_1354 : BitVec 32 := 0#32
  ![v1980.toNat, 0]

def k0_chk91 (v1980 : BitVec 32) : Prop :=
  (∀ a, (k0_off182 v1980) a + S1x128.size a ≤ S100001x128.size a)
instance k0_chk91.dec : ∀ (v1980 : BitVec 32), Decidable (k0_chk91 v1980) := fun v1980 => decidable_of_iff' _ (Iff.of_eq (k0_chk91.eq_1 v1980))
theorem k0_off182_inb : ∀ (v1980 : BitVec 32) (k0_hw91 : k0_chk91 v1980), ∀ a, (k0_off182 v1980) a + S1x128.size a ≤ S100001x128.size a := fun v1980 k0_hw91 => k0_hw91

def k0_off183 (k0_t1 : Fin k0_t1_loop.trips) : Fin 2 → Nat :=
  let c91 : Index := 91#32
  let c0_i32 : BitVec 32 := 0#32
  let c1_i32 : BitVec 32 := 1#32
  let arg7 : BitVec 32 := Scf.iv c0_i32 c1_i32 k0_t1
  let v2001 : Index := Scalar.indexCast arg7
  ![91, v2001.toNat]
def k0_off184 (v2002 : BitVec 32) : Fin 2 → Nat :=
  let c0_i32_1369 : BitVec 32 := 0#32
  ![v2002.toNat, 0]

def k0_chk92 (v2002 : BitVec 32) : Prop :=
  (∀ a, (k0_off184 v2002) a + S1x128.size a ≤ S100001x128.size a)
instance k0_chk92.dec : ∀ (v2002 : BitVec 32), Decidable (k0_chk92 v2002) := fun v2002 => decidable_of_iff' _ (Iff.of_eq (k0_chk92.eq_1 v2002))
theorem k0_off184_inb : ∀ (v2002 : BitVec 32) (k0_hw92 : k0_chk92 v2002), ∀ a, (k0_off184 v2002) a + S1x128.size a ≤ S100001x128.size a := fun v2002 k0_hw92 => k0_hw92

def k0_off185 (k0_t1 : Fin k0_t1_loop.trips) : Fin 2 → Nat :=
  let c92 : Index := 92#32
  let c0_i32 : BitVec 32 := 0#32
  let c1_i32 : BitVec 32 := 1#32
  let arg7 : BitVec 32 := Scf.iv c0_i32 c1_i32 k0_t1
  let v2023 : Index := Scalar.indexCast arg7
  ![92, v2023.toNat]
def k0_off186 (v2024 : BitVec 32) : Fin 2 → Nat :=
  let c0_i32_1384 : BitVec 32 := 0#32
  ![v2024.toNat, 0]

def k0_chk93 (v2024 : BitVec 32) : Prop :=
  (∀ a, (k0_off186 v2024) a + S1x128.size a ≤ S100001x128.size a)
instance k0_chk93.dec : ∀ (v2024 : BitVec 32), Decidable (k0_chk93 v2024) := fun v2024 => decidable_of_iff' _ (Iff.of_eq (k0_chk93.eq_1 v2024))
theorem k0_off186_inb : ∀ (v2024 : BitVec 32) (k0_hw93 : k0_chk93 v2024), ∀ a, (k0_off186 v2024) a + S1x128.size a ≤ S100001x128.size a := fun v2024 k0_hw93 => k0_hw93

def k0_off187 (k0_t1 : Fin k0_t1_loop.trips) : Fin 2 → Nat :=
  let c93 : Index := 93#32
  let c0_i32 : BitVec 32 := 0#32
  let c1_i32 : BitVec 32 := 1#32
  let arg7 : BitVec 32 := Scf.iv c0_i32 c1_i32 k0_t1
  let v2045 : Index := Scalar.indexCast arg7
  ![93, v2045.toNat]
def k0_off188 (v2046 : BitVec 32) : Fin 2 → Nat :=
  let c0_i32_1399 : BitVec 32 := 0#32
  ![v2046.toNat, 0]

def k0_chk94 (v2046 : BitVec 32) : Prop :=
  (∀ a, (k0_off188 v2046) a + S1x128.size a ≤ S100001x128.size a)
instance k0_chk94.dec : ∀ (v2046 : BitVec 32), Decidable (k0_chk94 v2046) := fun v2046 => decidable_of_iff' _ (Iff.of_eq (k0_chk94.eq_1 v2046))
theorem k0_off188_inb : ∀ (v2046 : BitVec 32) (k0_hw94 : k0_chk94 v2046), ∀ a, (k0_off188 v2046) a + S1x128.size a ≤ S100001x128.size a := fun v2046 k0_hw94 => k0_hw94

def k0_off189 (k0_t1 : Fin k0_t1_loop.trips) : Fin 2 → Nat :=
  let c94 : Index := 94#32
  let c0_i32 : BitVec 32 := 0#32
  let c1_i32 : BitVec 32 := 1#32
  let arg7 : BitVec 32 := Scf.iv c0_i32 c1_i32 k0_t1
  let v2067 : Index := Scalar.indexCast arg7
  ![94, v2067.toNat]
def k0_off190 (v2068 : BitVec 32) : Fin 2 → Nat :=
  let c0_i32_1414 : BitVec 32 := 0#32
  ![v2068.toNat, 0]

def k0_chk95 (v2068 : BitVec 32) : Prop :=
  (∀ a, (k0_off190 v2068) a + S1x128.size a ≤ S100001x128.size a)
instance k0_chk95.dec : ∀ (v2068 : BitVec 32), Decidable (k0_chk95 v2068) := fun v2068 => decidable_of_iff' _ (Iff.of_eq (k0_chk95.eq_1 v2068))
theorem k0_off190_inb : ∀ (v2068 : BitVec 32) (k0_hw95 : k0_chk95 v2068), ∀ a, (k0_off190 v2068) a + S1x128.size a ≤ S100001x128.size a := fun v2068 k0_hw95 => k0_hw95

def k0_off191 (k0_t1 : Fin k0_t1_loop.trips) : Fin 2 → Nat :=
  let c95 : Index := 95#32
  let c0_i32 : BitVec 32 := 0#32
  let c1_i32 : BitVec 32 := 1#32
  let arg7 : BitVec 32 := Scf.iv c0_i32 c1_i32 k0_t1
  let v2089 : Index := Scalar.indexCast arg7
  ![95, v2089.toNat]
def k0_off192 (v2090 : BitVec 32) : Fin 2 → Nat :=
  let c0_i32_1429 : BitVec 32 := 0#32
  ![v2090.toNat, 0]

def k0_chk96 (v2090 : BitVec 32) : Prop :=
  (∀ a, (k0_off192 v2090) a + S1x128.size a ≤ S100001x128.size a)
instance k0_chk96.dec : ∀ (v2090 : BitVec 32), Decidable (k0_chk96 v2090) := fun v2090 => decidable_of_iff' _ (Iff.of_eq (k0_chk96.eq_1 v2090))
theorem k0_off192_inb : ∀ (v2090 : BitVec 32) (k0_hw96 : k0_chk96 v2090), ∀ a, (k0_off192 v2090) a + S1x128.size a ≤ S100001x128.size a := fun v2090 k0_hw96 => k0_hw96

def k0_off193 (k0_t1 : Fin k0_t1_loop.trips) : Fin 2 → Nat :=
  let c96 : Index := 96#32
  let c0_i32 : BitVec 32 := 0#32
  let c1_i32 : BitVec 32 := 1#32
  let arg7 : BitVec 32 := Scf.iv c0_i32 c1_i32 k0_t1
  let v2111 : Index := Scalar.indexCast arg7
  ![96, v2111.toNat]
def k0_off194 (v2112 : BitVec 32) : Fin 2 → Nat :=
  let c0_i32_1444 : BitVec 32 := 0#32
  ![v2112.toNat, 0]

def k0_chk97 (v2112 : BitVec 32) : Prop :=
  (∀ a, (k0_off194 v2112) a + S1x128.size a ≤ S100001x128.size a)
instance k0_chk97.dec : ∀ (v2112 : BitVec 32), Decidable (k0_chk97 v2112) := fun v2112 => decidable_of_iff' _ (Iff.of_eq (k0_chk97.eq_1 v2112))
theorem k0_off194_inb : ∀ (v2112 : BitVec 32) (k0_hw97 : k0_chk97 v2112), ∀ a, (k0_off194 v2112) a + S1x128.size a ≤ S100001x128.size a := fun v2112 k0_hw97 => k0_hw97

def k0_off195 (k0_t1 : Fin k0_t1_loop.trips) : Fin 2 → Nat :=
  let c97 : Index := 97#32
  let c0_i32 : BitVec 32 := 0#32
  let c1_i32 : BitVec 32 := 1#32
  let arg7 : BitVec 32 := Scf.iv c0_i32 c1_i32 k0_t1
  let v2133 : Index := Scalar.indexCast arg7
  ![97, v2133.toNat]
def k0_off196 (v2134 : BitVec 32) : Fin 2 → Nat :=
  let c0_i32_1459 : BitVec 32 := 0#32
  ![v2134.toNat, 0]

def k0_chk98 (v2134 : BitVec 32) : Prop :=
  (∀ a, (k0_off196 v2134) a + S1x128.size a ≤ S100001x128.size a)
instance k0_chk98.dec : ∀ (v2134 : BitVec 32), Decidable (k0_chk98 v2134) := fun v2134 => decidable_of_iff' _ (Iff.of_eq (k0_chk98.eq_1 v2134))
theorem k0_off196_inb : ∀ (v2134 : BitVec 32) (k0_hw98 : k0_chk98 v2134), ∀ a, (k0_off196 v2134) a + S1x128.size a ≤ S100001x128.size a := fun v2134 k0_hw98 => k0_hw98

def k0_off197 (k0_t1 : Fin k0_t1_loop.trips) : Fin 2 → Nat :=
  let c98 : Index := 98#32
  let c0_i32 : BitVec 32 := 0#32
  let c1_i32 : BitVec 32 := 1#32
  let arg7 : BitVec 32 := Scf.iv c0_i32 c1_i32 k0_t1
  let v2155 : Index := Scalar.indexCast arg7
  ![98, v2155.toNat]
def k0_off198 (v2156 : BitVec 32) : Fin 2 → Nat :=
  let c0_i32_1474 : BitVec 32 := 0#32
  ![v2156.toNat, 0]

def k0_chk99 (v2156 : BitVec 32) : Prop :=
  (∀ a, (k0_off198 v2156) a + S1x128.size a ≤ S100001x128.size a)
instance k0_chk99.dec : ∀ (v2156 : BitVec 32), Decidable (k0_chk99 v2156) := fun v2156 => decidable_of_iff' _ (Iff.of_eq (k0_chk99.eq_1 v2156))
theorem k0_off198_inb : ∀ (v2156 : BitVec 32) (k0_hw99 : k0_chk99 v2156), ∀ a, (k0_off198 v2156) a + S1x128.size a ≤ S100001x128.size a := fun v2156 k0_hw99 => k0_hw99

def k0_off199 (k0_t1 : Fin k0_t1_loop.trips) : Fin 2 → Nat :=
  let c99 : Index := 99#32
  let c0_i32 : BitVec 32 := 0#32
  let c1_i32 : BitVec 32 := 1#32
  let arg7 : BitVec 32 := Scf.iv c0_i32 c1_i32 k0_t1
  let v2177 : Index := Scalar.indexCast arg7
  ![99, v2177.toNat]
def k0_off200 (v2178 : BitVec 32) : Fin 2 → Nat :=
  let c0_i32_1489 : BitVec 32 := 0#32
  ![v2178.toNat, 0]

def k0_chk100 (v2178 : BitVec 32) : Prop :=
  (∀ a, (k0_off200 v2178) a + S1x128.size a ≤ S100001x128.size a)
instance k0_chk100.dec : ∀ (v2178 : BitVec 32), Decidable (k0_chk100 v2178) := fun v2178 => decidable_of_iff' _ (Iff.of_eq (k0_chk100.eq_1 v2178))
theorem k0_off200_inb : ∀ (v2178 : BitVec 32) (k0_hw100 : k0_chk100 v2178), ∀ a, (k0_off200 v2178) a + S1x128.size a ≤ S100001x128.size a := fun v2178 k0_hw100 => k0_hw100

def k0_off201 (k0_t1 : Fin k0_t1_loop.trips) : Fin 2 → Nat :=
  let c100 : Index := 100#32
  let c0_i32 : BitVec 32 := 0#32
  let c1_i32 : BitVec 32 := 1#32
  let arg7 : BitVec 32 := Scf.iv c0_i32 c1_i32 k0_t1
  let v2199 : Index := Scalar.indexCast arg7
  ![100, v2199.toNat]
def k0_off202 (v2200 : BitVec 32) : Fin 2 → Nat :=
  let c0_i32_1504 : BitVec 32 := 0#32
  ![v2200.toNat, 0]

def k0_chk101 (v2200 : BitVec 32) : Prop :=
  (∀ a, (k0_off202 v2200) a + S1x128.size a ≤ S100001x128.size a)
instance k0_chk101.dec : ∀ (v2200 : BitVec 32), Decidable (k0_chk101 v2200) := fun v2200 => decidable_of_iff' _ (Iff.of_eq (k0_chk101.eq_1 v2200))
theorem k0_off202_inb : ∀ (v2200 : BitVec 32) (k0_hw101 : k0_chk101 v2200), ∀ a, (k0_off202 v2200) a + S1x128.size a ≤ S100001x128.size a := fun v2200 k0_hw101 => k0_hw101

def k0_off203 (k0_t1 : Fin k0_t1_loop.trips) : Fin 2 → Nat :=
  let c101 : Index := 101#32
  let c0_i32 : BitVec 32 := 0#32
  let c1_i32 : BitVec 32 := 1#32
  let arg7 : BitVec 32 := Scf.iv c0_i32 c1_i32 k0_t1
  let v2221 : Index := Scalar.indexCast arg7
  ![101, v2221.toNat]
def k0_off204 (v2222 : BitVec 32) : Fin 2 → Nat :=
  let c0_i32_1519 : BitVec 32 := 0#32
  ![v2222.toNat, 0]

def k0_chk102 (v2222 : BitVec 32) : Prop :=
  (∀ a, (k0_off204 v2222) a + S1x128.size a ≤ S100001x128.size a)
instance k0_chk102.dec : ∀ (v2222 : BitVec 32), Decidable (k0_chk102 v2222) := fun v2222 => decidable_of_iff' _ (Iff.of_eq (k0_chk102.eq_1 v2222))
theorem k0_off204_inb : ∀ (v2222 : BitVec 32) (k0_hw102 : k0_chk102 v2222), ∀ a, (k0_off204 v2222) a + S1x128.size a ≤ S100001x128.size a := fun v2222 k0_hw102 => k0_hw102

def k0_off205 (k0_t1 : Fin k0_t1_loop.trips) : Fin 2 → Nat :=
  let c102 : Index := 102#32
  let c0_i32 : BitVec 32 := 0#32
  let c1_i32 : BitVec 32 := 1#32
  let arg7 : BitVec 32 := Scf.iv c0_i32 c1_i32 k0_t1
  let v2243 : Index := Scalar.indexCast arg7
  ![102, v2243.toNat]
def k0_off206 (v2244 : BitVec 32) : Fin 2 → Nat :=
  let c0_i32_1534 : BitVec 32 := 0#32
  ![v2244.toNat, 0]

def k0_chk103 (v2244 : BitVec 32) : Prop :=
  (∀ a, (k0_off206 v2244) a + S1x128.size a ≤ S100001x128.size a)
instance k0_chk103.dec : ∀ (v2244 : BitVec 32), Decidable (k0_chk103 v2244) := fun v2244 => decidable_of_iff' _ (Iff.of_eq (k0_chk103.eq_1 v2244))
theorem k0_off206_inb : ∀ (v2244 : BitVec 32) (k0_hw103 : k0_chk103 v2244), ∀ a, (k0_off206 v2244) a + S1x128.size a ≤ S100001x128.size a := fun v2244 k0_hw103 => k0_hw103

def k0_off207 (k0_t1 : Fin k0_t1_loop.trips) : Fin 2 → Nat :=
  let c103 : Index := 103#32
  let c0_i32 : BitVec 32 := 0#32
  let c1_i32 : BitVec 32 := 1#32
  let arg7 : BitVec 32 := Scf.iv c0_i32 c1_i32 k0_t1
  let v2265 : Index := Scalar.indexCast arg7
  ![103, v2265.toNat]
def k0_off208 (v2266 : BitVec 32) : Fin 2 → Nat :=
  let c0_i32_1549 : BitVec 32 := 0#32
  ![v2266.toNat, 0]

def k0_chk104 (v2266 : BitVec 32) : Prop :=
  (∀ a, (k0_off208 v2266) a + S1x128.size a ≤ S100001x128.size a)
instance k0_chk104.dec : ∀ (v2266 : BitVec 32), Decidable (k0_chk104 v2266) := fun v2266 => decidable_of_iff' _ (Iff.of_eq (k0_chk104.eq_1 v2266))
theorem k0_off208_inb : ∀ (v2266 : BitVec 32) (k0_hw104 : k0_chk104 v2266), ∀ a, (k0_off208 v2266) a + S1x128.size a ≤ S100001x128.size a := fun v2266 k0_hw104 => k0_hw104

def k0_off209 (k0_t1 : Fin k0_t1_loop.trips) : Fin 2 → Nat :=
  let c104 : Index := 104#32
  let c0_i32 : BitVec 32 := 0#32
  let c1_i32 : BitVec 32 := 1#32
  let arg7 : BitVec 32 := Scf.iv c0_i32 c1_i32 k0_t1
  let v2287 : Index := Scalar.indexCast arg7
  ![104, v2287.toNat]
def k0_off210 (v2288 : BitVec 32) : Fin 2 → Nat :=
  let c0_i32_1564 : BitVec 32 := 0#32
  ![v2288.toNat, 0]

def k0_chk105 (v2288 : BitVec 32) : Prop :=
  (∀ a, (k0_off210 v2288) a + S1x128.size a ≤ S100001x128.size a)
instance k0_chk105.dec : ∀ (v2288 : BitVec 32), Decidable (k0_chk105 v2288) := fun v2288 => decidable_of_iff' _ (Iff.of_eq (k0_chk105.eq_1 v2288))
theorem k0_off210_inb : ∀ (v2288 : BitVec 32) (k0_hw105 : k0_chk105 v2288), ∀ a, (k0_off210 v2288) a + S1x128.size a ≤ S100001x128.size a := fun v2288 k0_hw105 => k0_hw105

def k0_off211 (k0_t1 : Fin k0_t1_loop.trips) : Fin 2 → Nat :=
  let c105 : Index := 105#32
  let c0_i32 : BitVec 32 := 0#32
  let c1_i32 : BitVec 32 := 1#32
  let arg7 : BitVec 32 := Scf.iv c0_i32 c1_i32 k0_t1
  let v2309 : Index := Scalar.indexCast arg7
  ![105, v2309.toNat]
def k0_off212 (v2310 : BitVec 32) : Fin 2 → Nat :=
  let c0_i32_1579 : BitVec 32 := 0#32
  ![v2310.toNat, 0]

def k0_chk106 (v2310 : BitVec 32) : Prop :=
  (∀ a, (k0_off212 v2310) a + S1x128.size a ≤ S100001x128.size a)
instance k0_chk106.dec : ∀ (v2310 : BitVec 32), Decidable (k0_chk106 v2310) := fun v2310 => decidable_of_iff' _ (Iff.of_eq (k0_chk106.eq_1 v2310))
theorem k0_off212_inb : ∀ (v2310 : BitVec 32) (k0_hw106 : k0_chk106 v2310), ∀ a, (k0_off212 v2310) a + S1x128.size a ≤ S100001x128.size a := fun v2310 k0_hw106 => k0_hw106

def k0_off213 (k0_t1 : Fin k0_t1_loop.trips) : Fin 2 → Nat :=
  let c106 : Index := 106#32
  let c0_i32 : BitVec 32 := 0#32
  let c1_i32 : BitVec 32 := 1#32
  let arg7 : BitVec 32 := Scf.iv c0_i32 c1_i32 k0_t1
  let v2331 : Index := Scalar.indexCast arg7
  ![106, v2331.toNat]
def k0_off214 (v2332 : BitVec 32) : Fin 2 → Nat :=
  let c0_i32_1594 : BitVec 32 := 0#32
  ![v2332.toNat, 0]

def k0_chk107 (v2332 : BitVec 32) : Prop :=
  (∀ a, (k0_off214 v2332) a + S1x128.size a ≤ S100001x128.size a)
instance k0_chk107.dec : ∀ (v2332 : BitVec 32), Decidable (k0_chk107 v2332) := fun v2332 => decidable_of_iff' _ (Iff.of_eq (k0_chk107.eq_1 v2332))
theorem k0_off214_inb : ∀ (v2332 : BitVec 32) (k0_hw107 : k0_chk107 v2332), ∀ a, (k0_off214 v2332) a + S1x128.size a ≤ S100001x128.size a := fun v2332 k0_hw107 => k0_hw107

def k0_off215 (k0_t1 : Fin k0_t1_loop.trips) : Fin 2 → Nat :=
  let c107 : Index := 107#32
  let c0_i32 : BitVec 32 := 0#32
  let c1_i32 : BitVec 32 := 1#32
  let arg7 : BitVec 32 := Scf.iv c0_i32 c1_i32 k0_t1
  let v2353 : Index := Scalar.indexCast arg7
  ![107, v2353.toNat]
def k0_off216 (v2354 : BitVec 32) : Fin 2 → Nat :=
  let c0_i32_1609 : BitVec 32 := 0#32
  ![v2354.toNat, 0]

def k0_chk108 (v2354 : BitVec 32) : Prop :=
  (∀ a, (k0_off216 v2354) a + S1x128.size a ≤ S100001x128.size a)
instance k0_chk108.dec : ∀ (v2354 : BitVec 32), Decidable (k0_chk108 v2354) := fun v2354 => decidable_of_iff' _ (Iff.of_eq (k0_chk108.eq_1 v2354))
theorem k0_off216_inb : ∀ (v2354 : BitVec 32) (k0_hw108 : k0_chk108 v2354), ∀ a, (k0_off216 v2354) a + S1x128.size a ≤ S100001x128.size a := fun v2354 k0_hw108 => k0_hw108

def k0_off217 (k0_t1 : Fin k0_t1_loop.trips) : Fin 2 → Nat :=
  let c108 : Index := 108#32
  let c0_i32 : BitVec 32 := 0#32
  let c1_i32 : BitVec 32 := 1#32
  let arg7 : BitVec 32 := Scf.iv c0_i32 c1_i32 k0_t1
  let v2375 : Index := Scalar.indexCast arg7
  ![108, v2375.toNat]
def k0_off218 (v2376 : BitVec 32) : Fin 2 → Nat :=
  let c0_i32_1624 : BitVec 32 := 0#32
  ![v2376.toNat, 0]

def k0_chk109 (v2376 : BitVec 32) : Prop :=
  (∀ a, (k0_off218 v2376) a + S1x128.size a ≤ S100001x128.size a)
instance k0_chk109.dec : ∀ (v2376 : BitVec 32), Decidable (k0_chk109 v2376) := fun v2376 => decidable_of_iff' _ (Iff.of_eq (k0_chk109.eq_1 v2376))
theorem k0_off218_inb : ∀ (v2376 : BitVec 32) (k0_hw109 : k0_chk109 v2376), ∀ a, (k0_off218 v2376) a + S1x128.size a ≤ S100001x128.size a := fun v2376 k0_hw109 => k0_hw109

def k0_off219 (k0_t1 : Fin k0_t1_loop.trips) : Fin 2 → Nat :=
  let c109 : Index := 109#32
  let c0_i32 : BitVec 32 := 0#32
  let c1_i32 : BitVec 32 := 1#32
  let arg7 : BitVec 32 := Scf.iv c0_i32 c1_i32 k0_t1
  let v2397 : Index := Scalar.indexCast arg7
  ![109, v2397.toNat]
def k0_off220 (v2398 : BitVec 32) : Fin 2 → Nat :=
  let c0_i32_1639 : BitVec 32 := 0#32
  ![v2398.toNat, 0]

def k0_chk110 (v2398 : BitVec 32) : Prop :=
  (∀ a, (k0_off220 v2398) a + S1x128.size a ≤ S100001x128.size a)
instance k0_chk110.dec : ∀ (v2398 : BitVec 32), Decidable (k0_chk110 v2398) := fun v2398 => decidable_of_iff' _ (Iff.of_eq (k0_chk110.eq_1 v2398))
theorem k0_off220_inb : ∀ (v2398 : BitVec 32) (k0_hw110 : k0_chk110 v2398), ∀ a, (k0_off220 v2398) a + S1x128.size a ≤ S100001x128.size a := fun v2398 k0_hw110 => k0_hw110

def k0_off221 (k0_t1 : Fin k0_t1_loop.trips) : Fin 2 → Nat :=
  let c110 : Index := 110#32
  let c0_i32 : BitVec 32 := 0#32
  let c1_i32 : BitVec 32 := 1#32
  let arg7 : BitVec 32 := Scf.iv c0_i32 c1_i32 k0_t1
  let v2419 : Index := Scalar.indexCast arg7
  ![110, v2419.toNat]
def k0_off222 (v2420 : BitVec 32) : Fin 2 → Nat :=
  let c0_i32_1654 : BitVec 32 := 0#32
  ![v2420.toNat, 0]

def k0_chk111 (v2420 : BitVec 32) : Prop :=
  (∀ a, (k0_off222 v2420) a + S1x128.size a ≤ S100001x128.size a)
instance k0_chk111.dec : ∀ (v2420 : BitVec 32), Decidable (k0_chk111 v2420) := fun v2420 => decidable_of_iff' _ (Iff.of_eq (k0_chk111.eq_1 v2420))
theorem k0_off222_inb : ∀ (v2420 : BitVec 32) (k0_hw111 : k0_chk111 v2420), ∀ a, (k0_off222 v2420) a + S1x128.size a ≤ S100001x128.size a := fun v2420 k0_hw111 => k0_hw111

def k0_off223 (k0_t1 : Fin k0_t1_loop.trips) : Fin 2 → Nat :=
  let c111 : Index := 111#32
  let c0_i32 : BitVec 32 := 0#32
  let c1_i32 : BitVec 32 := 1#32
  let arg7 : BitVec 32 := Scf.iv c0_i32 c1_i32 k0_t1
  let v2441 : Index := Scalar.indexCast arg7
  ![111, v2441.toNat]
def k0_off224 (v2442 : BitVec 32) : Fin 2 → Nat :=
  let c0_i32_1669 : BitVec 32 := 0#32
  ![v2442.toNat, 0]

def k0_chk112 (v2442 : BitVec 32) : Prop :=
  (∀ a, (k0_off224 v2442) a + S1x128.size a ≤ S100001x128.size a)
instance k0_chk112.dec : ∀ (v2442 : BitVec 32), Decidable (k0_chk112 v2442) := fun v2442 => decidable_of_iff' _ (Iff.of_eq (k0_chk112.eq_1 v2442))
theorem k0_off224_inb : ∀ (v2442 : BitVec 32) (k0_hw112 : k0_chk112 v2442), ∀ a, (k0_off224 v2442) a + S1x128.size a ≤ S100001x128.size a := fun v2442 k0_hw112 => k0_hw112

def k0_off225 (k0_t1 : Fin k0_t1_loop.trips) : Fin 2 → Nat :=
  let c112 : Index := 112#32
  let c0_i32 : BitVec 32 := 0#32
  let c1_i32 : BitVec 32 := 1#32
  let arg7 : BitVec 32 := Scf.iv c0_i32 c1_i32 k0_t1
  let v2463 : Index := Scalar.indexCast arg7
  ![112, v2463.toNat]
def k0_off226 (v2464 : BitVec 32) : Fin 2 → Nat :=
  let c0_i32_1684 : BitVec 32 := 0#32
  ![v2464.toNat, 0]

def k0_chk113 (v2464 : BitVec 32) : Prop :=
  (∀ a, (k0_off226 v2464) a + S1x128.size a ≤ S100001x128.size a)
instance k0_chk113.dec : ∀ (v2464 : BitVec 32), Decidable (k0_chk113 v2464) := fun v2464 => decidable_of_iff' _ (Iff.of_eq (k0_chk113.eq_1 v2464))
theorem k0_off226_inb : ∀ (v2464 : BitVec 32) (k0_hw113 : k0_chk113 v2464), ∀ a, (k0_off226 v2464) a + S1x128.size a ≤ S100001x128.size a := fun v2464 k0_hw113 => k0_hw113

def k0_off227 (k0_t1 : Fin k0_t1_loop.trips) : Fin 2 → Nat :=
  let c113 : Index := 113#32
  let c0_i32 : BitVec 32 := 0#32
  let c1_i32 : BitVec 32 := 1#32
  let arg7 : BitVec 32 := Scf.iv c0_i32 c1_i32 k0_t1
  let v2485 : Index := Scalar.indexCast arg7
  ![113, v2485.toNat]
def k0_off228 (v2486 : BitVec 32) : Fin 2 → Nat :=
  let c0_i32_1699 : BitVec 32 := 0#32
  ![v2486.toNat, 0]

def k0_chk114 (v2486 : BitVec 32) : Prop :=
  (∀ a, (k0_off228 v2486) a + S1x128.size a ≤ S100001x128.size a)
instance k0_chk114.dec : ∀ (v2486 : BitVec 32), Decidable (k0_chk114 v2486) := fun v2486 => decidable_of_iff' _ (Iff.of_eq (k0_chk114.eq_1 v2486))
theorem k0_off228_inb : ∀ (v2486 : BitVec 32) (k0_hw114 : k0_chk114 v2486), ∀ a, (k0_off228 v2486) a + S1x128.size a ≤ S100001x128.size a := fun v2486 k0_hw114 => k0_hw114

def k0_off229 (k0_t1 : Fin k0_t1_loop.trips) : Fin 2 → Nat :=
  let c114 : Index := 114#32
  let c0_i32 : BitVec 32 := 0#32
  let c1_i32 : BitVec 32 := 1#32
  let arg7 : BitVec 32 := Scf.iv c0_i32 c1_i32 k0_t1
  let v2507 : Index := Scalar.indexCast arg7
  ![114, v2507.toNat]
def k0_off230 (v2508 : BitVec 32) : Fin 2 → Nat :=
  let c0_i32_1714 : BitVec 32 := 0#32
  ![v2508.toNat, 0]

def k0_chk115 (v2508 : BitVec 32) : Prop :=
  (∀ a, (k0_off230 v2508) a + S1x128.size a ≤ S100001x128.size a)
instance k0_chk115.dec : ∀ (v2508 : BitVec 32), Decidable (k0_chk115 v2508) := fun v2508 => decidable_of_iff' _ (Iff.of_eq (k0_chk115.eq_1 v2508))
theorem k0_off230_inb : ∀ (v2508 : BitVec 32) (k0_hw115 : k0_chk115 v2508), ∀ a, (k0_off230 v2508) a + S1x128.size a ≤ S100001x128.size a := fun v2508 k0_hw115 => k0_hw115

def k0_off231 (k0_t1 : Fin k0_t1_loop.trips) : Fin 2 → Nat :=
  let c115 : Index := 115#32
  let c0_i32 : BitVec 32 := 0#32
  let c1_i32 : BitVec 32 := 1#32
  let arg7 : BitVec 32 := Scf.iv c0_i32 c1_i32 k0_t1
  let v2529 : Index := Scalar.indexCast arg7
  ![115, v2529.toNat]
def k0_off232 (v2530 : BitVec 32) : Fin 2 → Nat :=
  let c0_i32_1729 : BitVec 32 := 0#32
  ![v2530.toNat, 0]

def k0_chk116 (v2530 : BitVec 32) : Prop :=
  (∀ a, (k0_off232 v2530) a + S1x128.size a ≤ S100001x128.size a)
instance k0_chk116.dec : ∀ (v2530 : BitVec 32), Decidable (k0_chk116 v2530) := fun v2530 => decidable_of_iff' _ (Iff.of_eq (k0_chk116.eq_1 v2530))
theorem k0_off232_inb : ∀ (v2530 : BitVec 32) (k0_hw116 : k0_chk116 v2530), ∀ a, (k0_off232 v2530) a + S1x128.size a ≤ S100001x128.size a := fun v2530 k0_hw116 => k0_hw116

def k0_off233 (k0_t1 : Fin k0_t1_loop.trips) : Fin 2 → Nat :=
  let c116 : Index := 116#32
  let c0_i32 : BitVec 32 := 0#32
  let c1_i32 : BitVec 32 := 1#32
  let arg7 : BitVec 32 := Scf.iv c0_i32 c1_i32 k0_t1
  let v2551 : Index := Scalar.indexCast arg7
  ![116, v2551.toNat]
def k0_off234 (v2552 : BitVec 32) : Fin 2 → Nat :=
  let c0_i32_1744 : BitVec 32 := 0#32
  ![v2552.toNat, 0]

def k0_chk117 (v2552 : BitVec 32) : Prop :=
  (∀ a, (k0_off234 v2552) a + S1x128.size a ≤ S100001x128.size a)
instance k0_chk117.dec : ∀ (v2552 : BitVec 32), Decidable (k0_chk117 v2552) := fun v2552 => decidable_of_iff' _ (Iff.of_eq (k0_chk117.eq_1 v2552))
theorem k0_off234_inb : ∀ (v2552 : BitVec 32) (k0_hw117 : k0_chk117 v2552), ∀ a, (k0_off234 v2552) a + S1x128.size a ≤ S100001x128.size a := fun v2552 k0_hw117 => k0_hw117

def k0_off235 (k0_t1 : Fin k0_t1_loop.trips) : Fin 2 → Nat :=
  let c117 : Index := 117#32
  let c0_i32 : BitVec 32 := 0#32
  let c1_i32 : BitVec 32 := 1#32
  let arg7 : BitVec 32 := Scf.iv c0_i32 c1_i32 k0_t1
  let v2573 : Index := Scalar.indexCast arg7
  ![117, v2573.toNat]
def k0_off236 (v2574 : BitVec 32) : Fin 2 → Nat :=
  let c0_i32_1759 : BitVec 32 := 0#32
  ![v2574.toNat, 0]

def k0_chk118 (v2574 : BitVec 32) : Prop :=
  (∀ a, (k0_off236 v2574) a + S1x128.size a ≤ S100001x128.size a)
instance k0_chk118.dec : ∀ (v2574 : BitVec 32), Decidable (k0_chk118 v2574) := fun v2574 => decidable_of_iff' _ (Iff.of_eq (k0_chk118.eq_1 v2574))
theorem k0_off236_inb : ∀ (v2574 : BitVec 32) (k0_hw118 : k0_chk118 v2574), ∀ a, (k0_off236 v2574) a + S1x128.size a ≤ S100001x128.size a := fun v2574 k0_hw118 => k0_hw118

def k0_off237 (k0_t1 : Fin k0_t1_loop.trips) : Fin 2 → Nat :=
  let c118 : Index := 118#32
  let c0_i32 : BitVec 32 := 0#32
  let c1_i32 : BitVec 32 := 1#32
  let arg7 : BitVec 32 := Scf.iv c0_i32 c1_i32 k0_t1
  let v2595 : Index := Scalar.indexCast arg7
  ![118, v2595.toNat]
def k0_off238 (v2596 : BitVec 32) : Fin 2 → Nat :=
  let c0_i32_1774 : BitVec 32 := 0#32
  ![v2596.toNat, 0]

def k0_chk119 (v2596 : BitVec 32) : Prop :=
  (∀ a, (k0_off238 v2596) a + S1x128.size a ≤ S100001x128.size a)
instance k0_chk119.dec : ∀ (v2596 : BitVec 32), Decidable (k0_chk119 v2596) := fun v2596 => decidable_of_iff' _ (Iff.of_eq (k0_chk119.eq_1 v2596))
theorem k0_off238_inb : ∀ (v2596 : BitVec 32) (k0_hw119 : k0_chk119 v2596), ∀ a, (k0_off238 v2596) a + S1x128.size a ≤ S100001x128.size a := fun v2596 k0_hw119 => k0_hw119

def k0_off239 (k0_t1 : Fin k0_t1_loop.trips) : Fin 2 → Nat :=
  let c119 : Index := 119#32
  let c0_i32 : BitVec 32 := 0#32
  let c1_i32 : BitVec 32 := 1#32
  let arg7 : BitVec 32 := Scf.iv c0_i32 c1_i32 k0_t1
  let v2617 : Index := Scalar.indexCast arg7
  ![119, v2617.toNat]
def k0_off240 (v2618 : BitVec 32) : Fin 2 → Nat :=
  let c0_i32_1789 : BitVec 32 := 0#32
  ![v2618.toNat, 0]

def k0_chk120 (v2618 : BitVec 32) : Prop :=
  (∀ a, (k0_off240 v2618) a + S1x128.size a ≤ S100001x128.size a)
instance k0_chk120.dec : ∀ (v2618 : BitVec 32), Decidable (k0_chk120 v2618) := fun v2618 => decidable_of_iff' _ (Iff.of_eq (k0_chk120.eq_1 v2618))
theorem k0_off240_inb : ∀ (v2618 : BitVec 32) (k0_hw120 : k0_chk120 v2618), ∀ a, (k0_off240 v2618) a + S1x128.size a ≤ S100001x128.size a := fun v2618 k0_hw120 => k0_hw120

def k0_off241 (k0_t1 : Fin k0_t1_loop.trips) : Fin 2 → Nat :=
  let c120 : Index := 120#32
  let c0_i32 : BitVec 32 := 0#32
  let c1_i32 : BitVec 32 := 1#32
  let arg7 : BitVec 32 := Scf.iv c0_i32 c1_i32 k0_t1
  let v2639 : Index := Scalar.indexCast arg7
  ![120, v2639.toNat]
def k0_off242 (v2640 : BitVec 32) : Fin 2 → Nat :=
  let c0_i32_1804 : BitVec 32 := 0#32
  ![v2640.toNat, 0]

def k0_chk121 (v2640 : BitVec 32) : Prop :=
  (∀ a, (k0_off242 v2640) a + S1x128.size a ≤ S100001x128.size a)
instance k0_chk121.dec : ∀ (v2640 : BitVec 32), Decidable (k0_chk121 v2640) := fun v2640 => decidable_of_iff' _ (Iff.of_eq (k0_chk121.eq_1 v2640))
theorem k0_off242_inb : ∀ (v2640 : BitVec 32) (k0_hw121 : k0_chk121 v2640), ∀ a, (k0_off242 v2640) a + S1x128.size a ≤ S100001x128.size a := fun v2640 k0_hw121 => k0_hw121

def k0_off243 (k0_t1 : Fin k0_t1_loop.trips) : Fin 2 → Nat :=
  let c121 : Index := 121#32
  let c0_i32 : BitVec 32 := 0#32
  let c1_i32 : BitVec 32 := 1#32
  let arg7 : BitVec 32 := Scf.iv c0_i32 c1_i32 k0_t1
  let v2661 : Index := Scalar.indexCast arg7
  ![121, v2661.toNat]
def k0_off244 (v2662 : BitVec 32) : Fin 2 → Nat :=
  let c0_i32_1819 : BitVec 32 := 0#32
  ![v2662.toNat, 0]

def k0_chk122 (v2662 : BitVec 32) : Prop :=
  (∀ a, (k0_off244 v2662) a + S1x128.size a ≤ S100001x128.size a)
instance k0_chk122.dec : ∀ (v2662 : BitVec 32), Decidable (k0_chk122 v2662) := fun v2662 => decidable_of_iff' _ (Iff.of_eq (k0_chk122.eq_1 v2662))
theorem k0_off244_inb : ∀ (v2662 : BitVec 32) (k0_hw122 : k0_chk122 v2662), ∀ a, (k0_off244 v2662) a + S1x128.size a ≤ S100001x128.size a := fun v2662 k0_hw122 => k0_hw122

def k0_off245 (k0_t1 : Fin k0_t1_loop.trips) : Fin 2 → Nat :=
  let c122 : Index := 122#32
  let c0_i32 : BitVec 32 := 0#32
  let c1_i32 : BitVec 32 := 1#32
  let arg7 : BitVec 32 := Scf.iv c0_i32 c1_i32 k0_t1
  let v2683 : Index := Scalar.indexCast arg7
  ![122, v2683.toNat]
def k0_off246 (v2684 : BitVec 32) : Fin 2 → Nat :=
  let c0_i32_1834 : BitVec 32 := 0#32
  ![v2684.toNat, 0]

def k0_chk123 (v2684 : BitVec 32) : Prop :=
  (∀ a, (k0_off246 v2684) a + S1x128.size a ≤ S100001x128.size a)
instance k0_chk123.dec : ∀ (v2684 : BitVec 32), Decidable (k0_chk123 v2684) := fun v2684 => decidable_of_iff' _ (Iff.of_eq (k0_chk123.eq_1 v2684))
theorem k0_off246_inb : ∀ (v2684 : BitVec 32) (k0_hw123 : k0_chk123 v2684), ∀ a, (k0_off246 v2684) a + S1x128.size a ≤ S100001x128.size a := fun v2684 k0_hw123 => k0_hw123

def k0_off247 (k0_t1 : Fin k0_t1_loop.trips) : Fin 2 → Nat :=
  let c123 : Index := 123#32
  let c0_i32 : BitVec 32 := 0#32
  let c1_i32 : BitVec 32 := 1#32
  let arg7 : BitVec 32 := Scf.iv c0_i32 c1_i32 k0_t1
  let v2705 : Index := Scalar.indexCast arg7
  ![123, v2705.toNat]
def k0_off248 (v2706 : BitVec 32) : Fin 2 → Nat :=
  let c0_i32_1849 : BitVec 32 := 0#32
  ![v2706.toNat, 0]

def k0_chk124 (v2706 : BitVec 32) : Prop :=
  (∀ a, (k0_off248 v2706) a + S1x128.size a ≤ S100001x128.size a)
instance k0_chk124.dec : ∀ (v2706 : BitVec 32), Decidable (k0_chk124 v2706) := fun v2706 => decidable_of_iff' _ (Iff.of_eq (k0_chk124.eq_1 v2706))
theorem k0_off248_inb : ∀ (v2706 : BitVec 32) (k0_hw124 : k0_chk124 v2706), ∀ a, (k0_off248 v2706) a + S1x128.size a ≤ S100001x128.size a := fun v2706 k0_hw124 => k0_hw124

def k0_off249 (k0_t1 : Fin k0_t1_loop.trips) : Fin 2 → Nat :=
  let c124 : Index := 124#32
  let c0_i32 : BitVec 32 := 0#32
  let c1_i32 : BitVec 32 := 1#32
  let arg7 : BitVec 32 := Scf.iv c0_i32 c1_i32 k0_t1
  let v2727 : Index := Scalar.indexCast arg7
  ![124, v2727.toNat]
def k0_off250 (v2728 : BitVec 32) : Fin 2 → Nat :=
  let c0_i32_1864 : BitVec 32 := 0#32
  ![v2728.toNat, 0]

def k0_chk125 (v2728 : BitVec 32) : Prop :=
  (∀ a, (k0_off250 v2728) a + S1x128.size a ≤ S100001x128.size a)
instance k0_chk125.dec : ∀ (v2728 : BitVec 32), Decidable (k0_chk125 v2728) := fun v2728 => decidable_of_iff' _ (Iff.of_eq (k0_chk125.eq_1 v2728))
theorem k0_off250_inb : ∀ (v2728 : BitVec 32) (k0_hw125 : k0_chk125 v2728), ∀ a, (k0_off250 v2728) a + S1x128.size a ≤ S100001x128.size a := fun v2728 k0_hw125 => k0_hw125

def k0_off251 (k0_t1 : Fin k0_t1_loop.trips) : Fin 2 → Nat :=
  let c125 : Index := 125#32
  let c0_i32 : BitVec 32 := 0#32
  let c1_i32 : BitVec 32 := 1#32
  let arg7 : BitVec 32 := Scf.iv c0_i32 c1_i32 k0_t1
  let v2749 : Index := Scalar.indexCast arg7
  ![125, v2749.toNat]
def k0_off252 (v2750 : BitVec 32) : Fin 2 → Nat :=
  let c0_i32_1879 : BitVec 32 := 0#32
  ![v2750.toNat, 0]

def k0_chk126 (v2750 : BitVec 32) : Prop :=
  (∀ a, (k0_off252 v2750) a + S1x128.size a ≤ S100001x128.size a)
instance k0_chk126.dec : ∀ (v2750 : BitVec 32), Decidable (k0_chk126 v2750) := fun v2750 => decidable_of_iff' _ (Iff.of_eq (k0_chk126.eq_1 v2750))
theorem k0_off252_inb : ∀ (v2750 : BitVec 32) (k0_hw126 : k0_chk126 v2750), ∀ a, (k0_off252 v2750) a + S1x128.size a ≤ S100001x128.size a := fun v2750 k0_hw126 => k0_hw126

def k0_off253 (k0_t1 : Fin k0_t1_loop.trips) : Fin 2 → Nat :=
  let c126 : Index := 126#32
  let c0_i32 : BitVec 32 := 0#32
  let c1_i32 : BitVec 32 := 1#32
  let arg7 : BitVec 32 := Scf.iv c0_i32 c1_i32 k0_t1
  let v2771 : Index := Scalar.indexCast arg7
  ![126, v2771.toNat]
def k0_off254 (v2772 : BitVec 32) : Fin 2 → Nat :=
  let c0_i32_1894 : BitVec 32 := 0#32
  ![v2772.toNat, 0]

def k0_chk127 (v2772 : BitVec 32) : Prop :=
  (∀ a, (k0_off254 v2772) a + S1x128.size a ≤ S100001x128.size a)
instance k0_chk127.dec : ∀ (v2772 : BitVec 32), Decidable (k0_chk127 v2772) := fun v2772 => decidable_of_iff' _ (Iff.of_eq (k0_chk127.eq_1 v2772))
theorem k0_off254_inb : ∀ (v2772 : BitVec 32) (k0_hw127 : k0_chk127 v2772), ∀ a, (k0_off254 v2772) a + S1x128.size a ≤ S100001x128.size a := fun v2772 k0_hw127 => k0_hw127

def k0_off255 (k0_t1 : Fin k0_t1_loop.trips) : Fin 2 → Nat :=
  let c127 : Index := 127#32
  let c0_i32 : BitVec 32 := 0#32
  let c1_i32 : BitVec 32 := 1#32
  let arg7 : BitVec 32 := Scf.iv c0_i32 c1_i32 k0_t1
  let v2793 : Index := Scalar.indexCast arg7
  ![127, v2793.toNat]
def k0_off256 (v2794 : BitVec 32) : Fin 2 → Nat :=
  let c0_i32_1909 : BitVec 32 := 0#32
  ![v2794.toNat, 0]

def k0_chk128 (v2794 : BitVec 32) : Prop :=
  (∀ a, (k0_off256 v2794) a + S1x128.size a ≤ S100001x128.size a)
instance k0_chk128.dec : ∀ (v2794 : BitVec 32), Decidable (k0_chk128 v2794) := fun v2794 => decidable_of_iff' _ (Iff.of_eq (k0_chk128.eq_1 v2794))
theorem k0_off256_inb : ∀ (v2794 : BitVec 32) (k0_hw128 : k0_chk128 v2794), ∀ a, (k0_off256 v2794) a + S1x128.size a ≤ S100001x128.size a := fun v2794 k0_hw128 => k0_hw128

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S128x50 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  numel1_S1x1 : S1x1.numel = 1
  inb_S2_S1_0 : ∀ a, (![0] : Fin 1 → Nat) a + S1.size a ≤ S2.size a
  squeezes_S1_S_ : S1.Squeezes S_
  inb_S2x128_S1x128_0_0 : ∀ a, (![0, 0] : Fin 2 → Nat) a + S1x128.size a ≤ S2x128.size a
  squeezes_S1x128_S128 : S1x128.Squeezes S128
  inb_S100001x128_S1x128_0_0 : ∀ a, (![0, 0] : Fin 2 → Nat) a + S1x128.size a ≤ S100001x128.size a
  inb_S2_S1_1 : ∀ a, (![1] : Fin 1 → Nat) a + S1.size a ≤ S2.size a
  inb_S2x128_S1x128_1_0 : ∀ a, (![1, 0] : Fin 2 → Nat) a + S1x128.size a ≤ S2x128.size a
  inb_S128x128_S1x128_0_0 : ∀ a, (![0, 0] : Fin 2 → Nat) a + S1x128.size a ≤ S128x128.size a
  h_S1x128 : 0 < S1x128.numel
  shapeCasts_S1x128_S128 : S1x128.ShapeCasts S128
  shapeCasts_S128_S1x128 : S128.ShapeCasts S1x128
  inb_S128x128_S1x128_1_0 : ∀ a, (![1, 0] : Fin 2 → Nat) a + S1x128.size a ≤ S128x128.size a
  inb_S128x128_S1x128_2_0 : ∀ a, (![2, 0] : Fin 2 → Nat) a + S1x128.size a ≤ S128x128.size a
  inb_S128x128_S1x128_3_0 : ∀ a, (![3, 0] : Fin 2 → Nat) a + S1x128.size a ≤ S128x128.size a
  inb_S128x128_S1x128_4_0 : ∀ a, (![4, 0] : Fin 2 → Nat) a + S1x128.size a ≤ S128x128.size a
  inb_S128x128_S1x128_5_0 : ∀ a, (![5, 0] : Fin 2 → Nat) a + S1x128.size a ≤ S128x128.size a
  inb_S128x128_S1x128_6_0 : ∀ a, (![6, 0] : Fin 2 → Nat) a + S1x128.size a ≤ S128x128.size a
  inb_S128x128_S1x128_7_0 : ∀ a, (![7, 0] : Fin 2 → Nat) a + S1x128.size a ≤ S128x128.size a
  inb_S128x128_S1x128_8_0 : ∀ a, (![8, 0] : Fin 2 → Nat) a + S1x128.size a ≤ S128x128.size a
  inb_S128x128_S1x128_9_0 : ∀ a, (![9, 0] : Fin 2 → Nat) a + S1x128.size a ≤ S128x128.size a
  inb_S128x128_S1x128_10_0 : ∀ a, (![10, 0] : Fin 2 → Nat) a + S1x128.size a ≤ S128x128.size a
  inb_S128x128_S1x128_11_0 : ∀ a, (![11, 0] : Fin 2 → Nat) a + S1x128.size a ≤ S128x128.size a
  inb_S128x128_S1x128_12_0 : ∀ a, (![12, 0] : Fin 2 → Nat) a + S1x128.size a ≤ S128x128.size a
  inb_S128x128_S1x128_13_0 : ∀ a, (![13, 0] : Fin 2 → Nat) a + S1x128.size a ≤ S128x128.size a
  inb_S128x128_S1x128_14_0 : ∀ a, (![14, 0] : Fin 2 → Nat) a + S1x128.size a ≤ S128x128.size a
  inb_S128x128_S1x128_15_0 : ∀ a, (![15, 0] : Fin 2 → Nat) a + S1x128.size a ≤ S128x128.size a
  inb_S128x128_S1x128_16_0 : ∀ a, (![16, 0] : Fin 2 → Nat) a + S1x128.size a ≤ S128x128.size a
  inb_S128x128_S1x128_17_0 : ∀ a, (![17, 0] : Fin 2 → Nat) a + S1x128.size a ≤ S128x128.size a
  inb_S128x128_S1x128_18_0 : ∀ a, (![18, 0] : Fin 2 → Nat) a + S1x128.size a ≤ S128x128.size a
  inb_S128x128_S1x128_19_0 : ∀ a, (![19, 0] : Fin 2 → Nat) a + S1x128.size a ≤ S128x128.size a
  inb_S128x128_S1x128_20_0 : ∀ a, (![20, 0] : Fin 2 → Nat) a + S1x128.size a ≤ S128x128.size a
  inb_S128x128_S1x128_21_0 : ∀ a, (![21, 0] : Fin 2 → Nat) a + S1x128.size a ≤ S128x128.size a
  inb_S128x128_S1x128_22_0 : ∀ a, (![22, 0] : Fin 2 → Nat) a + S1x128.size a ≤ S128x128.size a
  inb_S128x128_S1x128_23_0 : ∀ a, (![23, 0] : Fin 2 → Nat) a + S1x128.size a ≤ S128x128.size a
  inb_S128x128_S1x128_24_0 : ∀ a, (![24, 0] : Fin 2 → Nat) a + S1x128.size a ≤ S128x128.size a
  inb_S128x128_S1x128_25_0 : ∀ a, (![25, 0] : Fin 2 → Nat) a + S1x128.size a ≤ S128x128.size a
  inb_S128x128_S1x128_26_0 : ∀ a, (![26, 0] : Fin 2 → Nat) a + S1x128.size a ≤ S128x128.size a
  inb_S128x128_S1x128_27_0 : ∀ a, (![27, 0] : Fin 2 → Nat) a + S1x128.size a ≤ S128x128.size a
  inb_S128x128_S1x128_28_0 : ∀ a, (![28, 0] : Fin 2 → Nat) a + S1x128.size a ≤ S128x128.size a
  inb_S128x128_S1x128_29_0 : ∀ a, (![29, 0] : Fin 2 → Nat) a + S1x128.size a ≤ S128x128.size a
  inb_S128x128_S1x128_30_0 : ∀ a, (![30, 0] : Fin 2 → Nat) a + S1x128.size a ≤ S128x128.size a
  inb_S128x128_S1x128_31_0 : ∀ a, (![31, 0] : Fin 2 → Nat) a + S1x128.size a ≤ S128x128.size a
  inb_S128x128_S1x128_32_0 : ∀ a, (![32, 0] : Fin 2 → Nat) a + S1x128.size a ≤ S128x128.size a
  inb_S128x128_S1x128_33_0 : ∀ a, (![33, 0] : Fin 2 → Nat) a + S1x128.size a ≤ S128x128.size a
  inb_S128x128_S1x128_34_0 : ∀ a, (![34, 0] : Fin 2 → Nat) a + S1x128.size a ≤ S128x128.size a
  inb_S128x128_S1x128_35_0 : ∀ a, (![35, 0] : Fin 2 → Nat) a + S1x128.size a ≤ S128x128.size a
  inb_S128x128_S1x128_36_0 : ∀ a, (![36, 0] : Fin 2 → Nat) a + S1x128.size a ≤ S128x128.size a
  inb_S128x128_S1x128_37_0 : ∀ a, (![37, 0] : Fin 2 → Nat) a + S1x128.size a ≤ S128x128.size a
  inb_S128x128_S1x128_38_0 : ∀ a, (![38, 0] : Fin 2 → Nat) a + S1x128.size a ≤ S128x128.size a
  inb_S128x128_S1x128_39_0 : ∀ a, (![39, 0] : Fin 2 → Nat) a + S1x128.size a ≤ S128x128.size a
  inb_S128x128_S1x128_40_0 : ∀ a, (![40, 0] : Fin 2 → Nat) a + S1x128.size a ≤ S128x128.size a
  inb_S128x128_S1x128_41_0 : ∀ a, (![41, 0] : Fin 2 → Nat) a + S1x128.size a ≤ S128x128.size a
  inb_S128x128_S1x128_42_0 : ∀ a, (![42, 0] : Fin 2 → Nat) a + S1x128.size a ≤ S128x128.size a
  inb_S128x128_S1x128_43_0 : ∀ a, (![43, 0] : Fin 2 → Nat) a + S1x128.size a ≤ S128x128.size a
  inb_S128x128_S1x128_44_0 : ∀ a, (![44, 0] : Fin 2 → Nat) a + S1x128.size a ≤ S128x128.size a
  inb_S128x128_S1x128_45_0 : ∀ a, (![45, 0] : Fin 2 → Nat) a + S1x128.size a ≤ S128x128.size a
  inb_S128x128_S1x128_46_0 : ∀ a, (![46, 0] : Fin 2 → Nat) a + S1x128.size a ≤ S128x128.size a
  inb_S128x128_S1x128_47_0 : ∀ a, (![47, 0] : Fin 2 → Nat) a + S1x128.size a ≤ S128x128.size a
  inb_S128x128_S1x128_48_0 : ∀ a, (![48, 0] : Fin 2 → Nat) a + S1x128.size a ≤ S128x128.size a
  inb_S128x128_S1x128_49_0 : ∀ a, (![49, 0] : Fin 2 → Nat) a + S1x128.size a ≤ S128x128.size a
  inb_S128x128_S1x128_50_0 : ∀ a, (![50, 0] : Fin 2 → Nat) a + S1x128.size a ≤ S128x128.size a
  inb_S128x128_S1x128_51_0 : ∀ a, (![51, 0] : Fin 2 → Nat) a + S1x128.size a ≤ S128x128.size a
  inb_S128x128_S1x128_52_0 : ∀ a, (![52, 0] : Fin 2 → Nat) a + S1x128.size a ≤ S128x128.size a
  inb_S128x128_S1x128_53_0 : ∀ a, (![53, 0] : Fin 2 → Nat) a + S1x128.size a ≤ S128x128.size a
  inb_S128x128_S1x128_54_0 : ∀ a, (![54, 0] : Fin 2 → Nat) a + S1x128.size a ≤ S128x128.size a
  inb_S128x128_S1x128_55_0 : ∀ a, (![55, 0] : Fin 2 → Nat) a + S1x128.size a ≤ S128x128.size a
  inb_S128x128_S1x128_56_0 : ∀ a, (![56, 0] : Fin 2 → Nat) a + S1x128.size a ≤ S128x128.size a
  inb_S128x128_S1x128_57_0 : ∀ a, (![57, 0] : Fin 2 → Nat) a + S1x128.size a ≤ S128x128.size a
  inb_S128x128_S1x128_58_0 : ∀ a, (![58, 0] : Fin 2 → Nat) a + S1x128.size a ≤ S128x128.size a
  inb_S128x128_S1x128_59_0 : ∀ a, (![59, 0] : Fin 2 → Nat) a + S1x128.size a ≤ S128x128.size a
  inb_S128x128_S1x128_60_0 : ∀ a, (![60, 0] : Fin 2 → Nat) a + S1x128.size a ≤ S128x128.size a
  inb_S128x128_S1x128_61_0 : ∀ a, (![61, 0] : Fin 2 → Nat) a + S1x128.size a ≤ S128x128.size a
  inb_S128x128_S1x128_62_0 : ∀ a, (![62, 0] : Fin 2 → Nat) a + S1x128.size a ≤ S128x128.size a
  inb_S128x128_S1x128_63_0 : ∀ a, (![63, 0] : Fin 2 → Nat) a + S1x128.size a ≤ S128x128.size a
  inb_S128x128_S1x128_64_0 : ∀ a, (![64, 0] : Fin 2 → Nat) a + S1x128.size a ≤ S128x128.size a
  inb_S128x128_S1x128_65_0 : ∀ a, (![65, 0] : Fin 2 → Nat) a + S1x128.size a ≤ S128x128.size a
  inb_S128x128_S1x128_66_0 : ∀ a, (![66, 0] : Fin 2 → Nat) a + S1x128.size a ≤ S128x128.size a
  inb_S128x128_S1x128_67_0 : ∀ a, (![67, 0] : Fin 2 → Nat) a + S1x128.size a ≤ S128x128.size a
  inb_S128x128_S1x128_68_0 : ∀ a, (![68, 0] : Fin 2 → Nat) a + S1x128.size a ≤ S128x128.size a
  inb_S128x128_S1x128_69_0 : ∀ a, (![69, 0] : Fin 2 → Nat) a + S1x128.size a ≤ S128x128.size a
  inb_S128x128_S1x128_70_0 : ∀ a, (![70, 0] : Fin 2 → Nat) a + S1x128.size a ≤ S128x128.size a
  inb_S128x128_S1x128_71_0 : ∀ a, (![71, 0] : Fin 2 → Nat) a + S1x128.size a ≤ S128x128.size a
  inb_S128x128_S1x128_72_0 : ∀ a, (![72, 0] : Fin 2 → Nat) a + S1x128.size a ≤ S128x128.size a
  inb_S128x128_S1x128_73_0 : ∀ a, (![73, 0] : Fin 2 → Nat) a + S1x128.size a ≤ S128x128.size a
  inb_S128x128_S1x128_74_0 : ∀ a, (![74, 0] : Fin 2 → Nat) a + S1x128.size a ≤ S128x128.size a
  inb_S128x128_S1x128_75_0 : ∀ a, (![75, 0] : Fin 2 → Nat) a + S1x128.size a ≤ S128x128.size a
  inb_S128x128_S1x128_76_0 : ∀ a, (![76, 0] : Fin 2 → Nat) a + S1x128.size a ≤ S128x128.size a
  inb_S128x128_S1x128_77_0 : ∀ a, (![77, 0] : Fin 2 → Nat) a + S1x128.size a ≤ S128x128.size a
  inb_S128x128_S1x128_78_0 : ∀ a, (![78, 0] : Fin 2 → Nat) a + S1x128.size a ≤ S128x128.size a
  inb_S128x128_S1x128_79_0 : ∀ a, (![79, 0] : Fin 2 → Nat) a + S1x128.size a ≤ S128x128.size a
  inb_S128x128_S1x128_80_0 : ∀ a, (![80, 0] : Fin 2 → Nat) a + S1x128.size a ≤ S128x128.size a
  inb_S128x128_S1x128_81_0 : ∀ a, (![81, 0] : Fin 2 → Nat) a + S1x128.size a ≤ S128x128.size a
  inb_S128x128_S1x128_82_0 : ∀ a, (![82, 0] : Fin 2 → Nat) a + S1x128.size a ≤ S128x128.size a
  inb_S128x128_S1x128_83_0 : ∀ a, (![83, 0] : Fin 2 → Nat) a + S1x128.size a ≤ S128x128.size a
  inb_S128x128_S1x128_84_0 : ∀ a, (![84, 0] : Fin 2 → Nat) a + S1x128.size a ≤ S128x128.size a
  inb_S128x128_S1x128_85_0 : ∀ a, (![85, 0] : Fin 2 → Nat) a + S1x128.size a ≤ S128x128.size a
  inb_S128x128_S1x128_86_0 : ∀ a, (![86, 0] : Fin 2 → Nat) a + S1x128.size a ≤ S128x128.size a
  inb_S128x128_S1x128_87_0 : ∀ a, (![87, 0] : Fin 2 → Nat) a + S1x128.size a ≤ S128x128.size a
  inb_S128x128_S1x128_88_0 : ∀ a, (![88, 0] : Fin 2 → Nat) a + S1x128.size a ≤ S128x128.size a
  inb_S128x128_S1x128_89_0 : ∀ a, (![89, 0] : Fin 2 → Nat) a + S1x128.size a ≤ S128x128.size a
  inb_S128x128_S1x128_90_0 : ∀ a, (![90, 0] : Fin 2 → Nat) a + S1x128.size a ≤ S128x128.size a
  inb_S128x128_S1x128_91_0 : ∀ a, (![91, 0] : Fin 2 → Nat) a + S1x128.size a ≤ S128x128.size a
  inb_S128x128_S1x128_92_0 : ∀ a, (![92, 0] : Fin 2 → Nat) a + S1x128.size a ≤ S128x128.size a
  inb_S128x128_S1x128_93_0 : ∀ a, (![93, 0] : Fin 2 → Nat) a + S1x128.size a ≤ S128x128.size a
  inb_S128x128_S1x128_94_0 : ∀ a, (![94, 0] : Fin 2 → Nat) a + S1x128.size a ≤ S128x128.size a
  inb_S128x128_S1x128_95_0 : ∀ a, (![95, 0] : Fin 2 → Nat) a + S1x128.size a ≤ S128x128.size a
  inb_S128x128_S1x128_96_0 : ∀ a, (![96, 0] : Fin 2 → Nat) a + S1x128.size a ≤ S128x128.size a
  inb_S128x128_S1x128_97_0 : ∀ a, (![97, 0] : Fin 2 → Nat) a + S1x128.size a ≤ S128x128.size a
  inb_S128x128_S1x128_98_0 : ∀ a, (![98, 0] : Fin 2 → Nat) a + S1x128.size a ≤ S128x128.size a
  inb_S128x128_S1x128_99_0 : ∀ a, (![99, 0] : Fin 2 → Nat) a + S1x128.size a ≤ S128x128.size a
  inb_S128x128_S1x128_100_0 : ∀ a, (![100, 0] : Fin 2 → Nat) a + S1x128.size a ≤ S128x128.size a
  inb_S128x128_S1x128_101_0 : ∀ a, (![101, 0] : Fin 2 → Nat) a + S1x128.size a ≤ S128x128.size a
  inb_S128x128_S1x128_102_0 : ∀ a, (![102, 0] : Fin 2 → Nat) a + S1x128.size a ≤ S128x128.size a
  inb_S128x128_S1x128_103_0 : ∀ a, (![103, 0] : Fin 2 → Nat) a + S1x128.size a ≤ S128x128.size a
  inb_S128x128_S1x128_104_0 : ∀ a, (![104, 0] : Fin 2 → Nat) a + S1x128.size a ≤ S128x128.size a
  inb_S128x128_S1x128_105_0 : ∀ a, (![105, 0] : Fin 2 → Nat) a + S1x128.size a ≤ S128x128.size a
  inb_S128x128_S1x128_106_0 : ∀ a, (![106, 0] : Fin 2 → Nat) a + S1x128.size a ≤ S128x128.size a
  inb_S128x128_S1x128_107_0 : ∀ a, (![107, 0] : Fin 2 → Nat) a + S1x128.size a ≤ S128x128.size a
  inb_S128x128_S1x128_108_0 : ∀ a, (![108, 0] : Fin 2 → Nat) a + S1x128.size a ≤ S128x128.size a
  inb_S128x128_S1x128_109_0 : ∀ a, (![109, 0] : Fin 2 → Nat) a + S1x128.size a ≤ S128x128.size a
  inb_S128x128_S1x128_110_0 : ∀ a, (![110, 0] : Fin 2 → Nat) a + S1x128.size a ≤ S128x128.size a
  inb_S128x128_S1x128_111_0 : ∀ a, (![111, 0] : Fin 2 → Nat) a + S1x128.size a ≤ S128x128.size a
  inb_S128x128_S1x128_112_0 : ∀ a, (![112, 0] : Fin 2 → Nat) a + S1x128.size a ≤ S128x128.size a
  inb_S128x128_S1x128_113_0 : ∀ a, (![113, 0] : Fin 2 → Nat) a + S1x128.size a ≤ S128x128.size a
  inb_S128x128_S1x128_114_0 : ∀ a, (![114, 0] : Fin 2 → Nat) a + S1x128.size a ≤ S128x128.size a
  inb_S128x128_S1x128_115_0 : ∀ a, (![115, 0] : Fin 2 → Nat) a + S1x128.size a ≤ S128x128.size a
  inb_S128x128_S1x128_116_0 : ∀ a, (![116, 0] : Fin 2 → Nat) a + S1x128.size a ≤ S128x128.size a
  inb_S128x128_S1x128_117_0 : ∀ a, (![117, 0] : Fin 2 → Nat) a + S1x128.size a ≤ S128x128.size a
  inb_S128x128_S1x128_118_0 : ∀ a, (![118, 0] : Fin 2 → Nat) a + S1x128.size a ≤ S128x128.size a
  inb_S128x128_S1x128_119_0 : ∀ a, (![119, 0] : Fin 2 → Nat) a + S1x128.size a ≤ S128x128.size a
  inb_S128x128_S1x128_120_0 : ∀ a, (![120, 0] : Fin 2 → Nat) a + S1x128.size a ≤ S128x128.size a
  inb_S128x128_S1x128_121_0 : ∀ a, (![121, 0] : Fin 2 → Nat) a + S1x128.size a ≤ S128x128.size a
  inb_S128x128_S1x128_122_0 : ∀ a, (![122, 0] : Fin 2 → Nat) a + S1x128.size a ≤ S128x128.size a
  inb_S128x128_S1x128_123_0 : ∀ a, (![123, 0] : Fin 2 → Nat) a + S1x128.size a ≤ S128x128.size a
  inb_S128x128_S1x128_124_0 : ∀ a, (![124, 0] : Fin 2 → Nat) a + S1x128.size a ≤ S128x128.size a
  inb_S128x128_S1x128_125_0 : ∀ a, (![125, 0] : Fin 2 → Nat) a + S1x128.size a ≤ S128x128.size a
  inb_S128x128_S1x128_126_0 : ∀ a, (![126, 0] : Fin 2 → Nat) a + S1x128.size a ≤ S128x128.size a
  inb_S128x128_S1x128_127_0 : ∀ a, (![127, 0] : Fin 2 → Nat) a + S1x128.size a ≤ S128x128.size a
  hcc0_scratch2 : 4 + S2.numel ≤ 6
  hrank0 : 0 < grid0.rank
  k0_t1_ok : k0_t1_loop.OK
  k0_off1_inb : ∀ k0_t1 : Fin k0_t1_loop.trips, ∀ a, (k0_off1 k0_t1) a + S1x1.size a ≤ S128x50.size a
  k0_off3_inb : ∀ k0_t1 : Fin k0_t1_loop.trips, ∀ a, (k0_off3 k0_t1) a + S1x1.size a ≤ S128x50.size a
  k0_off5_inb : ∀ k0_t1 : Fin k0_t1_loop.trips, ∀ a, (k0_off5 k0_t1) a + S1x1.size a ≤ S128x50.size a
  k0_off7_inb : ∀ k0_t1 : Fin k0_t1_loop.trips, ∀ a, (k0_off7 k0_t1) a + S1x1.size a ≤ S128x50.size a
  k0_off9_inb : ∀ k0_t1 : Fin k0_t1_loop.trips, ∀ a, (k0_off9 k0_t1) a + S1x1.size a ≤ S128x50.size a
  k0_off11_inb : ∀ k0_t1 : Fin k0_t1_loop.trips, ∀ a, (k0_off11 k0_t1) a + S1x1.size a ≤ S128x50.size a
  k0_off13_inb : ∀ k0_t1 : Fin k0_t1_loop.trips, ∀ a, (k0_off13 k0_t1) a + S1x1.size a ≤ S128x50.size a
  k0_off15_inb : ∀ k0_t1 : Fin k0_t1_loop.trips, ∀ a, (k0_off15 k0_t1) a + S1x1.size a ≤ S128x50.size a
  k0_off17_inb : ∀ k0_t1 : Fin k0_t1_loop.trips, ∀ a, (k0_off17 k0_t1) a + S1x1.size a ≤ S128x50.size a
  k0_off19_inb : ∀ k0_t1 : Fin k0_t1_loop.trips, ∀ a, (k0_off19 k0_t1) a + S1x1.size a ≤ S128x50.size a
  k0_off21_inb : ∀ k0_t1 : Fin k0_t1_loop.trips, ∀ a, (k0_off21 k0_t1) a + S1x1.size a ≤ S128x50.size a
  k0_off23_inb : ∀ k0_t1 : Fin k0_t1_loop.trips, ∀ a, (k0_off23 k0_t1) a + S1x1.size a ≤ S128x50.size a
  k0_off25_inb : ∀ k0_t1 : Fin k0_t1_loop.trips, ∀ a, (k0_off25 k0_t1) a + S1x1.size a ≤ S128x50.size a
  k0_off27_inb : ∀ k0_t1 : Fin k0_t1_loop.trips, ∀ a, (k0_off27 k0_t1) a + S1x1.size a ≤ S128x50.size a
  k0_off29_inb : ∀ k0_t1 : Fin k0_t1_loop.trips, ∀ a, (k0_off29 k0_t1) a + S1x1.size a ≤ S128x50.size a
  k0_off31_inb : ∀ k0_t1 : Fin k0_t1_loop.trips, ∀ a, (k0_off31 k0_t1) a + S1x1.size a ≤ S128x50.size a
  k0_off33_inb : ∀ k0_t1 : Fin k0_t1_loop.trips, ∀ a, (k0_off33 k0_t1) a + S1x1.size a ≤ S128x50.size a
  k0_off35_inb : ∀ k0_t1 : Fin k0_t1_loop.trips, ∀ a, (k0_off35 k0_t1) a + S1x1.size a ≤ S128x50.size a
  k0_off37_inb : ∀ k0_t1 : Fin k0_t1_loop.trips, ∀ a, (k0_off37 k0_t1) a + S1x1.size a ≤ S128x50.size a
  k0_off39_inb : ∀ k0_t1 : Fin k0_t1_loop.trips, ∀ a, (k0_off39 k0_t1) a + S1x1.size a ≤ S128x50.size a
  k0_off41_inb : ∀ k0_t1 : Fin k0_t1_loop.trips, ∀ a, (k0_off41 k0_t1) a + S1x1.size a ≤ S128x50.size a
  k0_off43_inb : ∀ k0_t1 : Fin k0_t1_loop.trips, ∀ a, (k0_off43 k0_t1) a + S1x1.size a ≤ S128x50.size a
  k0_off45_inb : ∀ k0_t1 : Fin k0_t1_loop.trips, ∀ a, (k0_off45 k0_t1) a + S1x1.size a ≤ S128x50.size a
  k0_off47_inb : ∀ k0_t1 : Fin k0_t1_loop.trips, ∀ a, (k0_off47 k0_t1) a + S1x1.size a ≤ S128x50.size a
  k0_off49_inb : ∀ k0_t1 : Fin k0_t1_loop.trips, ∀ a, (k0_off49 k0_t1) a + S1x1.size a ≤ S128x50.size a
  k0_off51_inb : ∀ k0_t1 : Fin k0_t1_loop.trips, ∀ a, (k0_off51 k0_t1) a + S1x1.size a ≤ S128x50.size a
  k0_off53_inb : ∀ k0_t1 : Fin k0_t1_loop.trips, ∀ a, (k0_off53 k0_t1) a + S1x1.size a ≤ S128x50.size a
  k0_off55_inb : ∀ k0_t1 : Fin k0_t1_loop.trips, ∀ a, (k0_off55 k0_t1) a + S1x1.size a ≤ S128x50.size a
  k0_off57_inb : ∀ k0_t1 : Fin k0_t1_loop.trips, ∀ a, (k0_off57 k0_t1) a + S1x1.size a ≤ S128x50.size a
  k0_off59_inb : ∀ k0_t1 : Fin k0_t1_loop.trips, ∀ a, (k0_off59 k0_t1) a + S1x1.size a ≤ S128x50.size a
  k0_off61_inb : ∀ k0_t1 : Fin k0_t1_loop.trips, ∀ a, (k0_off61 k0_t1) a + S1x1.size a ≤ S128x50.size a
  k0_off63_inb : ∀ k0_t1 : Fin k0_t1_loop.trips, ∀ a, (k0_off63 k0_t1) a + S1x1.size a ≤ S128x50.size a
  k0_off65_inb : ∀ k0_t1 : Fin k0_t1_loop.trips, ∀ a, (k0_off65 k0_t1) a + S1x1.size a ≤ S128x50.size a
  k0_off67_inb : ∀ k0_t1 : Fin k0_t1_loop.trips, ∀ a, (k0_off67 k0_t1) a + S1x1.size a ≤ S128x50.size a
  k0_off69_inb : ∀ k0_t1 : Fin k0_t1_loop.trips, ∀ a, (k0_off69 k0_t1) a + S1x1.size a ≤ S128x50.size a
  k0_off71_inb : ∀ k0_t1 : Fin k0_t1_loop.trips, ∀ a, (k0_off71 k0_t1) a + S1x1.size a ≤ S128x50.size a
  k0_off73_inb : ∀ k0_t1 : Fin k0_t1_loop.trips, ∀ a, (k0_off73 k0_t1) a + S1x1.size a ≤ S128x50.size a
  k0_off75_inb : ∀ k0_t1 : Fin k0_t1_loop.trips, ∀ a, (k0_off75 k0_t1) a + S1x1.size a ≤ S128x50.size a
  k0_off77_inb : ∀ k0_t1 : Fin k0_t1_loop.trips, ∀ a, (k0_off77 k0_t1) a + S1x1.size a ≤ S128x50.size a
  k0_off79_inb : ∀ k0_t1 : Fin k0_t1_loop.trips, ∀ a, (k0_off79 k0_t1) a + S1x1.size a ≤ S128x50.size a
  k0_off81_inb : ∀ k0_t1 : Fin k0_t1_loop.trips, ∀ a, (k0_off81 k0_t1) a + S1x1.size a ≤ S128x50.size a
  k0_off83_inb : ∀ k0_t1 : Fin k0_t1_loop.trips, ∀ a, (k0_off83 k0_t1) a + S1x1.size a ≤ S128x50.size a
  k0_off85_inb : ∀ k0_t1 : Fin k0_t1_loop.trips, ∀ a, (k0_off85 k0_t1) a + S1x1.size a ≤ S128x50.size a
  k0_off87_inb : ∀ k0_t1 : Fin k0_t1_loop.trips, ∀ a, (k0_off87 k0_t1) a + S1x1.size a ≤ S128x50.size a
  k0_off89_inb : ∀ k0_t1 : Fin k0_t1_loop.trips, ∀ a, (k0_off89 k0_t1) a + S1x1.size a ≤ S128x50.size a
  k0_off91_inb : ∀ k0_t1 : Fin k0_t1_loop.trips, ∀ a, (k0_off91 k0_t1) a + S1x1.size a ≤ S128x50.size a
  k0_off93_inb : ∀ k0_t1 : Fin k0_t1_loop.trips, ∀ a, (k0_off93 k0_t1) a + S1x1.size a ≤ S128x50.size a
  k0_off95_inb : ∀ k0_t1 : Fin k0_t1_loop.trips, ∀ a, (k0_off95 k0_t1) a + S1x1.size a ≤ S128x50.size a
  k0_off97_inb : ∀ k0_t1 : Fin k0_t1_loop.trips, ∀ a, (k0_off97 k0_t1) a + S1x1.size a ≤ S128x50.size a
  k0_off99_inb : ∀ k0_t1 : Fin k0_t1_loop.trips, ∀ a, (k0_off99 k0_t1) a + S1x1.size a ≤ S128x50.size a
  k0_off101_inb : ∀ k0_t1 : Fin k0_t1_loop.trips, ∀ a, (k0_off101 k0_t1) a + S1x1.size a ≤ S128x50.size a
  k0_off103_inb : ∀ k0_t1 : Fin k0_t1_loop.trips, ∀ a, (k0_off103 k0_t1) a + S1x1.size a ≤ S128x50.size a
  k0_off105_inb : ∀ k0_t1 : Fin k0_t1_loop.trips, ∀ a, (k0_off105 k0_t1) a + S1x1.size a ≤ S128x50.size a
  k0_off107_inb : ∀ k0_t1 : Fin k0_t1_loop.trips, ∀ a, (k0_off107 k0_t1) a + S1x1.size a ≤ S128x50.size a
  k0_off109_inb : ∀ k0_t1 : Fin k0_t1_loop.trips, ∀ a, (k0_off109 k0_t1) a + S1x1.size a ≤ S128x50.size a
  k0_off111_inb : ∀ k0_t1 : Fin k0_t1_loop.trips, ∀ a, (k0_off111 k0_t1) a + S1x1.size a ≤ S128x50.size a
  k0_off113_inb : ∀ k0_t1 : Fin k0_t1_loop.trips, ∀ a, (k0_off113 k0_t1) a + S1x1.size a ≤ S128x50.size a
  k0_off115_inb : ∀ k0_t1 : Fin k0_t1_loop.trips, ∀ a, (k0_off115 k0_t1) a + S1x1.size a ≤ S128x50.size a
  k0_off117_inb : ∀ k0_t1 : Fin k0_t1_loop.trips, ∀ a, (k0_off117 k0_t1) a + S1x1.size a ≤ S128x50.size a
  k0_off119_inb : ∀ k0_t1 : Fin k0_t1_loop.trips, ∀ a, (k0_off119 k0_t1) a + S1x1.size a ≤ S128x50.size a
  k0_off121_inb : ∀ k0_t1 : Fin k0_t1_loop.trips, ∀ a, (k0_off121 k0_t1) a + S1x1.size a ≤ S128x50.size a
  k0_off123_inb : ∀ k0_t1 : Fin k0_t1_loop.trips, ∀ a, (k0_off123 k0_t1) a + S1x1.size a ≤ S128x50.size a
  k0_off125_inb : ∀ k0_t1 : Fin k0_t1_loop.trips, ∀ a, (k0_off125 k0_t1) a + S1x1.size a ≤ S128x50.size a
  k0_off127_inb : ∀ k0_t1 : Fin k0_t1_loop.trips, ∀ a, (k0_off127 k0_t1) a + S1x1.size a ≤ S128x50.size a
  k0_off129_inb : ∀ k0_t1 : Fin k0_t1_loop.trips, ∀ a, (k0_off129 k0_t1) a + S1x1.size a ≤ S128x50.size a
  k0_off131_inb : ∀ k0_t1 : Fin k0_t1_loop.trips, ∀ a, (k0_off131 k0_t1) a + S1x1.size a ≤ S128x50.size a
  k0_off133_inb : ∀ k0_t1 : Fin k0_t1_loop.trips, ∀ a, (k0_off133 k0_t1) a + S1x1.size a ≤ S128x50.size a
  k0_off135_inb : ∀ k0_t1 : Fin k0_t1_loop.trips, ∀ a, (k0_off135 k0_t1) a + S1x1.size a ≤ S128x50.size a
  k0_off137_inb : ∀ k0_t1 : Fin k0_t1_loop.trips, ∀ a, (k0_off137 k0_t1) a + S1x1.size a ≤ S128x50.size a
  k0_off139_inb : ∀ k0_t1 : Fin k0_t1_loop.trips, ∀ a, (k0_off139 k0_t1) a + S1x1.size a ≤ S128x50.size a
  k0_off141_inb : ∀ k0_t1 : Fin k0_t1_loop.trips, ∀ a, (k0_off141 k0_t1) a + S1x1.size a ≤ S128x50.size a
  k0_off143_inb : ∀ k0_t1 : Fin k0_t1_loop.trips, ∀ a, (k0_off143 k0_t1) a + S1x1.size a ≤ S128x50.size a
  k0_off145_inb : ∀ k0_t1 : Fin k0_t1_loop.trips, ∀ a, (k0_off145 k0_t1) a + S1x1.size a ≤ S128x50.size a
  k0_off147_inb : ∀ k0_t1 : Fin k0_t1_loop.trips, ∀ a, (k0_off147 k0_t1) a + S1x1.size a ≤ S128x50.size a
  k0_off149_inb : ∀ k0_t1 : Fin k0_t1_loop.trips, ∀ a, (k0_off149 k0_t1) a + S1x1.size a ≤ S128x50.size a
  k0_off151_inb : ∀ k0_t1 : Fin k0_t1_loop.trips, ∀ a, (k0_off151 k0_t1) a + S1x1.size a ≤ S128x50.size a
  k0_off153_inb : ∀ k0_t1 : Fin k0_t1_loop.trips, ∀ a, (k0_off153 k0_t1) a + S1x1.size a ≤ S128x50.size a
  k0_off155_inb : ∀ k0_t1 : Fin k0_t1_loop.trips, ∀ a, (k0_off155 k0_t1) a + S1x1.size a ≤ S128x50.size a
  k0_off157_inb : ∀ k0_t1 : Fin k0_t1_loop.trips, ∀ a, (k0_off157 k0_t1) a + S1x1.size a ≤ S128x50.size a
  k0_off159_inb : ∀ k0_t1 : Fin k0_t1_loop.trips, ∀ a, (k0_off159 k0_t1) a + S1x1.size a ≤ S128x50.size a
  k0_off161_inb : ∀ k0_t1 : Fin k0_t1_loop.trips, ∀ a, (k0_off161 k0_t1) a + S1x1.size a ≤ S128x50.size a
  k0_off163_inb : ∀ k0_t1 : Fin k0_t1_loop.trips, ∀ a, (k0_off163 k0_t1) a + S1x1.size a ≤ S128x50.size a
  k0_off165_inb : ∀ k0_t1 : Fin k0_t1_loop.trips, ∀ a, (k0_off165 k0_t1) a + S1x1.size a ≤ S128x50.size a
  k0_off167_inb : ∀ k0_t1 : Fin k0_t1_loop.trips, ∀ a, (k0_off167 k0_t1) a + S1x1.size a ≤ S128x50.size a
  k0_off169_inb : ∀ k0_t1 : Fin k0_t1_loop.trips, ∀ a, (k0_off169 k0_t1) a + S1x1.size a ≤ S128x50.size a
  k0_off171_inb : ∀ k0_t1 : Fin k0_t1_loop.trips, ∀ a, (k0_off171 k0_t1) a + S1x1.size a ≤ S128x50.size a
  k0_off173_inb : ∀ k0_t1 : Fin k0_t1_loop.trips, ∀ a, (k0_off173 k0_t1) a + S1x1.size a ≤ S128x50.size a
  k0_off175_inb : ∀ k0_t1 : Fin k0_t1_loop.trips, ∀ a, (k0_off175 k0_t1) a + S1x1.size a ≤ S128x50.size a
  k0_off177_inb : ∀ k0_t1 : Fin k0_t1_loop.trips, ∀ a, (k0_off177 k0_t1) a + S1x1.size a ≤ S128x50.size a
  k0_off179_inb : ∀ k0_t1 : Fin k0_t1_loop.trips, ∀ a, (k0_off179 k0_t1) a + S1x1.size a ≤ S128x50.size a
  k0_off181_inb : ∀ k0_t1 : Fin k0_t1_loop.trips, ∀ a, (k0_off181 k0_t1) a + S1x1.size a ≤ S128x50.size a
  k0_off183_inb : ∀ k0_t1 : Fin k0_t1_loop.trips, ∀ a, (k0_off183 k0_t1) a + S1x1.size a ≤ S128x50.size a
  k0_off185_inb : ∀ k0_t1 : Fin k0_t1_loop.trips, ∀ a, (k0_off185 k0_t1) a + S1x1.size a ≤ S128x50.size a
  k0_off187_inb : ∀ k0_t1 : Fin k0_t1_loop.trips, ∀ a, (k0_off187 k0_t1) a + S1x1.size a ≤ S128x50.size a
  k0_off189_inb : ∀ k0_t1 : Fin k0_t1_loop.trips, ∀ a, (k0_off189 k0_t1) a + S1x1.size a ≤ S128x50.size a
  k0_off191_inb : ∀ k0_t1 : Fin k0_t1_loop.trips, ∀ a, (k0_off191 k0_t1) a + S1x1.size a ≤ S128x50.size a
  k0_off193_inb : ∀ k0_t1 : Fin k0_t1_loop.trips, ∀ a, (k0_off193 k0_t1) a + S1x1.size a ≤ S128x50.size a
  k0_off195_inb : ∀ k0_t1 : Fin k0_t1_loop.trips, ∀ a, (k0_off195 k0_t1) a + S1x1.size a ≤ S128x50.size a
  k0_off197_inb : ∀ k0_t1 : Fin k0_t1_loop.trips, ∀ a, (k0_off197 k0_t1) a + S1x1.size a ≤ S128x50.size a
  k0_off199_inb : ∀ k0_t1 : Fin k0_t1_loop.trips, ∀ a, (k0_off199 k0_t1) a + S1x1.size a ≤ S128x50.size a
  k0_off201_inb : ∀ k0_t1 : Fin k0_t1_loop.trips, ∀ a, (k0_off201 k0_t1) a + S1x1.size a ≤ S128x50.size a
  k0_off203_inb : ∀ k0_t1 : Fin k0_t1_loop.trips, ∀ a, (k0_off203 k0_t1) a + S1x1.size a ≤ S128x50.size a
  k0_off205_inb : ∀ k0_t1 : Fin k0_t1_loop.trips, ∀ a, (k0_off205 k0_t1) a + S1x1.size a ≤ S128x50.size a
  k0_off207_inb : ∀ k0_t1 : Fin k0_t1_loop.trips, ∀ a, (k0_off207 k0_t1) a + S1x1.size a ≤ S128x50.size a
  k0_off209_inb : ∀ k0_t1 : Fin k0_t1_loop.trips, ∀ a, (k0_off209 k0_t1) a + S1x1.size a ≤ S128x50.size a
  k0_off211_inb : ∀ k0_t1 : Fin k0_t1_loop.trips, ∀ a, (k0_off211 k0_t1) a + S1x1.size a ≤ S128x50.size a
  k0_off213_inb : ∀ k0_t1 : Fin k0_t1_loop.trips, ∀ a, (k0_off213 k0_t1) a + S1x1.size a ≤ S128x50.size a
  k0_off215_inb : ∀ k0_t1 : Fin k0_t1_loop.trips, ∀ a, (k0_off215 k0_t1) a + S1x1.size a ≤ S128x50.size a
  k0_off217_inb : ∀ k0_t1 : Fin k0_t1_loop.trips, ∀ a, (k0_off217 k0_t1) a + S1x1.size a ≤ S128x50.size a
  k0_off219_inb : ∀ k0_t1 : Fin k0_t1_loop.trips, ∀ a, (k0_off219 k0_t1) a + S1x1.size a ≤ S128x50.size a
  k0_off221_inb : ∀ k0_t1 : Fin k0_t1_loop.trips, ∀ a, (k0_off221 k0_t1) a + S1x1.size a ≤ S128x50.size a
  k0_off223_inb : ∀ k0_t1 : Fin k0_t1_loop.trips, ∀ a, (k0_off223 k0_t1) a + S1x1.size a ≤ S128x50.size a
  k0_off225_inb : ∀ k0_t1 : Fin k0_t1_loop.trips, ∀ a, (k0_off225 k0_t1) a + S1x1.size a ≤ S128x50.size a
  k0_off227_inb : ∀ k0_t1 : Fin k0_t1_loop.trips, ∀ a, (k0_off227 k0_t1) a + S1x1.size a ≤ S128x50.size a
  k0_off229_inb : ∀ k0_t1 : Fin k0_t1_loop.trips, ∀ a, (k0_off229 k0_t1) a + S1x1.size a ≤ S128x50.size a
  k0_off231_inb : ∀ k0_t1 : Fin k0_t1_loop.trips, ∀ a, (k0_off231 k0_t1) a + S1x1.size a ≤ S128x50.size a
  k0_off233_inb : ∀ k0_t1 : Fin k0_t1_loop.trips, ∀ a, (k0_off233 k0_t1) a + S1x1.size a ≤ S128x50.size a
  k0_off235_inb : ∀ k0_t1 : Fin k0_t1_loop.trips, ∀ a, (k0_off235 k0_t1) a + S1x1.size a ≤ S128x50.size a
  k0_off237_inb : ∀ k0_t1 : Fin k0_t1_loop.trips, ∀ a, (k0_off237 k0_t1) a + S1x1.size a ≤ S128x50.size a
  k0_off239_inb : ∀ k0_t1 : Fin k0_t1_loop.trips, ∀ a, (k0_off239 k0_t1) a + S1x1.size a ≤ S128x50.size a
  k0_off241_inb : ∀ k0_t1 : Fin k0_t1_loop.trips, ∀ a, (k0_off241 k0_t1) a + S1x1.size a ≤ S128x50.size a
  k0_off243_inb : ∀ k0_t1 : Fin k0_t1_loop.trips, ∀ a, (k0_off243 k0_t1) a + S1x1.size a ≤ S128x50.size a
  k0_off245_inb : ∀ k0_t1 : Fin k0_t1_loop.trips, ∀ a, (k0_off245 k0_t1) a + S1x1.size a ≤ S128x50.size a
  k0_off247_inb : ∀ k0_t1 : Fin k0_t1_loop.trips, ∀ a, (k0_off247 k0_t1) a + S1x1.size a ≤ S128x50.size a
  k0_off249_inb : ∀ k0_t1 : Fin k0_t1_loop.trips, ∀ a, (k0_off249 k0_t1) a + S1x1.size a ≤ S128x50.size a
  k0_off251_inb : ∀ k0_t1 : Fin k0_t1_loop.trips, ∀ a, (k0_off251 k0_t1) a + S1x1.size a ≤ S128x50.size a
  k0_off253_inb : ∀ k0_t1 : Fin k0_t1_loop.trips, ∀ a, (k0_off253 k0_t1) a + S1x1.size a ≤ S128x50.size a
  k0_off255_inb : ∀ k0_t1 : Fin k0_t1_loop.trips, ∀ a, (k0_off255 k0_t1) a + S1x1.size a ≤ S128x50.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x50.size a ≤ S16384x50.size a
  hwx0_0 : ∀ i : grid0.Coords, EltTy.bits .i32 = 32 ∨ (Rect.block (s := S16384x50) S128x50.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S128x128.size a ≤ S16384x128.size a
  hwx0_1 : ∀ i : grid0.Coords, EltTy.bits .f32 = 32 ∨ (Rect.block (s := S16384x128) S128x128.size (cc0_transform_2 i) (hinb0_1 i)).WholeWords (EltTy.packing .f32)

variable [Facts₀]

abbrev cc0_scratch2 : DmaSems sig S2 := SemArray.consecutive 4 S2 hcc0_scratch2

abbrev win0_0 : Pipeline.Window sig grid0 :=
  Pipeline.Window.ofSpec (Memref.whole main_arg0) S128x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_2 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x50 : Shape := ⟨2, ![16384, 50]⟩
abbrev S100001x128 : Shape := ⟨2, ![100001, 128]⟩
abbrev S_ : Shape := ⟨0, ![]⟩
abbrev S16384x50x1 : Shape := ⟨3, ![16384, 50, 1]⟩
abbrev S16384x50x128 : Shape := ⟨3, ![16384, 50, 128]⟩
abbrev S16384x128 : Shape := ⟨2, ![16384, 128]⟩

abbrev nBuf : Space → Nat
  | .hbm => 13
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S100001x128, .f32⟩
  | .hbm, ⟨2, _⟩ => ⟨S_, .i32⟩
  | .hbm, ⟨3, _⟩ => ⟨S16384x50, .i32⟩
  | .hbm, ⟨4, _⟩ => ⟨S16384x50, .i1⟩
  | .hbm, ⟨5, _⟩ => ⟨S_, .i32⟩
  | .hbm, ⟨6, _⟩ => ⟨S16384x50, .i32⟩
  | .hbm, ⟨7, _⟩ => ⟨S16384x50, .i32⟩
  | .hbm, ⟨8, _⟩ => ⟨S16384x50, .i32⟩
  | .hbm, ⟨9, _⟩ => ⟨S16384x50x1, .i32⟩
  | .hbm, ⟨10, _⟩ => ⟨S16384x50x128, .f32⟩
  | .hbm, ⟨11, _⟩ => ⟨S_, .f32⟩
  | .hbm, ⟨12, _⟩ => ⟨S16384x128, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  reducesTo_S16384x50x128_S16384x128_d1 : S16384x50x128.ReducesTo [1] S16384x128
  h_S_ : 0 < S_.numel
  gather_S100001x128_S16384x50x1_S16384x50x128_2_0_n_n_0_2_1128_wf : GatherDims.WF S100001x128 S16384x50x1 S16384x50x128 [2] [0] [] [0] [] 2 ![1, 128]

variable [Facts₀]

def gather_S100001x128_S16384x50x1_S16384x50x128_2_0_n_n_0_2_1128 : GatherDims S100001x128 S16384x50x1 S16384x50x128 where
  offsetDims := [2]
  collapsedSliceDims := [0]
  operandBatchingDims := []
  startIndicesBatchingDims := []
  startIndexMap := [0]
  indexVectorDim := 2
  sliceSizes := ![1, 128]
  wf := gather_S100001x128_S16384x50x1_S16384x50x128_2_0_n_n_0_2_1128_wf

class Facts : Prop extends Facts₀ where

variable [Facts]
-- ==== Proof.PreFacts.lean ====
/-
  The precondition read back at one index word. The printed predicate is the conjunction of three
  all-reductions; it is the one word 1 exactly when every conjunct is. The second conjunct says every index
  word is at least 0 read signed, the third that every index word is below 100001 read signed. A word in
  [0, 100001) signed has the same value read unsigned.
-/
import proofs.«400025_j42666205119354_2_alg».proof.Pre_finite_inputs
import proofs.«400025_j42666205119354_2_alg».proof.Proof.Gen.Pre_finite_inputs
import Idealize.ShloMosaic.Lib.StableHlo.Predicate
import Idealize.ShloMosaic.Lib.ReduceAll

noncomputable section

namespace Cert.PreFacts

open Idealize.ShloMosaic

/-- The scalar shape has one index. -/
instance : Subsingleton Cert.Pre_finite_inputs.S_.Idx := ⟨fun a b => funext fun d => d.elim0⟩

/-- A compare "at least the zero word, signed" that came out 1 says the signed value is non-negative. -/
theorem sge_zero (w : BitVec 32) (h : IntOp.cmpi .sge w 0#32 = 1#1) : 0 ≤ w.toInt := by
  unfold IntOp.cmpi at h
  rw [StableHlo.Predicate.ofBool_eq_one_iff] at h
  simpa [BitVec.sle] using h

/-- A compare "below the word 100001, signed" that came out 1 says the signed value is below 100001. -/
theorem slt_bound (w : BitVec 32) (h : IntOp.cmpi .slt w 100001#32 = 1#1) : w.toInt < 100001 := by
  unfold IntOp.cmpi at h
  rw [StableHlo.Predicate.ofBool_eq_one_iff] at h
  have e : (100001#32 : BitVec 32).toInt = 100001 := by decide
  simpa [BitVec.slt, e] using h

/-- Every index word lies in [0, 100001), read signed. -/
theorem idx_range {F : FTy → Type} [FloatOps F] (a0 : IVec Cert.Pre_finite_inputs.S16384x50 32)
    (a1 : FVec F Cert.Pre_finite_inputs.S100001x128 .f32)
    (h : Cert.Pre_finite_inputs.fn (F := F) a0 a1 = fun _ => 1#1) : ∀ y, 0 ≤ (a0 y).toInt ∧ (a0 y).toInt < 100001 := by
  intro y
  have e := congrFun h (fun a => a.elim0)
  dsimp only [Cert.Pre_finite_inputs.fn] at e
  obtain ⟨e7, e10⟩ := IntOp.andi_eq_one.1 e
  obtain ⟨-, e6⟩ := IntOp.andi_eq_one.1 e7
  have g0 := Host.reduce_andi_all _ _ _ _ _ e6 y
  have g1 := Host.reduce_andi_all _ _ _ _ _ e10 y
  exact ⟨sge_zero _ g0, slt_bound _ g1⟩

/-- Every index word is below 100001, read unsigned. -/
theorem idx_lt {F : FTy → Type} [FloatOps F] (a0 : IVec Cert.Pre_finite_inputs.S16384x50 32)
    (a1 : FVec F Cert.Pre_finite_inputs.S100001x128 .f32)
    (h : Cert.Pre_finite_inputs.fn (F := F) a0 a1 = fun _ => 1#1) : ∀ y, (a0 y).toNat < 100001 := by
  intro y
  obtain ⟨h0, h1⟩ := idx_range a0 a1 h y
  have hlt := (a0 y).isLt
  rw [BitVec.toInt_eq_toNat_cond] at h0 h1
  split at h0 <;> omega

end Cert.PreFacts

end
-- ==== Proof.Spec.lean ====
/-
  What both programs compute, as one function of the two argument arrays: a bag sum.
  Entry (r, d) of the result is the zero word plus the sum, over the 50 positions l of bag r, of lane d
  of the table row that the index word at (r, l) names. Sums are taken in the extended reals, where
  addition is commutative and associative, so the order in which a program adds the 50 rows does not matter.
-/
import Idealize.ShloMosaic.PureOps.Ideal
import Idealize.ShloMosaic.Lib.ValueIdx

noncomputable section

open scoped BigOperators

namespace Cert.Spec

open Idealize.ShloMosaic Idealize.ShloMosaic.ValueIdx

/-- The index array: 16384 bags of 50 words. -/
abbrev SIdx : Shape := ⟨2, ![16384, 50]⟩
/-- The table: 100001 rows of 128 lanes. -/
abbrev STab : Shape := ⟨2, ![100001, 128]⟩
/-- The result: one row of 128 lanes per bag. -/
abbrev SOut : Shape := ⟨2, ![16384, 128]⟩

/-- The table row a word names. A word whose unsigned value is below 100001 names that row; the remainder
    only makes the function total. -/
def rowOf (v : BitVec 32) : Fin 100001 := ⟨v.toNat % 100001, Nat.mod_lt _ (by decide)⟩

theorem rowOf_val_of_lt (v : BitVec 32) (h : v.toNat < 100001) : (rowOf v).val = v.toNat := Nat.mod_eq_of_lt h

/-- The bag sum. -/
def G (inp : IVec SIdx 32) (w : FVec Ideal STab .f32) : FVec Ideal SOut .f32 :=
  fun j => Ideal.ofBits .f32 0x00000000#32 + ∑ l : Fin 50, w (ix2 (rowOf (inp (ix2 (j 0) l))) (j 1))

end Cert.Spec

end
-- ==== Proof.RefValue.lean ====
/-
  The reference's result read at an index: the bag sum of the gathered table rows.
-/
import proofs.«400025_j42666205119354_2_alg».proof.Proof.Gen.ReferenceIdeal.Run
import proofs.«400025_j42666205119354_2_alg».proof.Proof.Gen.ReferenceIdeal.Read
import proofs.«400025_j42666205119354_2_alg».proof.Proof.Spec
import Idealize.ShloMosaic.Lib.ValueIdx
import Idealize.ShloMosaic.Lib.StableHlo.Predicate

noncomputable section

open scoped BigOperators

namespace Cert.RefValue

open Idealize.ShloMosaic Idealize.ShloMosaic.ValueIdx Cert.ReferenceIdeal Cert.ReferenceIdeal.Gen Cert.ReferenceIdeal.Read

/-- The gather read at (r, l, d): lane d of the table row named by the start index at (r, l, 0), read signed and
    clamped into [0, 100000]. The row axis is the collapsed, start-indexed axis; the lane axis is the one offset axis. -/
theorem gather_row {α : Type} (x : S100001x128.Idx → α) (idx : IVec S16384x50x1 32) (j : S16384x50x128.Idx) :
    Host.gather gather_S100001x128_S16384x50x1_S16384x50x128_2_0_n_n_0_2_1128 x idx j
      = x (ix2 (⟨min (idx (ix3 (j 0) (j 1) (0 : Fin 1))).toInt.toNat 100000, by omega⟩ : Fin 100001) (j 2)) := by
  unfold Host.gather
  congr 1
  funext a
  refine Fin.ext ?_
  match a with
  | ⟨0, _⟩ =>
    show GatherDims.start _ j idx 0 + GatherDims.batchCoord _ j 0 + GatherDims.offCoord _ j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100001x128_S16384x50x1_S16384x50x128_2_0_n_n_0_2_1128.startIndexMap from List.mem_singleton.mpr rfl)]
    have hsi : gather_S100001x128_S16384x50x1_S16384x50x128_2_0_n_n_0_2_1128.siIdx j
        ⟨List.idxOf (0 : Fin 2) gather_S100001x128_S16384x50x1_S16384x50x128_2_0_n_n_0_2_1128.startIndexMap,
          List.idxOf_lt_length_iff.2 (List.mem_singleton.mpr rfl)⟩ = ix3 (j 0) (j 1) (0 : Fin 1) := by
      funext b; refine Fin.ext ?_
      match b with
      | ⟨0, _⟩ => rfl
      | ⟨1, _⟩ => rfl
      | ⟨2, _⟩ => rfl
    rw [hsi]
    rfl
  | ⟨1, _⟩ =>
    show GatherDims.start _ j idx 1 + GatherDims.batchCoord _ j 1 + GatherDims.offCoord _ j 1 = _
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl

/-- A word that is non-negative read signed is not below the zero word, signed. -/
theorem slt_zero_of_nonneg (w : BitVec 32) (h : 0 ≤ w.toInt) : IntOp.cmpi .slt w 0#32 = 0#1 := by
  have hz : (0#32 : BitVec 32).toInt = 0 := by decide
  have hb : w.slt 0#32 = false := by
    simp only [BitVec.slt, hz, decide_eq_false_iff_not]
    omega
  show BitVec.ofBool (w.slt 0#32) = 0#1
  rw [hb]; rfl

/-- A word in [0, 100001) read signed has the same value read unsigned. -/
theorem toNat_lt_of_range (w : BitVec 32) (h : 0 ≤ w.toInt ∧ w.toInt < 100001) : w.toNat < 100001 := by
  obtain ⟨h0, h1⟩ := h
  have hlt := w.isLt
  rw [BitVec.toInt_eq_toNat_cond] at h0 h1
  split at h0 <;> omega

/-- For a word in [0, 100001) read signed, the clamp of its signed value into [0, 100000] is the table row the
    word names. -/
theorem clamp_word (w : BitVec 32) (h : 0 ≤ w.toInt ∧ w.toInt < 100001) :
    min w.toInt.toNat 100000 = (Cert.Spec.rowOf w).val := by
  have hlt := toNat_lt_of_range w h
  rw [Cert.Spec.rowOf_val_of_lt w hlt, StableHlo.Predicate.toInt_eq_toNat_of_lt (by omega), Int.toNat_natCast]
  omega

/-- Under the range hypothesis the start-index word the gather reads at (r, l, 0) is the argument's word at (r, l):
    the word is not negative, so the select keeps it. -/
theorem idx_word (x0 : IVec S16384x50 32) (hx : ∀ y, 0 ≤ (x0 y).toInt ∧ (x0 y).toInt < 100001) (i : S16384x50x1.Idx) :
    val_main_v5 (F := Ideal) x0 i = x0 (idx_main_v5 i) := by
  rw [val_main_v5_apply, val_main_v4_apply, val_main_v1_apply, val_main_v0_apply, val_main_c_apply,
    slt_zero_of_nonneg _ (hx _).1, select_zero]

/-- The reference's result is the bag sum. -/
theorem ref_eq (x0 : IVec Cert.ReferenceIdeal.S16384x50 32) (x1 : FVec Ideal Cert.ReferenceIdeal.S100001x128 .f32)
    (hx : ∀ y, 0 ≤ (x0 y).toInt ∧ (x0 y).toInt < 100001) :
    Cert.ReferenceIdeal.Read.val_main_v7 (F := Ideal) x0 x1 = Cert.Spec.G x0 x1 := by
  funext j
  rw [val_main_v7_apply]
  show Ideal.ofBits .f32 0x00000000#32 + _ = Ideal.ofBits .f32 0x00000000#32 + _
  refine congrArg (_ + ·) (Finset.sum_congr rfl fun k _ => ?_)
  unfold val_main_v6
  rw [gather_row]
  have hidx : idx_main_v5 (ix3 (idx_main_v7 j k 0) (idx_main_v7 j k 1) (0 : Fin 1)) = ix2 (j 0) k := by
    funext a
    match a with
    | ⟨0, _⟩ => rfl
    | ⟨1, _⟩ => rfl
  congr 1
  funext a
  match a with
  | ⟨0, _⟩ =>
    refine Fin.ext ?_
    show min (val_main_v5 (F := Ideal) x0 (ix3 (idx_main_v7 j k 0) (idx_main_v7 j k 1) (0 : Fin 1))).toInt.toNat 100000
      = (Cert.Spec.rowOf (x0 (ix2 (j 0) k))).val
    rw [idx_word x0 hx, hidx]
    exact clamp_word _ (hx _)
  | ⟨1, _⟩ => rfl

end Cert.RefValue

end
-- ==== Proof.KernelBag.lean ====
/-
  The bag loop as pure functions of what the body reads. One trip adds, to every row b of the 128-row
  accumulator, the table row named by the index word at (b, k); the accumulator starts at the zero splat,
  so after k trips row b holds the zero word plus the first k named rows, added in the order of the trips.
  Everything here is generic in the float instance: it is built from the body's own vector operations.
-/
import proofs.«400025_j42666205119354_2_alg».proof.Proof.Gen.Kernel.Skeleton
import Idealize.ShloMosaic.Lib.Pipeline.FrameBody
import Idealize.ShloMosaic.Lib.ValueIdx

noncomputable section

namespace Cert.Kernel.Bag

open Cert.Kernel Cert.Kernel.Gen
open Idealize.ShloMosaic Idealize.ShloMosaic.TcCoe Idealize.ShloMosaic.ValueIdx
open Idealize.SL Idealize.SL.Sem

variable {F : FTy → Type} [FloatOps F]

/-- A word below the table's row count names a row inside the table. -/
theorem row_inb (v : BitVec 32) (h : v.toNat < 100001) :
    ∀ a, (![v.toNat, 0] : Fin 2 → Nat) a + S1x128.size a ≤ S100001x128.size a := by
  intro a; fin_cases a
  · show v.toNat + 1 ≤ 100001; omega
  · show 0 + 128 ≤ 128; omega

/-- Row b of the accumulator lies inside it. -/
theorem acc_inb (b : Fin 128) : ∀ a, (![b.val, 0] : Fin 2 → Nat) a + S1x128.size a ≤ S128x128.size a := by
  intro a; fin_cases a
  · show b.val + 1 ≤ 128; omega
  · show 0 + 128 ≤ 128; omega

/-- Row b of a 128-row array, as the one-row vector a load of that row reads. -/
def accRow (X : S128x128.Idx → Elt F .f32) (b : Fin 128) : Vec F S1x128 .f32 :=
  View.ld X (Rect.unit (s := S128x128) ![b.val, 0] S1x128.size (acc_inb b))

/-- The table row a word names, as the one-row vector a copy of that row delivers; row 0 stands in for a
    word outside the table (no admitted input has one). -/
def tabRow (T : S100001x128.Idx → Elt F .f32) (v : BitVec 32) : Vec F S1x128 .f32 :=
  if h : v.toNat < 100001 then View.ld T (Rect.unit (s := S100001x128) ![v.toNat, 0] S1x128.size (row_inb v h))
  else View.ld T (Rect.unit (s := S100001x128) ![0, 0] S1x128.size inb_S100001x128_S1x128_0_0)

/-- What trip k leaves in the accumulator, given what it found there: row b becomes the body's sum of row b
    and the table row named by the index word at (b, k). -/
def accNext (x0 : Vec F S128x50 .i32) (T : S100001x128.Idx → Elt F .f32) (k : Fin 50) (X : S128x128.Idx → Elt F .f32) :
    S128x128.Idx → Elt F .f32 :=
  fun y => k0_pay3 (accRow X (y 0)) (tabRow T (x0 (ix2 (y 0) k))) (ix2 0 (y 1))

/-- The accumulator after k trips: the zero splat, then one `accNext` per trip. -/
def accAt (x0 : Vec F S128x50 .i32) (T : S100001x128.Idx → Elt F .f32) : ℕ → S128x128.Idx → Elt F .f32
  | 0 => k0_pay1 (F := F)
  | k + 1 => if h : k < 50 then accNext x0 T ⟨k, h⟩ (accAt x0 T k) else accAt x0 T k

theorem accAt_zero (x0 : Vec F S128x50 .i32) (T : S100001x128.Idx → Elt F .f32) : accAt x0 T 0 = k0_pay1 (F := F) := rfl

theorem accAt_succ (x0 : Vec F S128x50 .i32) (T : S100001x128.Idx → Elt F .f32) (k : Fin 50) :
    accAt x0 T (k.val + 1) = accNext x0 T k (accAt x0 T k.val) := by
  show (if h : k.val < 50 then accNext x0 T ⟨k.val, h⟩ (accAt x0 T k.val) else accAt x0 T k.val) = _
  rw [dif_pos k.isLt]

end Cert.Kernel.Bag

end
-- ==== Proof.KernelTrip.lean ====
/-
  One trip of the bag loop, run once at a symbolic trip number k: for b = 0 … 127 in turn the body reads the
  index word at (b, k), starts the copy of the table row it names into slot b mod 2 of the two-row buffer,
  waits for the copy started one step earlier into the other slot, and adds that slot to row b of the
  accumulator. At most one copy is outstanding on each of the two cells, the slot read is never the slot a
  copy is landing in, and every copy is waited for before the trip ends. The table is read under two read
  shares, one per cell, so that two copies may read it (even the same row of it) at once.
-/
import proofs.«400025_j42666205119354_2_alg».proof.Proof.Gen.Kernel.Launch
import proofs.«400025_j42666205119354_2_alg».proof.Proof.Gen.Kernel.Skeleton
import proofs.«400025_j42666205119354_2_alg».proof.Proof.Gen.Kernel.Points
import proofs.«400025_j42666205119354_2_alg».proof.Proof.KernelBag
import Idealize.ShloMosaic.Lib.Pipeline.FrameBody
import Idealize.ShloMosaic.Lib.Ring
import Idealize.ShloMosaic.Lib.Tactic

set_option maxRecDepth 16384

noncomputable section

namespace Cert.Kernel.Bag

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The table left in HBM, whole. -/
abbrev hbM : Memref sig .tc .hbm S100001x128 .f32 := Memref.whole main_arg1
/-- Its contents type on core `c`, and it held whole at `f`. -/
abbrev HbBuf (c : Dev nD) : Type := Buf (Elt F) (hbM.view.loc (c : Thread nD τ))
abbrev hbPt (c : Dev nD) (f : HbBuf (F := F) c) : sProp 𝕄 := hbM.view.loc (c : Thread nD τ) ↦{fullShare} f
/-- The table held under the read share set aside for the copies that complete on cell number `n`. -/
abbrev hbTok (c : Dev nD) (n : ℕ) (f : HbBuf (F := F) c) : sProp 𝕄 :=
  hbM.view.loc (c : Thread nD τ) ↦{Transfers.shareTokN fullShare n} f

/-- Every word loaded from the index block is below the table's row count when the block's entries are. -/
theorem word_lt {arg1 : Memref sig .tc .smem S128x50 .i32} (harg1 : arg1.IsWhole) (x0 : Vec F S128x50 .i32)
    (hx : ∀ y, (x0 y : BitVec 32).toNat < 100001) (r : LoadRect S128x50) (j : r.shape.Idx) :
    (arg1.view.readAt (Elt F) r (harg1.unread x0) j : BitVec 32).toNat < 100001 := by
  rw [View.readAt_apply, harg1.read_unread]; exact hx _

set_option maxHeartbeats 40000000 in
/-- ONE TRIP, from the index block at `x0`, the accumulator at `f4`, the two-row buffer at `f5`, both cells at zero and
    the table under the two cells' read shares: the accumulator ends with the trip's 128 row stores written over `f4`
    (the list of stores is the witness the run finds), everything else as it was, or at some contents. -/
noncomputable def tripRun [∀ e, Nonempty (Elt F e)] (c : Dev nD) (i : grid0.Coords) (arg1 : Memref sig .tc .smem S128x50 .i32) (harg1 : arg1.IsWhole)
    (arg3 : Memref sig .tc .vmem S128x128 .f32) (harg3 : arg3.IsWhole) (arg4 : Memref sig .tc .vmem S128x128 .f32) (harg4 : arg4.IsWhole)
    (arg5 : Memref sig .tc .vmem S2x128 .f32) (harg5 : arg5.IsWhole)
    (x0 : Vec F S128x50 .i32) (fh : HbBuf (F := F) c) (hx : ∀ y, (x0 y : BitVec 32).toNat < 100001) (k : Fin k0_t1_loop.trips)
    (f4 : arg4.view.ty.Contents (Elt F)) (f5 : arg5.view.ty.Contents (Elt F)) :
    { L : List (View.Piece (Elt F) S128x128 .f32) //
      ∀ (W : Waits sig Unit) (K : Unit → sProp 𝕄),
        iprop((arg1.view.loc (c : Thread nD τ) ↦[arg1.view.set]{fullShare} harg1.unread x0)
            ∗ (arg4.view.loc (c : Thread nD τ) ↦[arg4.view.set]{fullShare} f4)
            ∗ (arg5.view.loc (c : Thread nD τ) ↦[arg5.view.set]{fullShare} f5)
            ∗ semVal ((c : Thread nD τ), SemLoc.dma 4) 0 ∗ semVal ((c : Thread nD τ), SemLoc.dma 5) 0
            ∗ hbTok c 4 fh ∗ hbTok c 5 fh ∗ owes (c : Thread nD τ) 0 W
            ∗ (iprop((arg1.view.loc (c : Thread nD τ) ↦[arg1.view.set]{fullShare} harg1.unread x0)
                ∗ (arg4.view.loc (c : Thread nD τ) ↦[arg4.view.set]{fullShare} arg4.view.writes (Elt F) f4 L)
                ∗ (∃ g5, arg5.view.loc (c : Thread nD τ) ↦[arg5.view.set]{fullShare} g5)
                ∗ semVal ((c : Thread nD τ), SemLoc.dma 4) 0 ∗ semVal ((c : Thread nD τ), SemLoc.dma 5) 0
                ∗ hbTok c 4 fh ∗ hbTok c 5 fh ∗ (∃ W', owes (c : Thread nD τ) 0 W')) -∗ K ()))
          ⊢ wp frame (wpE (defs₀ (F := F)) Variants.none c none) Set.univ
              (k0_t1_body i arg1 harg1 hbM (Memref.isWhole_whole _) arg3 harg3 arg4 harg4 arg5 harg5 cc0_scratch2 k ()) K } := by
  refine ⟨?_, fun W K => ?run⟩
  case run =>
    unfold k0_t1_body
    iintro ⟨H1, H4, H5, Hq0, Hq1, Hh0, Hh1, HW, Hk⟩
    set_option sl_exec.dmaWindow true in set_option sl_exec.dmaWindowSet true in
    sl_exec_parts (disch := exact row_inb _ (word_lt harg1 x0 hx _ _))
    sl_step
    iapply Hk
    isplitl [H1]; · iexact H1
    isplitl [H4]; · iexact H4
    isplitl [H5]; · iexists _; iexact H5
    isplitl [Hq0]; · iexact Hq0
    isplitl [Hq1]; · iexact Hq1
    isplitl [Hh0]; · iexact Hh0
    isplitl [Hh1]; · iexact Hh1
    iexists _; iexact HW

end Cert.Kernel.Bag

end
-- ==== Proof.KernelTripValue.lean ====
/-
  What the 128 row stores of one trip amount to: read back, the accumulator after the trip is `accNext` of what
  the trip found — row b is the body's sum of row b as found and the table row named by the index word at (b, k).

  The trip's stores are one whole row each, rows 127, …, 0 newest first, so a row read back holds exactly its own
  store's payload. That payload adds two loads. The accumulator load is row b as the trip found it (no earlier store
  of the trip touches row b). The buffer load reads slot b mod 2 after the copies landed so far: the newest copy, the
  one for row b + 1, went to the other slot and is not seen; the one before it is row b's own copy into this slot,
  and it delivers the table row named by the index word at (b, k). For row 127 its own copy is the newest.
-/
import proofs.«400025_j42666205119354_2_alg».proof.Proof.KernelTrip
import Idealize.ShloMosaic.Lib.WritesUnit
import Idealize.ShloMosaic.Lib.WholeRead

set_option maxRecDepth 16384

noncomputable section

namespace Cert.Kernel.Bag

open Cert.Kernel Cert.Kernel.Gen
open Idealize.ShloMosaic Idealize.ShloMosaic.TcCoe Idealize.ShloMosaic.ValueIdx
open Idealize.SL Idealize.SL.RA Idealize.SL.BI Idealize.SL.Sem

variable {F : FTy → Type} [FloatOps F]

/-- The loop makes 50 trips. -/
theorem trips_eq : k0_t1_loop.trips = 50 := by decide

/-- A trip number as an index of the bag. -/
abbrev tripIx (k : Fin k0_t1_loop.trips) : Fin 50 := ⟨k.val, trips_eq ▸ k.isLt⟩

/-! ## Reading one slot of the two-row buffer after a copy has landed -/

/-- A copy landed in a slot is what a load of that slot reads, re-indexed from the row's 128 lanes. -/
theorem read_slot_same (arg5 : Memref sig .tc .vmem S2x128 .f32) (off : Fin 2 → ℕ)
    (inb : ∀ a, off a + S1x128.size a ≤ S2x128.size a)
    (hs : ∀ a, (Rect.unit (s := S2x128) off S1x128.size inb).stride a = 1) (hq : S1x128.Squeezes S128)
    (G : arg5.view.ty.Contents (Elt F)) (p : S128.Idx → Elt F .f32) :
    View.readAt (Elt F) arg5.view (Rect.unit (s := S2x128) off S1x128.size inb).toLoadRect
        (View.write (Elt F) ((arg5.slice (Rect.unit (s := S2x128) off S1x128.size inb) hs).squeeze S128 hq).view G p Finset.univ)
      = fun x => p ((Shape.reshapeEquiv hq.numel_eq).symm x) := by
  show (arg5.view.slice (Rect.unit (s := S2x128) off S1x128.size inb)).read (Elt F)
      (((arg5.view.slice (Rect.unit (s := S2x128) off S1x128.size inb)).reshape S128 hq.numel_eq).write (Elt F) G p Finset.univ) = _
  rw [View.write_reshape_univ, View.read_write_univ]
  rfl

/-- A copy landed in the other slot is not seen by a load of this one. -/
theorem read_slot_other (arg5 : Memref sig .tc .vmem S2x128 .f32) (off off' : Fin 2 → ℕ)
    (inb : ∀ a, off a + S1x128.size a ≤ S2x128.size a) (inb' : ∀ a, off' a + S1x128.size a ≤ S2x128.size a)
    (hs : ∀ a, (Rect.unit (s := S2x128) off' S1x128.size inb').stride a = 1) (hq : S1x128.Squeezes S128)
    (G : arg5.view.ty.Contents (Elt F)) (p : S128.Idx → Elt F .f32)
    (hsep : off 0 + S1x128.size 0 ≤ off' 0 ∨ off' 0 + S1x128.size 0 ≤ off 0) :
    View.readAt (Elt F) arg5.view (Rect.unit (s := S2x128) off S1x128.size inb).toLoadRect
        (View.write (Elt F) ((arg5.slice (Rect.unit (s := S2x128) off' S1x128.size inb') hs).squeeze S128 hq).view G p Finset.univ)
      = View.readAt (Elt F) arg5.view (Rect.unit (s := S2x128) off S1x128.size inb).toLoadRect G := by
  show (arg5.view.slice (Rect.unit (s := S2x128) off S1x128.size inb)).read (Elt F)
      (((arg5.view.slice (Rect.unit (s := S2x128) off' S1x128.size inb')).reshape S128 hq.numel_eq).write (Elt F) G p Finset.univ)
    = (arg5.view.slice (Rect.unit (s := S2x128) off S1x128.size inb)).read (Elt F) G
  rw [View.write_reshape_univ]
  refine View.read_slice_write_slice_of_disjoint _ _ _ _ _ ?_
  rw [View.setOn_univ, View.set_slice, View.set_slice]
  exact (Finset.disjoint_map _).mpr (Rect.unit_disjoint 0 hsep)

/-! ## What a copy delivers, and the index word it was named by -/

/-- The copy of the table row a word below the row count names delivers that row. -/
theorem copy_row (c : Dev nD) (fh : HbBuf (F := F) c) (w : BitVec 32) (hw : w.toNat < 100001) (off : Fin 2 → ℕ)
    (heq : off = ![w.toNat, 0]) (inb : ∀ a, off a + S1x128.size a ≤ S100001x128.size a)
    (hs : ∀ a, (Rect.unit (s := S100001x128) off S1x128.size inb).stride a = 1) (hq : S1x128.Squeezes S128) :
    (fun x => (ReadAs.same (Val := Elt F)).apply
        (View.read (Elt F) ((hbM.slice (Rect.unit (s := S100001x128) off S1x128.size inb) hs).squeeze S128 hq).view fh)
        ((Shape.reshapeEquiv hq.numel_eq).symm x))
      = tabRow (hbM.view.read (Elt F) fh) w := by
  subst heq
  funext x
  rw [tabRow, dif_pos hw]
  show View.read (Elt F) ((hbM.view.slice (Rect.unit (s := S100001x128) ![w.toNat, 0] S1x128.size inb)).reshape S128 hq.numel_eq) fh
      ((Shape.reshapeEquiv hq.numel_eq).symm x)
    = View.read (Elt F) hbM.view fh ((Rect.unit (s := S100001x128) ![w.toNat, 0] S1x128.size (row_inb w hw)).idx x)
  rw [View.read_apply, View.read_apply]
  simp only [View.emb_reshape, View.emb_slice, Function.Embedding.trans_apply, Equiv.coe_toEmbedding, Equiv.apply_symm_apply]
  rfl

/-- The index word the body loads at (b, k) is the index block's entry there. -/
theorem word_eq (arg1 : Memref sig .tc .smem S128x50 .i32) (harg1 : arg1.IsWhole) (x0 : Vec F S128x50 .i32)
    (k : Fin k0_t1_loop.trips) (b : Fin 128) (off : Fin 2 → ℕ) [co : Idealize.ShloMosaic.ClosedOff off]
    (hform : co.form = ![b.val, k.val])
    (inb : ∀ a, off a + S1x1.size a ≤ S128x50.size a) (h1 : 0 < (Rect.unit (s := S128x50) off S1x1.size inb).shape.numel) :
    View.readAt (Elt F) arg1.view (Rect.unit (s := S128x50) off S1x1.size inb).toLoadRect (harg1.unread x0) (Shape.Idx.first h1)
      = x0 (ix2 b (tripIx k)) := by
  have heq : off = ![b.val, k.val] := co.eq.trans hform
  subst heq
  rw [harg1.readAt_unread]
  congr 1
  funext a
  apply Fin.ext
  fin_cases a
  · show b.val + 1 * 0 = b.val; omega
  · show k.val + 1 * 0 = k.val; omega

/-! ## The trip's stores as a list of whole rows -/

/-- What trip k stores in row b: the body's sum of row b as found and the table row the word at (b, k) names. -/
def rowPay (x0 : Vec F S128x50 .i32) (T : S100001x128.Idx → Elt F .f32) (k : Fin 50) (X : S128x128.Idx → Elt F .f32)
    (b : Fin 128) : Vec F S1x128 .f32 :=
  k0_pay3 (accRow X b) (tabRow T (x0 (ix2 b k)))

/-- The body's sum is the row's payload once each operand is identified: the accumulator operand (already cast to
the row's 128 lanes) with the row as found, the buffer operand with the table row the word names. -/
theorem rowPay_of (x0 : Vec F S128x50 .i32) (T : S100001x128.Idx → Elt F .f32) (k : Fin 50) (X : S128x128.Idx → Elt F .f32)
    (b : Fin 128) (a' : FVec F S128 .f32) (t : Vec F S1x128 .f32)
    (ha : a' = shapeCast S128 (accRow X b) shapeCasts_S1x128_S128) (ht : t = tabRow T (x0 (ix2 b k))) :
    shapeCast S1x128 (addf a' (shapeCast S128 t shapeCasts_S1x128_S128)) shapeCasts_S128_S1x128 = rowPay x0 T k X b := by
  subst ha ht; rfl

/-- `L` is the stores of rows n-1, …, 0, newest first, each a whole row, row b's payload being `P b`. -/
inductive RowsOK (P : Fin 128 → Vec F S1x128 .f32) : ℕ → List (View.Piece (Elt F) S128x128 .f32) → Prop
  | nil : RowsOK P 0 []
  | cons (n : ℕ) (hn : n < 128) (inb : ∀ a, (![n, 0] : Fin 2 → ℕ) a + S1x128.size a ≤ S128x128.size a)
      (w : (Rect.unit (s := S128x128) ![n, 0] S1x128.size inb).shape.Idx → Elt F .f32)
      (L : List (View.Piece (Elt F) S128x128 .f32)) :
      w = P ⟨n, hn⟩ → RowsOK P n L →
      RowsOK P (n + 1) ((⟨Rect.unit (s := S128x128) ![n, 0] S1x128.size inb, w⟩ : View.Piece (Elt F) S128x128 .f32) :: L)

/-- Read back after such a list of stores, a row below n holds its payload. -/
theorem RowsOK.read {P : Fin 128 → Vec F S1x128 .f32} (v : View sig .tc .vmem S128x128 .f32) (f : v.ty.Contents (Elt F)) :
    ∀ {n : ℕ} {L : List (View.Piece (Elt F) S128x128 .f32)}, RowsOK P n L → ∀ y : S128x128.Idx, (y 0).val < n →
      v.read (Elt F) (v.writes (Elt F) f L) y = P (y 0) (ix2 0 (y 1)) := by
  intro n L h
  induction h with
  | nil => intro y hy; exact absurd hy (Nat.not_lt_zero _)
  | cons n hn inb w L hw hL ih =>
    intro y hy
    by_cases hyn : (y 0).val = n
    · rw [View.read_writes_cons_rows_of_mem v f inb w L y (ix2 0 (y 1)) rfl (by rw [hyn]; rfl) rfl, hw]
      have : (⟨n, hn⟩ : Fin 128) = y 0 := Fin.ext hyn.symm
      rw [this]
    · rw [View.read_writes_cons_rows_of_not_mem v f inb w L y rfl (W := 1) rfl (by omega)]
      exact ih y (by omega)

set_option hygiene false in
/-- The payload of a row b ≤ 126: the accumulator operand is the row as found; the buffer operand is read past the
newest copy (row b + 1's, into the other slot) at the row's own copy. -/
local macro "trip_row" : tactic => `(tactic|
  (refine rowPay_of _ _ _ _ _ _ _ ?_ ?_
   · rfl
   · refine (read_slot_other arg5 _ _ _ _ _ _ _ _ (by decide)).trans ((read_slot_same arg5 _ _ _ _ _ _).trans ?_)
     exact copy_row c fh _ (hx _) _ (congrArg (fun v : BitVec 32 => ![v.toNat, 0]) (word_eq arg1 harg1 x0 k _ _ rfl _ _)) _ _ _))

set_option hygiene false in
/-- The payload of row 127: the newest copy is the row's own. -/
local macro "trip_row_last" : tactic => `(tactic|
  (refine rowPay_of _ _ _ _ _ _ _ ?_ ?_
   · rfl
   · refine (read_slot_same arg5 _ _ _ _ _ _).trans ?_
     exact copy_row c fh _ (hx _) _ (congrArg (fun v : BitVec 32 => ![v.toNat, 0]) (word_eq arg1 harg1 x0 k _ _ rfl _ _)) _ _ _))

open Lean Elab Tactic Meta in
/-- Unfold the named tails of the trip's list of stores. -/
local elab "unfold_store_tails" : tactic => do
  let g ← getMainGoal
  let t ← instantiateMVars (← g.getType)
  let t' ← Meta.deltaExpand t (fun n => match n with
    | .str p s => p.components.any (· == `sl) && s.startsWith "H4_"
    | _ => false)
  replaceMainGoal [← g.replaceTargetDefEq t']

set_option maxHeartbeats 4000000 in
/-- The trip's stores are rows 127, …, 0, newest first, each a whole row holding the row's payload. -/
theorem tripRows [∀ e, Nonempty (Elt F e)] (c : Dev nD) (i : grid0.Coords) (arg1 : Memref sig .tc .smem S128x50 .i32) (harg1 : arg1.IsWhole)
    (arg3 : Memref sig .tc .vmem S128x128 .f32) (harg3 : arg3.IsWhole) (arg4 : Memref sig .tc .vmem S128x128 .f32) (harg4 : arg4.IsWhole)
    (arg5 : Memref sig .tc .vmem S2x128 .f32) (harg5 : arg5.IsWhole)
    (x0 : Vec F S128x50 .i32) (fh : HbBuf (F := F) c) (hx : ∀ y, (x0 y : BitVec 32).toNat < 100001) (k : Fin k0_t1_loop.trips)
    (f4 : arg4.view.ty.Contents (Elt F)) (f5 : arg5.view.ty.Contents (Elt F)) :
    RowsOK (rowPay x0 (hbM.view.read (Elt F) fh) (tripIx k) (arg4.view.read (Elt F) f4)) 128
      (tripRun c i arg1 harg1 arg3 harg3 arg4 harg4 arg5 harg5 x0 fh hx k f4 f5).1 := by
  unfold tripRun
  dsimp only
  unfold_store_tails
  refine RowsOK.cons _ (by decide) _ _ _ ?_ ?_
  · trip_row_last
  iterate 127 (refine RowsOK.cons _ (by decide) _ _ _ ?_ ?_; · trip_row)
  exact RowsOK.nil

theorem trip_value [∀ e, Nonempty (Elt F e)] (c : Dev nD) (i : grid0.Coords) (arg1 : Memref sig .tc .smem S128x50 .i32) (harg1 : arg1.IsWhole)
    (arg3 : Memref sig .tc .vmem S128x128 .f32) (harg3 : arg3.IsWhole) (arg4 : Memref sig .tc .vmem S128x128 .f32) (harg4 : arg4.IsWhole)
    (arg5 : Memref sig .tc .vmem S2x128 .f32) (harg5 : arg5.IsWhole)
    (x0 : Vec F S128x50 .i32) (fh : HbBuf (F := F) c) (hx : ∀ y, (x0 y : BitVec 32).toNat < 100001) (k : Fin k0_t1_loop.trips)
    (f4 : arg4.view.ty.Contents (Elt F)) (f5 : arg5.view.ty.Contents (Elt F)) :
    arg4.view.read (Elt F) (arg4.view.writes (Elt F) f4 (tripRun c i arg1 harg1 arg3 harg3 arg4 harg4 arg5 harg5 x0 fh hx k f4 f5).1)
      = accNext x0 (hbM.view.read (Elt F) fh) (tripIx k) (arg4.view.read (Elt F) f4) := by
  funext y
  rw [(tripRows c i arg1 harg1 arg3 harg3 arg4 harg4 arg5 harg5 x0 fh hx k f4 f5).read arg4.view f4 y (y 0).isLt]
  rfl

end Cert.Kernel.Bag

end
-- ==== Proof.KernelBody.lean ====
/-
  The kernel body's run at one grid point, over any staging memrefs: from the index block, the output's
  staging buffer and the two scratch buffers at anything, the two cells at zero and the table whole, the body
  runs to its return with the output's buffer at the accumulator after all 50 trips, everything it only
  reads as it was. The body zeroes the accumulator, makes the 50 trips under the invariant "the accumulator
  reads `accAt k` before trip k", and copies the accumulator to the output's buffer.
-/
import proofs.«400025_j42666205119354_2_alg».proof.Proof.KernelTripValue
import Idealize.ShloMosaic.Lib.Pipeline.Value

set_option maxRecDepth 16384

noncomputable section

namespace Cert.Kernel.Bag

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What is left of the table's share once the read shares of cells 4 and 5 are set aside. -/
abbrev hbRest (c : Dev nD) (f : HbBuf (F := F) c) : sProp 𝕄 :=
  iprop((hbM.view.loc (c : Thread nD τ) ↦{Transfers.shareDrop fullShare 6} f)
    ∗ hbTok c 0 f ∗ hbTok c 1 f ∗ hbTok c 2 f ∗ hbTok c 3 f)

/-- The table whole is the two cells' read shares and the rest. -/
theorem hb_split (c : Dev nD) (f : HbBuf (F := F) c) :
    hbPt c f ⊣⊢ iprop(hbRest c f ∗ hbTok c 4 f ∗ hbTok c 5 f) := by
  have h := Transfers.pointsTo_toks_range (Ix := Unit) (Name := ℕ) (U := Pipeline.UD sig nD τ) (Lvl := ℕ)
    (ℓ := hbM.view.loc (c : Thread nD τ)) (S := Finset.univ) (f := f) fullShare 6
  rw [BI.bigSep_eq_bigSepL_of_eq [0, 1, 2, 3, 4, 5] (by decide) (by decide)] at h
  have h' : hbPt c f ⊣⊢ iprop((hbM.view.loc (c : Thread nD τ) ↦{Transfers.shareDrop fullShare 6} f)
      ∗ hbTok c 0 f ∗ hbTok c 1 f ∗ hbTok c 2 f ∗ hbTok c 3 f ∗ hbTok c 4 f ∗ hbTok c 5 f) := h
  constructor
  · refine h'.1.trans ?_
    iintro ⟨Hd, H0, H1, H2, H3, H4, H5⟩
    isplitl [Hd H0 H1 H2 H3]
    · isplitl [Hd]; · iexact Hd
      isplitl [H0]; · iexact H0
      isplitl [H1]; · iexact H1
      isplitl [H2]; · iexact H2
      iexact H3
    isplitl [H4]; · iexact H4
    iexact H5
  · refine BIBase.Entails.trans ?_ h'.2
    iintro ⟨⟨Hd, H0, H1, H2, H3⟩, H4, H5⟩
    isplitl [Hd]; · iexact Hd
    isplitl [H0]; · iexact H0
    isplitl [H1]; · iexact H1
    isplitl [H2]; · iexact H2
    isplitl [H3]; · iexact H3
    isplitl [H4]; · iexact H4
    iexact H5

/-- Before trip `k`: the index block as it was, the accumulator reading `accAt k`, the two-row buffer at anything,
    both cells at zero, the table under the two cells' read shares, the waits recorded. -/
def loopInv (c : Dev nD) (arg1 : Memref sig .tc .smem S128x50 .i32) (harg1 : arg1.IsWhole)
    (arg4 : Memref sig .tc .vmem S128x128 .f32) (arg5 : Memref sig .tc .vmem S2x128 .f32)
    (x0 : Vec F S128x50 .i32) (fh : HbBuf (F := F) c) (k : ℕ) (_ : Unit) : sProp 𝕄 :=
  iprop((arg1.view.loc (c : Thread nD τ) ↦[arg1.view.set]{fullShare} harg1.unread x0)
    ∗ (∃ f4, (arg4.view.loc (c : Thread nD τ) ↦[arg4.view.set]{fullShare} f4)
        ∗ ⌜arg4.view.read (Elt F) f4 = accAt x0 (hbM.view.read (Elt F) fh) k⌝)
    ∗ (∃ f5, arg5.view.loc (c : Thread nD τ) ↦[arg5.view.set]{fullShare} f5)
    ∗ semVal ((c : Thread nD τ), SemLoc.dma 4) 0 ∗ semVal ((c : Thread nD τ), SemLoc.dma 5) 0
    ∗ hbTok c 4 fh ∗ hbTok c 5 fh ∗ (∃ W, owes (c : Thread nD τ) 0 W))

set_option maxHeartbeats 4000000 in
/-- THE BODY'S RUN. -/
theorem kernelRun [∀ e, Nonempty (Elt F e)] (c : Dev nD) (i : grid0.Coords) (arg1 : Memref sig .tc .smem S128x50 .i32) (harg1 : arg1.IsWhole)
    (arg3 : Memref sig .tc .vmem S128x128 .f32) (harg3 : arg3.IsWhole) (arg4 : Memref sig .tc .vmem S128x128 .f32) (harg4 : arg4.IsWhole)
    (arg5 : Memref sig .tc .vmem S2x128 .f32) (harg5 : arg5.IsWhole)
    (x0 : Vec F S128x50 .i32) (fh : HbBuf (F := F) c) (hx : ∀ y, (x0 y : BitVec 32).toNat < 100001)
    (W : Waits sig Unit) (K : PUnit → sProp 𝕄) :
    iprop(owns (c : Thread nD τ) arg1 fullShare x0 ∗ (∃ d, owns (c : Thread nD τ) arg3 fullShare d)
        ∗ (∃ d, owns (c : Thread nD τ) arg4 fullShare d) ∗ (∃ d, owns (c : Thread nD τ) arg5 fullShare d)
        ∗ semVal ((c : Thread nD τ), SemLoc.dma 4) 0 ∗ semVal ((c : Thread nD τ), SemLoc.dma 5) 0 ∗ hbPt c fh ∗ owes (c : Thread nD τ) 0 W
        ∗ (iprop(owns (c : Thread nD τ) arg1 fullShare x0 ∗ owns (c : Thread nD τ) arg3 fullShare (accAt x0 (hbM.view.read (Elt F) fh) 50)
            ∗ (∃ d, owns (c : Thread nD τ) arg4 fullShare d) ∗ (∃ d, owns (c : Thread nD τ) arg5 fullShare d)
            ∗ semVal ((c : Thread nD τ), SemLoc.dma 4) 0 ∗ semVal ((c : Thread nD τ), SemLoc.dma 5) 0 ∗ hbPt c fh ∗ (∃ W', owes (c : Thread nD τ) 0 W')) -∗ K ⟨⟩))
      ⊢ wp frame (wpE (defs₀ (F := F)) Variants.none c none) Set.univ
          (cc0__gather_sum_kernel i arg1 harg1 hbM (Memref.isWhole_whole _) arg3 harg3 arg4 harg4 arg5 harg5 cc0_scratch2) K := by
  simp only [cc0__gather_sum_kernel_eq_skeleton]; unfold cc0__gather_sum_kernel_skel
  unfold owns
  iintro ⟨⟨%f1, %hf1, H1⟩, ⟨%d3, %f3, -, H3⟩, ⟨%d4, %f4, -, H4⟩, ⟨%d5, %f5, -, H5⟩, Hq0, Hq1, Hh, HW, Hk⟩
  obtain rfl := harg1.eq_unread hf1
  ihave Hs := (hb_split c fh).1 $$ Hh
  icases Hs with ⟨Hr, Hh4, Hh5⟩
  sl_exec
  sl_for (loopInv c arg1 harg1 arg4 arg5 x0 fh) $$ [H1 H4 H5 Hq0 Hq1 Hh4 Hh5 HW]
  case region =>
    intro k a
    unfold loopInv
    iintro ⟨H1, ⟨%g4, H4, %hg4⟩, ⟨%g5, H5⟩, Hq0, Hq1, Hh4, Hh5, ⟨%W1, HW⟩⟩
    iapply ((tripRun c i arg1 harg1 arg3 harg3 arg4 harg4 arg5 harg5 x0 fh hx k g4 g5).2 W1 _)
    isplitl [H1]; · iexact H1
    isplitl [H4]; · iexact H4
    isplitl [H5]; · iexact H5
    isplitl [Hq0]; · iexact Hq0
    isplitl [Hq1]; · iexact Hq1
    isplitl [Hh4]; · iexact Hh4
    isplitl [Hh5]; · iexact Hh5
    isplitl [HW]; · iexact HW
    iintro ⟨H1, H4, ⟨%g5', H5⟩, Hq0, Hq1, Hh4, Hh5, ⟨%W2, HW⟩⟩
    isplitl [H1]; · iexact H1
    isplitl [H4]
    · iexists _; isplitl [H4]; · iexact H4
      ipureintro
      rw [trip_value, hg4]; exact (accAt_succ x0 _ (tripIx k)).symm
    isplitl [H5]; · iexists _; iexact H5
    isplitl [Hq0]; · iexact Hq0
    isplitl [Hq1]; · iexact Hq1
    isplitl [Hh4]; · iexact Hh4
    isplitl [Hh5]; · iexact Hh5
    iexists _; iexact HW
  · unfold loopInv
    isplitl [H1]; · iexact H1
    isplitl [H4]
    · iexists _; isplitl [H4]; · iexact H4
      ipureintro
      exact (View.read_writes_junk_eq_canon _ _).trans (View.canon_unit_zero (funext fun a => by fin_cases a <;> rfl) _ _)
    isplitl [H5]; · iexists _; iexact H5
    isplitl [Hq0]; · iexact Hq0
    isplitl [Hq1]; · iexact Hq1
    isplitl [Hh4]; · iexact Hh4
    isplitl [Hh5]; · iexact Hh5
    iexists _; iexact HW
  iintro %a HI
  unfold loopInv
  icases HI with ⟨H1, ⟨%g4, H4, %hg4⟩, ⟨%g5, H5⟩, Hq0, Hq1, Hh4, Hh5, ⟨%W1, HW⟩⟩
  sl_exec
  sl_step
  iapply Hk
  isplitl [H1]
  · iexists _; isplitr; · ipureintro; exact harg1.read_unread _
    iexact H1
  isplitl [H3]
  · iexists _; isplitr; swap; · iexact H3
    ipureintro
    have hz : (![0, 0] : Fin 2 → ℕ) = fun _ => 0 := funext fun a => by fin_cases a <;> rfl
    refine (View.read_writes_eq_canon _ _ _ fun y => ⟨_, List.mem_singleton_self _, View.mem_set_unit_zero hz inb_S128x128_S128x128_0_0 y⟩).trans ?_
    refine (View.canon_unit_zero hz inb_S128x128_S128x128_0_0 _).trans ?_
    refine (View.ld_unit_zero hz inb_S128x128_S128x128_0_0 (arg4.view.read (Elt F) g4)).trans ?_
    exact hg4.trans (congrArg (accAt x0 _) trips_eq)
  isplitl [H4]
  · iexists _, _; isplitr; swap; · iexact H4
    ipureintro; rfl
  isplitl [H5]
  · iexists _, _; isplitr; swap; · iexact H5
    ipureintro; rfl
  isplitl [Hq0]; · iexact Hq0
  isplitl [Hq1]; · iexact Hq1
  isplitl [Hr Hh4 Hh5]
  · iapply (hb_split c fh).2
    isplitl [Hr]; · iexact Hr
    isplitl [Hh4]; · iexact Hh4
    iexact Hh5
  iexists _; iexact HW

end Cert.Kernel.Bag

end
-- ==== Proof.KernelFrame.lean ====
/-
  The launch side of the kernel's frame. The one pallas_call runs on a grid of 128 points; the pipeline
  stages the index block (window 0) and the output block (window 1), while the table stays in HBM and the
  body copies rows of it into its own scratch on its own two DMA cells, all waited within the point. Given
  that every index word of every block names a table row, the body's run at a point discharges the
  pipeline's body obligation with the output's staging buffer left at the accumulator after all 50 trips,
  and the launch theorem for a body with transfers of its own gives the run of @main and the frame.
-/
import proofs.«400025_j42666205119354_2_alg».proof.Proof.KernelBody

set_option maxRecDepth 16384

noncomputable section

namespace Cert.Kernel.Bag

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core c's TensorCore buffers when the region is entered: as launched (@main is the region alone). -/
abbrev V (c : Dev nD) (b : Ref sig .tc) : Buf (Elt F) ((c : Thread nD τ).loc b) := m ((c : Thread nD τ).loc b)

/-- @main up to the region: the region alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The index window's current staging buffer holds its block at every point, fetched there or not, for any
    proof data whose array is the region-entry contents and whose body leaves the block in place: the window
    is uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline's frame post, read at
    the two argument arrays (the staged index array is an input, the table is staged by no window), is the
    frame claim's post. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The staging and scratch memrefs at a point -/

/-- Each window's current staging memref at point t, spelled as the pipeline passes it, and its wholeness. -/
abbrev ms0_0 (t : Fin cfg0.N) : Memref sig .tc .smem S128x50 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S128x128 .f32 := Memref.whole cc0_scratch0
abbrev scM0_1 : Memref sig .tc .vmem S2x128 .f32 := Memref.whole cc0_scratch1

/-- The body's own DMA semaphores, cell by cell: none is a window's. -/
abbrev osem0 : Fin 2 → SemLoc sig := fun j => (![SemLoc.dma 4, SemLoc.dma 5] : Fin 2 → SemLoc sig) j
theorem ownSemFacts0 : Pipeline.OwnSemFacts spec0 osem0 := by decide
/-- The HBM operand the body moves, as a reference: unscoped, no window's array. -/
def H0 : Finset (Ref sig .tc) := {main_arg1}
theorem H0_sub : H0 ⊆ Pipeline.restRefs sig spec0 := by decide

/-! ## What the output holds after each point -/

/-- The index block at point t, as the vector of words the body reads. -/
abbrev idxAt (c : Dev nD) (t : Fin cfg0.N) : Vec F S128x50 .i32 := iblk m c 0 t

/-- What the output's staging buffer holds after the body at point t: the accumulator after all 50 trips over
    the point's index block and the table as launched. -/
def outsAt0 (c : Dev nD) (t : Fin cfg0.N) : Vec F S128x128 .f32 :=
  accAt (idxAt m c t) (hbM.view.read (Elt F) (V m c main_arg1)) 50

/-! ## The pipeline's proof data -/

/-- The proof data of the one pipeline on core c: the arrays as the region finds them; after the body at point
    t the index buffer at its block and the output's at outsAt0; the invariant of a body with transfers of its
    own (the scoped rest, the generator register, the own cells at zero, the table at its launch contents);
    nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => (outsAt0 m c t)
  Φ _ := Pipeline.ΦD osem0 spec0 H0 (V m) c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = (outsAt0 m c t) := by dsimp only [dats]

/-- The index window's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The invariant, conjunct by conjunct -/

/-- The own cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl

/-- The table's points-to at the launch contents, listed. -/
theorem hbmPts0_eq (c : Dev nD) :
    (bigSep H0 (fun b => ((c : Thread nD τ).loc b) ↦{fullShare} V m c b) : sProp 𝕄) = iprop(hbPt c (V m c main_arg1)) := by
  rw [BI.bigSep_eq_bigSepL_of_eq [main_arg1] (by decide) (by decide)]; rfl

/-- The invariant of a body with transfers of its own, conjunct by conjunct: the two scratch operands owned at
    some contents, the generator register at some state, the own cells at zero, the table at its launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r)
          ∗ iprop(semVal ((c : Thread nD τ), SemLoc.dma 4) 0 ∗ semVal ((c : Thread nD τ), SemLoc.dma 5) 0) ∗ iprop(hbPt c (V m c main_arg1))) := by
  rw [Pipeline.ΦD_eq, scopedRest0_eq, ownSems00_eq, hbmPts0_eq]; simp only [scM0_0, scM0_1, owns_whole]; try rfl

/-! ## The hypothesis of the frame -/

/-- Every index word of every block names a table row. -/
def Hx : Prop := ∀ (c : Dev nD) (t : Fin cfg0.N) (y : S128x50.Idx), ((idxAt m c t y : BitVec 32)).toNat < 100001

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any point: the index memref holds its block; so the body's run applies at that block and the
    table as launched; the invariant hands the body its two scratch buffers, its DMA cells at zero and the
    table, and takes them back as they were; the core's owes goes in at whatever the points before recorded and
    comes back with this point's waits; the output's buffer is left at the accumulator after all 50 trips. -/
theorem sound_body (hH : Hx m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    after0_0, after0_1]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outsAt0
  iintro ⟨⟨⟨HS0, HS1⟩, Hg, ⟨Hq0, Hq1⟩, Hh0⟩, ⟨%W, -, HW⟩, ⟨%d0, H0⟩, ⟨%d1, H1⟩⟩
  iapply (kernelRun c (grid0.coords t) _ _ _ _ _ _ _ _ (iblk m c 0 t) (V m c main_arg1) (hH c t) W _)
  isplitl [H0]; · iexact H0
  isplitl [H1]; · iexists _; iexact H1
  isplitl [HS0]; · iexact HS0
  isplitl [HS1]; · iexact HS1
  isplitl [Hq0]; · iexact Hq0
  isplitl [Hq1]; · iexact Hq1
  isplitl [Hh0]; · iexact Hh0
  isplitl [HW]; · iexact HW
  iintro ⟨H0, H1, HS0, HS1, Hq0, Hq1, Hh0, ⟨%W', HW'⟩⟩
  isplitl [HS0 HS1 Hg Hq0 Hq1 Hh0]
  · isplitl [HS0 HS1]
    · isplitl [HS0]; · iexact HS0
      iexact HS1
    isplitl [Hg]
    · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  iexact H1

/-- The pipeline's body obligation, at every point. -/
theorem body_obligation (hH : Hx m) (c : Dev nD) : BodyObligation (dats (F := F) m 0 c) (defs₀ (F := F)) Variants.none () Set.univ := fun t => by
  rw [bigSep_W0, bigSep_W0]
  exact sound_body m hH c t

/-! ## The run and the frame -/

set_option backward.isDefEq.respectTransparency.types false in
/-- At the compiled mesh, for any values, from any memory with zero counters, if every index word names a table
    row: every weakly fair execution of @main on the TensorCores terminates, and every final state has every
    array of the pipeline at what the proof data determine and every other unscoped buffer as the region
    found it. -/
theorem run_main (hH : Hx m) : θ_run defs (onTc (τ := τ) (main (F := F))) (s₀ m ρ) (Pipeline.FramePost cfgs (dats m) 0 (V m)) :=
  Pipeline.θ_run_frame_dma cfgs (dats m) (0 : Fin 1) launch0 osem0 defs₀ Variants.none ownSemFacts0 H0 H0_sub m ρ main
    (hbody := fun c => (body_obligation m hH c).loose) (hshare := fun c => (dats m 0 c).share_full fun _ => rfl)
    (howed := fun _ _ => rfl) (V := V m) (hmain := hmain m Variants.none) (hA := A_eq m)
    (hin := fun _ => .rfl) (hout := fun _ => .rfl)

/-- THE FRAME, given that every index word names a table row: the two argument arrays end as launched. -/
theorem frame (hH : Hx m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hH)

/-! ## The hypothesis from the index array's words -/

/-- A block of the index array reads that array's own words, so a bound on every word of the array bounds every
    word of every block. -/
theorem hx_of_idx (hidx : ∀ c : Dev nD, ∀ y, ((m ((c : Thread nD τ).loc main_arg0)) y : BitVec 32).toNat < 100001) : Hx m := by
  intro c t y
  unfold idxAt iblk
  rw [View.read_apply]
  exact hidx c _

end Cert.Kernel.Bag

end
-- ==== Proof.KernelIdealBag.lean ====
/-
  The bag loop as pure functions of what the body reads. One trip adds, to every row b of the 128-row
  accumulator, the table row named by the index word at (b, k); the accumulator starts at the zero splat,
  so after k trips row b holds the zero word plus the first k named rows, added in the order of the trips.
  Everything here is generic in the float instance: it is built from the body's own vector operations.
-/
import proofs.«400025_j42666205119354_2_alg».proof.Proof.Gen.KernelIdeal.Skeleton
import Idealize.ShloMosaic.Lib.Pipeline.FrameBody
import Idealize.ShloMosaic.Lib.ValueIdx

noncomputable section

namespace Cert.KernelIdeal.Bag

open Cert.KernelIdeal Cert.KernelIdeal.Gen
open Idealize.ShloMosaic Idealize.ShloMosaic.TcCoe Idealize.ShloMosaic.ValueIdx
open Idealize.SL Idealize.SL.Sem

variable {F : FTy → Type} [FloatOps F]

/-- A word below the table's row count names a row inside the table. -/
theorem row_inb (v : BitVec 32) (h : v.toNat < 100001) :
    ∀ a, (![v.toNat, 0] : Fin 2 → Nat) a + S1x128.size a ≤ S100001x128.size a := by
  intro a; fin_cases a
  · show v.toNat + 1 ≤ 100001; omega
  · show 0 + 128 ≤ 128; omega

/-- Row b of the accumulator lies inside it. -/
theorem acc_inb (b : Fin 128) : ∀ a, (![b.val, 0] : Fin 2 → Nat) a + S1x128.size a ≤ S128x128.size a := by
  intro a; fin_cases a
  · show b.val + 1 ≤ 128; omega
  · show 0 + 128 ≤ 128; omega

/-- Row b of a 128-row array, as the one-row vector a load of that row reads. -/
def accRow (X : S128x128.Idx → Elt F .f32) (b : Fin 128) : Vec F S1x128 .f32 :=
  View.ld X (Rect.unit (s := S128x128) ![b.val, 0] S1x128.size (acc_inb b))

/-- The table row a word names, as the one-row vector a copy of that row delivers; row 0 stands in for a
    word outside the table (no admitted input has one). -/
def tabRow (T : S100001x128.Idx → Elt F .f32) (v : BitVec 32) : Vec F S1x128 .f32 :=
  if h : v.toNat < 100001 then View.ld T (Rect.unit (s := S100001x128) ![v.toNat, 0] S1x128.size (row_inb v h))
  else View.ld T (Rect.unit (s := S100001x128) ![0, 0] S1x128.size inb_S100001x128_S1x128_0_0)

/-- What trip k leaves in the accumulator, given what it found there: row b becomes the body's sum of row b
    and the table row named by the index word at (b, k). -/
def accNext (x0 : Vec F S128x50 .i32) (T : S100001x128.Idx → Elt F .f32) (k : Fin 50) (X : S128x128.Idx → Elt F .f32) :
    S128x128.Idx → Elt F .f32 :=
  fun y => k0_pay3 (accRow X (y 0)) (tabRow T (x0 (ix2 (y 0) k))) (ix2 0 (y 1))

/-- The accumulator after k trips: the zero splat, then one `accNext` per trip. -/
def accAt (x0 : Vec F S128x50 .i32) (T : S100001x128.Idx → Elt F .f32) : ℕ → S128x128.Idx → Elt F .f32
  | 0 => k0_pay1 (F := F)
  | k + 1 => if h : k < 50 then accNext x0 T ⟨k, h⟩ (accAt x0 T k) else accAt x0 T k

theorem accAt_zero (x0 : Vec F S128x50 .i32) (T : S100001x128.Idx → Elt F .f32) : accAt x0 T 0 = k0_pay1 (F := F) := rfl

theorem accAt_succ (x0 : Vec F S128x50 .i32) (T : S100001x128.Idx → Elt F .f32) (k : Fin 50) :
    accAt x0 T (k.val + 1) = accNext x0 T k (accAt x0 T k.val) := by
  show (if h : k.val < 50 then accNext x0 T ⟨k.val, h⟩ (accAt x0 T k.val) else accAt x0 T k.val) = _
  rw [dif_pos k.isLt]

end Cert.KernelIdeal.Bag

end
-- ==== Proof.KernelIdealTrip.lean ====
/-
  One trip of the bag loop, run once at a symbolic trip number k: for b = 0 … 127 in turn the body reads the
  index word at (b, k), starts the copy of the table row it names into slot b mod 2 of the two-row buffer,
  waits for the copy started one step earlier into the other slot, and adds that slot to row b of the
  accumulator. At most one copy is outstanding on each of the two cells, the slot read is never the slot a
  copy is landing in, and every copy is waited for before the trip ends. The table is read under two read
  shares, one per cell, so that two copies may read it (even the same row of it) at once.
-/
import proofs.«400025_j42666205119354_2_alg».proof.Proof.Gen.KernelIdeal.Launch
import proofs.«400025_j42666205119354_2_alg».proof.Proof.Gen.KernelIdeal.Skeleton
import proofs.«400025_j42666205119354_2_alg».proof.Proof.Gen.KernelIdeal.Points
import proofs.«400025_j42666205119354_2_alg».proof.Proof.KernelIdealBag
import Idealize.ShloMosaic.Lib.Pipeline.FrameBody
import Idealize.ShloMosaic.Lib.Ring
import Idealize.ShloMosaic.Lib.Tactic

set_option maxRecDepth 16384

noncomputable section

namespace Cert.KernelIdeal.Bag

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The table left in HBM, whole. -/
abbrev hbM : Memref sig .tc .hbm S100001x128 .f32 := Memref.whole main_arg1
/-- Its contents type on core `c`, and it held whole at `f`. -/
abbrev HbBuf (c : Dev nD) : Type := Buf (Elt F) (hbM.view.loc (c : Thread nD τ))
abbrev hbPt (c : Dev nD) (f : HbBuf (F := F) c) : sProp 𝕄 := hbM.view.loc (c : Thread nD τ) ↦{fullShare} f
/-- The table held under the read share set aside for the copies that complete on cell number `n`. -/
abbrev hbTok (c : Dev nD) (n : ℕ) (f : HbBuf (F := F) c) : sProp 𝕄 :=
  hbM.view.loc (c : Thread nD τ) ↦{Transfers.shareTokN fullShare n} f

/-- Every word loaded from the index block is below the table's row count when the block's entries are. -/
theorem word_lt {arg1 : Memref sig .tc .smem S128x50 .i32} (harg1 : arg1.IsWhole) (x0 : Vec F S128x50 .i32)
    (hx : ∀ y, (x0 y : BitVec 32).toNat < 100001) (r : LoadRect S128x50) (j : r.shape.Idx) :
    (arg1.view.readAt (Elt F) r (harg1.unread x0) j : BitVec 32).toNat < 100001 := by
  rw [View.readAt_apply, harg1.read_unread]; exact hx _

set_option maxHeartbeats 40000000 in
/-- ONE TRIP, from the index block at `x0`, the accumulator at `f4`, the two-row buffer at `f5`, both cells at zero and
    the table under the two cells' read shares: the accumulator ends with the trip's 128 row stores written over `f4`
    (the list of stores is the witness the run finds), everything else as it was, or at some contents. -/
noncomputable def tripRun [∀ e, Nonempty (Elt F e)] (c : Dev nD) (i : grid0.Coords) (arg1 : Memref sig .tc .smem S128x50 .i32) (harg1 : arg1.IsWhole)
    (arg3 : Memref sig .tc .vmem S128x128 .f32) (harg3 : arg3.IsWhole) (arg4 : Memref sig .tc .vmem S128x128 .f32) (harg4 : arg4.IsWhole)
    (arg5 : Memref sig .tc .vmem S2x128 .f32) (harg5 : arg5.IsWhole)
    (x0 : Vec F S128x50 .i32) (fh : HbBuf (F := F) c) (hx : ∀ y, (x0 y : BitVec 32).toNat < 100001) (k : Fin k0_t1_loop.trips)
    (f4 : arg4.view.ty.Contents (Elt F)) (f5 : arg5.view.ty.Contents (Elt F)) :
    { L : List (View.Piece (Elt F) S128x128 .f32) //
      ∀ (W : Waits sig Unit) (K : Unit → sProp 𝕄),
        iprop((arg1.view.loc (c : Thread nD τ) ↦[arg1.view.set]{fullShare} harg1.unread x0)
            ∗ (arg4.view.loc (c : Thread nD τ) ↦[arg4.view.set]{fullShare} f4)
            ∗ (arg5.view.loc (c : Thread nD τ) ↦[arg5.view.set]{fullShare} f5)
            ∗ semVal ((c : Thread nD τ), SemLoc.dma 4) 0 ∗ semVal ((c : Thread nD τ), SemLoc.dma 5) 0
            ∗ hbTok c 4 fh ∗ hbTok c 5 fh ∗ owes (c : Thread nD τ) 0 W
            ∗ (iprop((arg1.view.loc (c : Thread nD τ) ↦[arg1.view.set]{fullShare} harg1.unread x0)
                ∗ (arg4.view.loc (c : Thread nD τ) ↦[arg4.view.set]{fullShare} arg4.view.writes (Elt F) f4 L)
                ∗ (∃ g5, arg5.view.loc (c : Thread nD τ) ↦[arg5.view.set]{fullShare} g5)
                ∗ semVal ((c : Thread nD τ), SemLoc.dma 4) 0 ∗ semVal ((c : Thread nD τ), SemLoc.dma 5) 0
                ∗ hbTok c 4 fh ∗ hbTok c 5 fh ∗ (∃ W', owes (c : Thread nD τ) 0 W')) -∗ K ()))
          ⊢ wp frame (wpE (defs₀ (F := F)) Variants.none c none) Set.univ
              (k0_t1_body i arg1 harg1 hbM (Memref.isWhole_whole _) arg3 harg3 arg4 harg4 arg5 harg5 cc0_scratch2 k ()) K } := by
  refine ⟨?_, fun W K => ?run⟩
  case run =>
    unfold k0_t1_body
    iintro ⟨H1, H4, H5, Hq0, Hq1, Hh0, Hh1, HW, Hk⟩
    set_option sl_exec.dmaWindow true in set_option sl_exec.dmaWindowSet true in
    sl_exec_parts (disch := exact row_inb _ (word_lt harg1 x0 hx _ _))
    sl_step
    iapply Hk
    isplitl [H1]; · iexact H1
    isplitl [H4]; · iexact H4
    isplitl [H5]; · iexists _; iexact H5
    isplitl [Hq0]; · iexact Hq0
    isplitl [Hq1]; · iexact Hq1
    isplitl [Hh0]; · iexact Hh0
    isplitl [Hh1]; · iexact Hh1
    iexists _; iexact HW

end Cert.KernelIdeal.Bag

end
-- ==== Proof.KernelIdealTripValue.lean ====
/-
  What the 128 row stores of one trip amount to: read back, the accumulator after the trip is `accNext` of what
  the trip found — row b is the body's sum of row b as found and the table row named by the index word at (b, k).

  The trip's stores are one whole row each, rows 127, …, 0 newest first, so a row read back holds exactly its own
  store's payload. That payload adds two loads. The accumulator load is row b as the trip found it (no earlier store
  of the trip touches row b). The buffer load reads slot b mod 2 after the copies landed so far: the newest copy, the
  one for row b + 1, went to the other slot and is not seen; the one before it is row b's own copy into this slot,
  and it delivers the table row named by the index word at (b, k). For row 127 its own copy is the newest.
-/
import proofs.«400025_j42666205119354_2_alg».proof.Proof.KernelIdealTrip
import Idealize.ShloMosaic.Lib.WritesUnit
import Idealize.ShloMosaic.Lib.WholeRead

set_option maxRecDepth 16384

noncomputable section

namespace Cert.KernelIdeal.Bag

open Cert.KernelIdeal Cert.KernelIdeal.Gen
open Idealize.ShloMosaic Idealize.ShloMosaic.TcCoe Idealize.ShloMosaic.ValueIdx
open Idealize.SL Idealize.SL.RA Idealize.SL.BI Idealize.SL.Sem

variable {F : FTy → Type} [FloatOps F]

/-- The loop makes 50 trips. -/
theorem trips_eq : k0_t1_loop.trips = 50 := by decide

/-- A trip number as an index of the bag. -/
abbrev tripIx (k : Fin k0_t1_loop.trips) : Fin 50 := ⟨k.val, trips_eq ▸ k.isLt⟩

/-! ## Reading one slot of the two-row buffer after a copy has landed -/

/-- A copy landed in a slot is what a load of that slot reads, re-indexed from the row's 128 lanes. -/
theorem read_slot_same (arg5 : Memref sig .tc .vmem S2x128 .f32) (off : Fin 2 → ℕ)
    (inb : ∀ a, off a + S1x128.size a ≤ S2x128.size a)
    (hs : ∀ a, (Rect.unit (s := S2x128) off S1x128.size inb).stride a = 1) (hq : S1x128.Squeezes S128)
    (G : arg5.view.ty.Contents (Elt F)) (p : S128.Idx → Elt F .f32) :
    View.readAt (Elt F) arg5.view (Rect.unit (s := S2x128) off S1x128.size inb).toLoadRect
        (View.write (Elt F) ((arg5.slice (Rect.unit (s := S2x128) off S1x128.size inb) hs).squeeze S128 hq).view G p Finset.univ)
      = fun x => p ((Shape.reshapeEquiv hq.numel_eq).symm x) := by
  show (arg5.view.slice (Rect.unit (s := S2x128) off S1x128.size inb)).read (Elt F)
      (((arg5.view.slice (Rect.unit (s := S2x128) off S1x128.size inb)).reshape S128 hq.numel_eq).write (Elt F) G p Finset.univ) = _
  rw [View.write_reshape_univ, View.read_write_univ]
  rfl

/-- A copy landed in the other slot is not seen by a load of this one. -/
theorem read_slot_other (arg5 : Memref sig .tc .vmem S2x128 .f32) (off off' : Fin 2 → ℕ)
    (inb : ∀ a, off a + S1x128.size a ≤ S2x128.size a) (inb' : ∀ a, off' a + S1x128.size a ≤ S2x128.size a)
    (hs : ∀ a, (Rect.unit (s := S2x128) off' S1x128.size inb').stride a = 1) (hq : S1x128.Squeezes S128)
    (G : arg5.view.ty.Contents (Elt F)) (p : S128.Idx → Elt F .f32)
    (hsep : off 0 + S1x128.size 0 ≤ off' 0 ∨ off' 0 + S1x128.size 0 ≤ off 0) :
    View.readAt (Elt F) arg5.view (Rect.unit (s := S2x128) off S1x128.size inb).toLoadRect
        (View.write (Elt F) ((arg5.slice (Rect.unit (s := S2x128) off' S1x128.size inb') hs).squeeze S128 hq).view G p Finset.univ)
      = View.readAt (Elt F) arg5.view (Rect.unit (s := S2x128) off S1x128.size inb).toLoadRect G := by
  show (arg5.view.slice (Rect.unit (s := S2x128) off S1x128.size inb)).read (Elt F)
      (((arg5.view.slice (Rect.unit (s := S2x128) off' S1x128.size inb')).reshape S128 hq.numel_eq).write (Elt F) G p Finset.univ)
    = (arg5.view.slice (Rect.unit (s := S2x128) off S1x128.size inb)).read (Elt F) G
  rw [View.write_reshape_univ]
  refine View.read_slice_write_slice_of_disjoint _ _ _ _ _ ?_
  rw [View.setOn_univ, View.set_slice, View.set_slice]
  exact (Finset.disjoint_map _).mpr (Rect.unit_disjoint 0 hsep)

/-! ## What a copy delivers, and the index word it was named by -/

/-- The copy of the table row a word below the row count names delivers that row. -/
theorem copy_row (c : Dev nD) (fh : HbBuf (F := F) c) (w : BitVec 32) (hw : w.toNat < 100001) (off : Fin 2 → ℕ)
    (heq : off = ![w.toNat, 0]) (inb : ∀ a, off a + S1x128.size a ≤ S100001x128.size a)
    (hs : ∀ a, (Rect.unit (s := S100001x128) off S1x128.size inb).stride a = 1) (hq : S1x128.Squeezes S128) :
    (fun x => (ReadAs.same (Val := Elt F)).apply
        (View.read (Elt F) ((hbM.slice (Rect.unit (s := S100001x128) off S1x128.size inb) hs).squeeze S128 hq).view fh)
        ((Shape.reshapeEquiv hq.numel_eq).symm x))
      = tabRow (hbM.view.read (Elt F) fh) w := by
  subst heq
  funext x
  rw [tabRow, dif_pos hw]
  show View.read (Elt F) ((hbM.view.slice (Rect.unit (s := S100001x128) ![w.toNat, 0] S1x128.size inb)).reshape S128 hq.numel_eq) fh
      ((Shape.reshapeEquiv hq.numel_eq).symm x)
    = View.read (Elt F) hbM.view fh ((Rect.unit (s := S100001x128) ![w.toNat, 0] S1x128.size (row_inb w hw)).idx x)
  rw [View.read_apply, View.read_apply]
  simp only [View.emb_reshape, View.emb_slice, Function.Embedding.trans_apply, Equiv.coe_toEmbedding, Equiv.apply_symm_apply]
  rfl

/-- The index word the body loads at (b, k) is the index block's entry there. -/
theorem word_eq (arg1 : Memref sig .tc .smem S128x50 .i32) (harg1 : arg1.IsWhole) (x0 : Vec F S128x50 .i32)
    (k : Fin k0_t1_loop.trips) (b : Fin 128) (off : Fin 2 → ℕ) [co : Idealize.ShloMosaic.ClosedOff off]
    (hform : co.form = ![b.val, k.val])
    (inb : ∀ a, off a + S1x1.size a ≤ S128x50.size a) (h1 : 0 < (Rect.unit (s := S128x50) off S1x1.size inb).shape.numel) :
    View.readAt (Elt F) arg1.view (Rect.unit (s := S128x50) off S1x1.size inb).toLoadRect (harg1.unread x0) (Shape.Idx.first h1)
      = x0 (ix2 b (tripIx k)) := by
  have heq : off = ![b.val, k.val] := co.eq.trans hform
  subst heq
  rw [harg1.readAt_unread]
  congr 1
  funext a
  apply Fin.ext
  fin_cases a
  · show b.val + 1 * 0 = b.val; omega
  · show k.val + 1 * 0 = k.val; omega

/-! ## The trip's stores as a list of whole rows -/

/-- What trip k stores in row b: the body's sum of row b as found and the table row the word at (b, k) names. -/
def rowPay (x0 : Vec F S128x50 .i32) (T : S100001x128.Idx → Elt F .f32) (k : Fin 50) (X : S128x128.Idx → Elt F .f32)
    (b : Fin 128) : Vec F S1x128 .f32 :=
  k0_pay3 (accRow X b) (tabRow T (x0 (ix2 b k)))

/-- The body's sum is the row's payload once each operand is identified: the accumulator operand (already cast to
the row's 128 lanes) with the row as found, the buffer operand with the table row the word names. -/
theorem rowPay_of (x0 : Vec F S128x50 .i32) (T : S100001x128.Idx → Elt F .f32) (k : Fin 50) (X : S128x128.Idx → Elt F .f32)
    (b : Fin 128) (a' : FVec F S128 .f32) (t : Vec F S1x128 .f32)
    (ha : a' = shapeCast S128 (accRow X b) shapeCasts_S1x128_S128) (ht : t = tabRow T (x0 (ix2 b k))) :
    shapeCast S1x128 (addf a' (shapeCast S128 t shapeCasts_S1x128_S128)) shapeCasts_S128_S1x128 = rowPay x0 T k X b := by
  subst ha ht; rfl

/-- `L` is the stores of rows n-1, …, 0, newest first, each a whole row, row b's payload being `P b`. -/
inductive RowsOK (P : Fin 128 → Vec F S1x128 .f32) : ℕ → List (View.Piece (Elt F) S128x128 .f32) → Prop
  | nil : RowsOK P 0 []
  | cons (n : ℕ) (hn : n < 128) (inb : ∀ a, (![n, 0] : Fin 2 → ℕ) a + S1x128.size a ≤ S128x128.size a)
      (w : (Rect.unit (s := S128x128) ![n, 0] S1x128.size inb).shape.Idx → Elt F .f32)
      (L : List (View.Piece (Elt F) S128x128 .f32)) :
      w = P ⟨n, hn⟩ → RowsOK P n L →
      RowsOK P (n + 1) ((⟨Rect.unit (s := S128x128) ![n, 0] S1x128.size inb, w⟩ : View.Piece (Elt F) S128x128 .f32) :: L)

/-- Read back after such a list of stores, a row below n holds its payload. -/
theorem RowsOK.read {P : Fin 128 → Vec F S1x128 .f32} (v : View sig .tc .vmem S128x128 .f32) (f : v.ty.Contents (Elt F)) :
    ∀ {n : ℕ} {L : List (View.Piece (Elt F) S128x128 .f32)}, RowsOK P n L → ∀ y : S128x128.Idx, (y 0).val < n →
      v.read (Elt F) (v.writes (Elt F) f L) y = P (y 0) (ix2 0 (y 1)) := by
  intro n L h
  induction h with
  | nil => intro y hy; exact absurd hy (Nat.not_lt_zero _)
  | cons n hn inb w L hw hL ih =>
    intro y hy
    by_cases hyn : (y 0).val = n
    · rw [View.read_writes_cons_rows_of_mem v f inb w L y (ix2 0 (y 1)) rfl (by rw [hyn]; rfl) rfl, hw]
      have : (⟨n, hn⟩ : Fin 128) = y 0 := Fin.ext hyn.symm
      rw [this]
    · rw [View.read_writes_cons_rows_of_not_mem v f inb w L y rfl (W := 1) rfl (by omega)]
      exact ih y (by omega)

set_option hygiene false in
/-- The payload of a row b ≤ 126: the accumulator operand is the row as found; the buffer operand is read past the
newest copy (row b + 1's, into the other slot) at the row's own copy. -/
local macro "trip_row" : tactic => `(tactic|
  (refine rowPay_of _ _ _ _ _ _ _ ?_ ?_
   · rfl
   · refine (read_slot_other arg5 _ _ _ _ _ _ _ _ (by decide)).trans ((read_slot_same arg5 _ _ _ _ _ _).trans ?_)
     exact copy_row c fh _ (hx _) _ (congrArg (fun v : BitVec 32 => ![v.toNat, 0]) (word_eq arg1 harg1 x0 k _ _ rfl _ _)) _ _ _))

set_option hygiene false in
/-- The payload of row 127: the newest copy is the row's own. -/
local macro "trip_row_last" : tactic => `(tactic|
  (refine rowPay_of _ _ _ _ _ _ _ ?_ ?_
   · rfl
   · refine (read_slot_same arg5 _ _ _ _ _ _).trans ?_
     exact copy_row c fh _ (hx _) _ (congrArg (fun v : BitVec 32 => ![v.toNat, 0]) (word_eq arg1 harg1 x0 k _ _ rfl _ _)) _ _ _))

open Lean Elab Tactic Meta in
/-- Unfold the named tails of the trip's list of stores. -/
local elab "unfold_store_tails" : tactic => do
  let g ← getMainGoal
  let t ← instantiateMVars (← g.getType)
  let t' ← Meta.deltaExpand t (fun n => match n with
    | .str p s => p.components.any (· == `sl) && s.startsWith "H4_"
    | _ => false)
  replaceMainGoal [← g.replaceTargetDefEq t']

set_option maxHeartbeats 4000000 in
/-- The trip's stores are rows 127, …, 0, newest first, each a whole row holding the row's payload. -/
theorem tripRows [∀ e, Nonempty (Elt F e)] (c : Dev nD) (i : grid0.Coords) (arg1 : Memref sig .tc .smem S128x50 .i32) (harg1 : arg1.IsWhole)
    (arg3 : Memref sig .tc .vmem S128x128 .f32) (harg3 : arg3.IsWhole) (arg4 : Memref sig .tc .vmem S128x128 .f32) (harg4 : arg4.IsWhole)
    (arg5 : Memref sig .tc .vmem S2x128 .f32) (harg5 : arg5.IsWhole)
    (x0 : Vec F S128x50 .i32) (fh : HbBuf (F := F) c) (hx : ∀ y, (x0 y : BitVec 32).toNat < 100001) (k : Fin k0_t1_loop.trips)
    (f4 : arg4.view.ty.Contents (Elt F)) (f5 : arg5.view.ty.Contents (Elt F)) :
    RowsOK (rowPay x0 (hbM.view.read (Elt F) fh) (tripIx k) (arg4.view.read (Elt F) f4)) 128
      (tripRun c i arg1 harg1 arg3 harg3 arg4 harg4 arg5 harg5 x0 fh hx k f4 f5).1 := by
  unfold tripRun
  dsimp only
  unfold_store_tails
  refine RowsOK.cons _ (by decide) _ _ _ ?_ ?_
  · trip_row_last
  iterate 127 (refine RowsOK.cons _ (by decide) _ _ _ ?_ ?_; · trip_row)
  exact RowsOK.nil

theorem trip_value [∀ e, Nonempty (Elt F e)] (c : Dev nD) (i : grid0.Coords) (arg1 : Memref sig .tc .smem S128x50 .i32) (harg1 : arg1.IsWhole)
    (arg3 : Memref sig .tc .vmem S128x128 .f32) (harg3 : arg3.IsWhole) (arg4 : Memref sig .tc .vmem S128x128 .f32) (harg4 : arg4.IsWhole)
    (arg5 : Memref sig .tc .vmem S2x128 .f32) (harg5 : arg5.IsWhole)
    (x0 : Vec F S128x50 .i32) (fh : HbBuf (F := F) c) (hx : ∀ y, (x0 y : BitVec 32).toNat < 100001) (k : Fin k0_t1_loop.trips)
    (f4 : arg4.view.ty.Contents (Elt F)) (f5 : arg5.view.ty.Contents (Elt F)) :
    arg4.view.read (Elt F) (arg4.view.writes (Elt F) f4 (tripRun c i arg1 harg1 arg3 harg3 arg4 harg4 arg5 harg5 x0 fh hx k f4 f5).1)
      = accNext x0 (hbM.view.read (Elt F) fh) (tripIx k) (arg4.view.read (Elt F) f4) := by
  funext y
  rw [(tripRows c i arg1 harg1 arg3 harg3 arg4 harg4 arg5 harg5 x0 fh hx k f4 f5).read arg4.view f4 y (y 0).isLt]
  rfl

end Cert.KernelIdeal.Bag

end
-- ==== Proof.KernelIdealBody.lean ====
/-
  The kernel body's run at one grid point, over any staging memrefs: from the index block, the output's
  staging buffer and the two scratch buffers at anything, the two cells at zero and the table whole, the body
  runs to its return with the output's buffer at the accumulator after all 50 trips, everything it only
  reads as it was. The body zeroes the accumulator, makes the 50 trips under the invariant "the accumulator
  reads `accAt k` before trip k", and copies the accumulator to the output's buffer.
-/
import proofs.«400025_j42666205119354_2_alg».proof.Proof.KernelIdealTripValue
import Idealize.ShloMosaic.Lib.Pipeline.Value

set_option maxRecDepth 16384

noncomputable section

namespace Cert.KernelIdeal.Bag

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What is left of the table's share once the read shares of cells 4 and 5 are set aside. -/
abbrev hbRest (c : Dev nD) (f : HbBuf (F := F) c) : sProp 𝕄 :=
  iprop((hbM.view.loc (c : Thread nD τ) ↦{Transfers.shareDrop fullShare 6} f)
    ∗ hbTok c 0 f ∗ hbTok c 1 f ∗ hbTok c 2 f ∗ hbTok c 3 f)

/-- The table whole is the two cells' read shares and the rest. -/
theorem hb_split (c : Dev nD) (f : HbBuf (F := F) c) :
    hbPt c f ⊣⊢ iprop(hbRest c f ∗ hbTok c 4 f ∗ hbTok c 5 f) := by
  have h := Transfers.pointsTo_toks_range (Ix := Unit) (Name := ℕ) (U := Pipeline.UD sig nD τ) (Lvl := ℕ)
    (ℓ := hbM.view.loc (c : Thread nD τ)) (S := Finset.univ) (f := f) fullShare 6
  rw [BI.bigSep_eq_bigSepL_of_eq [0, 1, 2, 3, 4, 5] (by decide) (by decide)] at h
  have h' : hbPt c f ⊣⊢ iprop((hbM.view.loc (c : Thread nD τ) ↦{Transfers.shareDrop fullShare 6} f)
      ∗ hbTok c 0 f ∗ hbTok c 1 f ∗ hbTok c 2 f ∗ hbTok c 3 f ∗ hbTok c 4 f ∗ hbTok c 5 f) := h
  constructor
  · refine h'.1.trans ?_
    iintro ⟨Hd, H0, H1, H2, H3, H4, H5⟩
    isplitl [Hd H0 H1 H2 H3]
    · isplitl [Hd]; · iexact Hd
      isplitl [H0]; · iexact H0
      isplitl [H1]; · iexact H1
      isplitl [H2]; · iexact H2
      iexact H3
    isplitl [H4]; · iexact H4
    iexact H5
  · refine BIBase.Entails.trans ?_ h'.2
    iintro ⟨⟨Hd, H0, H1, H2, H3⟩, H4, H5⟩
    isplitl [Hd]; · iexact Hd
    isplitl [H0]; · iexact H0
    isplitl [H1]; · iexact H1
    isplitl [H2]; · iexact H2
    isplitl [H3]; · iexact H3
    isplitl [H4]; · iexact H4
    iexact H5

/-- Before trip `k`: the index block as it was, the accumulator reading `accAt k`, the two-row buffer at anything,
    both cells at zero, the table under the two cells' read shares, the waits recorded. -/
def loopInv (c : Dev nD) (arg1 : Memref sig .tc .smem S128x50 .i32) (harg1 : arg1.IsWhole)
    (arg4 : Memref sig .tc .vmem S128x128 .f32) (arg5 : Memref sig .tc .vmem S2x128 .f32)
    (x0 : Vec F S128x50 .i32) (fh : HbBuf (F := F) c) (k : ℕ) (_ : Unit) : sProp 𝕄 :=
  iprop((arg1.view.loc (c : Thread nD τ) ↦[arg1.view.set]{fullShare} harg1.unread x0)
    ∗ (∃ f4, (arg4.view.loc (c : Thread nD τ) ↦[arg4.view.set]{fullShare} f4)
        ∗ ⌜arg4.view.read (Elt F) f4 = accAt x0 (hbM.view.read (Elt F) fh) k⌝)
    ∗ (∃ f5, arg5.view.loc (c : Thread nD τ) ↦[arg5.view.set]{fullShare} f5)
    ∗ semVal ((c : Thread nD τ), SemLoc.dma 4) 0 ∗ semVal ((c : Thread nD τ), SemLoc.dma 5) 0
    ∗ hbTok c 4 fh ∗ hbTok c 5 fh ∗ (∃ W, owes (c : Thread nD τ) 0 W))

set_option maxHeartbeats 4000000 in
/-- THE BODY'S RUN. -/
theorem kernelRun [∀ e, Nonempty (Elt F e)] (c : Dev nD) (i : grid0.Coords) (arg1 : Memref sig .tc .smem S128x50 .i32) (harg1 : arg1.IsWhole)
    (arg3 : Memref sig .tc .vmem S128x128 .f32) (harg3 : arg3.IsWhole) (arg4 : Memref sig .tc .vmem S128x128 .f32) (harg4 : arg4.IsWhole)
    (arg5 : Memref sig .tc .vmem S2x128 .f32) (harg5 : arg5.IsWhole)
    (x0 : Vec F S128x50 .i32) (fh : HbBuf (F := F) c) (hx : ∀ y, (x0 y : BitVec 32).toNat < 100001)
    (W : Waits sig Unit) (K : PUnit → sProp 𝕄) :
    iprop(owns (c : Thread nD τ) arg1 fullShare x0 ∗ (∃ d, owns (c : Thread nD τ) arg3 fullShare d)
        ∗ (∃ d, owns (c : Thread nD τ) arg4 fullShare d) ∗ (∃ d, owns (c : Thread nD τ) arg5 fullShare d)
        ∗ semVal ((c : Thread nD τ), SemLoc.dma 4) 0 ∗ semVal ((c : Thread nD τ), SemLoc.dma 5) 0 ∗ hbPt c fh ∗ owes (c : Thread nD τ) 0 W
        ∗ (iprop(owns (c : Thread nD τ) arg1 fullShare x0 ∗ owns (c : Thread nD τ) arg3 fullShare (accAt x0 (hbM.view.read (Elt F) fh) 50)
            ∗ (∃ d, owns (c : Thread nD τ) arg4 fullShare d) ∗ (∃ d, owns (c : Thread nD τ) arg5 fullShare d)
            ∗ semVal ((c : Thread nD τ), SemLoc.dma 4) 0 ∗ semVal ((c : Thread nD τ), SemLoc.dma 5) 0 ∗ hbPt c fh ∗ (∃ W', owes (c : Thread nD τ) 0 W')) -∗ K ⟨⟩))
      ⊢ wp frame (wpE (defs₀ (F := F)) Variants.none c none) Set.univ
          (cc0__gather_sum_kernel i arg1 harg1 hbM (Memref.isWhole_whole _) arg3 harg3 arg4 harg4 arg5 harg5 cc0_scratch2) K := by
  simp only [cc0__gather_sum_kernel_eq_skeleton]; unfold cc0__gather_sum_kernel_skel
  unfold owns
  iintro ⟨⟨%f1, %hf1, H1⟩, ⟨%d3, %f3, -, H3⟩, ⟨%d4, %f4, -, H4⟩, ⟨%d5, %f5, -, H5⟩, Hq0, Hq1, Hh, HW, Hk⟩
  obtain rfl := harg1.eq_unread hf1
  ihave Hs := (hb_split c fh).1 $$ Hh
  icases Hs with ⟨Hr, Hh4, Hh5⟩
  sl_exec
  sl_for (loopInv c arg1 harg1 arg4 arg5 x0 fh) $$ [H1 H4 H5 Hq0 Hq1 Hh4 Hh5 HW]
  case region =>
    intro k a
    unfold loopInv
    iintro ⟨H1, ⟨%g4, H4, %hg4⟩, ⟨%g5, H5⟩, Hq0, Hq1, Hh4, Hh5, ⟨%W1, HW⟩⟩
    iapply ((tripRun c i arg1 harg1 arg3 harg3 arg4 harg4 arg5 harg5 x0 fh hx k g4 g5).2 W1 _)
    isplitl [H1]; · iexact H1
    isplitl [H4]; · iexact H4
    isplitl [H5]; · iexact H5
    isplitl [Hq0]; · iexact Hq0
    isplitl [Hq1]; · iexact Hq1
    isplitl [Hh4]; · iexact Hh4
    isplitl [Hh5]; · iexact Hh5
    isplitl [HW]; · iexact HW
    iintro ⟨H1, H4, ⟨%g5', H5⟩, Hq0, Hq1, Hh4, Hh5, ⟨%W2, HW⟩⟩
    isplitl [H1]; · iexact H1
    isplitl [H4]
    · iexists _; isplitl [H4]; · iexact H4
      ipureintro
      rw [trip_value, hg4]; exact (accAt_succ x0 _ (tripIx k)).symm
    isplitl [H5]; · iexists _; iexact H5
    isplitl [Hq0]; · iexact Hq0
    isplitl [Hq1]; · iexact Hq1
    isplitl [Hh4]; · iexact Hh4
    isplitl [Hh5]; · iexact Hh5
    iexists _; iexact HW
  · unfold loopInv
    isplitl [H1]; · iexact H1
    isplitl [H4]
    · iexists _; isplitl [H4]; · iexact H4
      ipureintro
      exact (View.read_writes_junk_eq_canon _ _).trans (View.canon_unit_zero (funext fun a => by fin_cases a <;> rfl) _ _)
    isplitl [H5]; · iexists _; iexact H5
    isplitl [Hq0]; · iexact Hq0
    isplitl [Hq1]; · iexact Hq1
    isplitl [Hh4]; · iexact Hh4
    isplitl [Hh5]; · iexact Hh5
    iexists _; iexact HW
  iintro %a HI
  unfold loopInv
  icases HI with ⟨H1, ⟨%g4, H4, %hg4⟩, ⟨%g5, H5⟩, Hq0, Hq1, Hh4, Hh5, ⟨%W1, HW⟩⟩
  sl_exec
  sl_step
  iapply Hk
  isplitl [H1]
  · iexists _; isplitr; · ipureintro; exact harg1.read_unread _
    iexact H1
  isplitl [H3]
  · iexists _; isplitr; swap; · iexact H3
    ipureintro
    have hz : (![0, 0] : Fin 2 → ℕ) = fun _ => 0 := funext fun a => by fin_cases a <;> rfl
    refine (View.read_writes_eq_canon _ _ _ fun y => ⟨_, List.mem_singleton_self _, View.mem_set_unit_zero hz inb_S128x128_S128x128_0_0 y⟩).trans ?_
    refine (View.canon_unit_zero hz inb_S128x128_S128x128_0_0 _).trans ?_
    refine (View.ld_unit_zero hz inb_S128x128_S128x128_0_0 (arg4.view.read (Elt F) g4)).trans ?_
    exact hg4.trans (congrArg (accAt x0 _) trips_eq)
  isplitl [H4]
  · iexists _, _; isplitr; swap; · iexact H4
    ipureintro; rfl
  isplitl [H5]
  · iexists _, _; isplitr; swap; · iexact H5
    ipureintro; rfl
  isplitl [Hq0]; · iexact Hq0
  isplitl [Hq1]; · iexact Hq1
  isplitl [Hr Hh4 Hh5]
  · iapply (hb_split c fh).2
    isplitl [Hr]; · iexact Hr
    isplitl [Hh4]; · iexact Hh4
    iexact Hh5
  iexists _; iexact HW

end Cert.KernelIdeal.Bag

end
-- ==== Proof.KernelIdealFrame.lean ====
/-
  The launch side of the kernel's frame. The one pallas_call runs on a grid of 128 points; the pipeline
  stages the index block (window 0) and the output block (window 1), while the table stays in HBM and the
  body copies rows of it into its own scratch on its own two DMA cells, all waited within the point. Given
  that every index word of every block names a table row, the body's run at a point discharges the
  pipeline's body obligation with the output's staging buffer left at the accumulator after all 50 trips,
  and the launch theorem for a body with transfers of its own gives the run of @main and the frame.
-/
import proofs.«400025_j42666205119354_2_alg».proof.Proof.KernelIdealBody

set_option maxRecDepth 16384

noncomputable section

namespace Cert.KernelIdeal.Bag

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core c's TensorCore buffers when the region is entered: as launched (@main is the region alone). -/
abbrev V (c : Dev nD) (b : Ref sig .tc) : Buf (Elt F) ((c : Thread nD τ).loc b) := m ((c : Thread nD τ).loc b)

/-- @main up to the region: the region alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The index window's current staging buffer holds its block at every point, fetched there or not, for any
    proof data whose array is the region-entry contents and whose body leaves the block in place: the window
    is uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline's frame post, read at
    the two argument arrays (the staged index array is an input, the table is staged by no window), is the
    frame claim's post. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The staging and scratch memrefs at a point -/

/-- Each window's current staging memref at point t, spelled as the pipeline passes it, and its wholeness. -/
abbrev ms0_0 (t : Fin cfg0.N) : Memref sig .tc .smem S128x50 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S128x128 .f32 := Memref.whole cc0_scratch0
abbrev scM0_1 : Memref sig .tc .vmem S2x128 .f32 := Memref.whole cc0_scratch1

/-- The body's own DMA semaphores, cell by cell: none is a window's. -/
abbrev osem0 : Fin 2 → SemLoc sig := fun j => (![SemLoc.dma 4, SemLoc.dma 5] : Fin 2 → SemLoc sig) j
theorem ownSemFacts0 : Pipeline.OwnSemFacts spec0 osem0 := by decide
/-- The HBM operand the body moves, as a reference: unscoped, no window's array. -/
def H0 : Finset (Ref sig .tc) := {main_arg1}
theorem H0_sub : H0 ⊆ Pipeline.restRefs sig spec0 := by decide

/-! ## What the output holds after each point -/

/-- The index block at point t, as the vector of words the body reads. -/
abbrev idxAt (c : Dev nD) (t : Fin cfg0.N) : Vec F S128x50 .i32 := iblk m c 0 t

/-- What the output's staging buffer holds after the body at point t: the accumulator after all 50 trips over
    the point's index block and the table as launched. -/
def outsAt0 (c : Dev nD) (t : Fin cfg0.N) : Vec F S128x128 .f32 :=
  accAt (idxAt m c t) (hbM.view.read (Elt F) (V m c main_arg1)) 50

/-! ## The pipeline's proof data -/

/-- The proof data of the one pipeline on core c: the arrays as the region finds them; after the body at point
    t the index buffer at its block and the output's at outsAt0; the invariant of a body with transfers of its
    own (the scoped rest, the generator register, the own cells at zero, the table at its launch contents);
    nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => (outsAt0 m c t)
  Φ _ := Pipeline.ΦD osem0 spec0 H0 (V m) c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = (outsAt0 m c t) := by dsimp only [dats]

/-- The index window's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The invariant, conjunct by conjunct -/

/-- The own cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl

/-- The table's points-to at the launch contents, listed. -/
theorem hbmPts0_eq (c : Dev nD) :
    (bigSep H0 (fun b => ((c : Thread nD τ).loc b) ↦{fullShare} V m c b) : sProp 𝕄) = iprop(hbPt c (V m c main_arg1)) := by
  rw [BI.bigSep_eq_bigSepL_of_eq [main_arg1] (by decide) (by decide)]; rfl

/-- The invariant of a body with transfers of its own, conjunct by conjunct: the two scratch operands owned at
    some contents, the generator register at some state, the own cells at zero, the table at its launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r)
          ∗ iprop(semVal ((c : Thread nD τ), SemLoc.dma 4) 0 ∗ semVal ((c : Thread nD τ), SemLoc.dma 5) 0) ∗ iprop(hbPt c (V m c main_arg1))) := by
  rw [Pipeline.ΦD_eq, scopedRest0_eq, ownSems00_eq, hbmPts0_eq]; simp only [scM0_0, scM0_1, owns_whole]; try rfl

/-! ## The hypothesis of the frame -/

/-- Every index word of every block names a table row. -/
def Hx : Prop := ∀ (c : Dev nD) (t : Fin cfg0.N) (y : S128x50.Idx), ((idxAt m c t y : BitVec 32)).toNat < 100001

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any point: the index memref holds its block; so the body's run applies at that block and the
    table as launched; the invariant hands the body its two scratch buffers, its DMA cells at zero and the
    table, and takes them back as they were; the core's owes goes in at whatever the points before recorded and
    comes back with this point's waits; the output's buffer is left at the accumulator after all 50 trips. -/
theorem sound_body (hH : Hx m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    after0_0, after0_1]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outsAt0
  iintro ⟨⟨⟨HS0, HS1⟩, Hg, ⟨Hq0, Hq1⟩, Hh0⟩, ⟨%W, -, HW⟩, ⟨%d0, H0⟩, ⟨%d1, H1⟩⟩
  iapply (kernelRun c (grid0.coords t) _ _ _ _ _ _ _ _ (iblk m c 0 t) (V m c main_arg1) (hH c t) W _)
  isplitl [H0]; · iexact H0
  isplitl [H1]; · iexists _; iexact H1
  isplitl [HS0]; · iexact HS0
  isplitl [HS1]; · iexact HS1
  isplitl [Hq0]; · iexact Hq0
  isplitl [Hq1]; · iexact Hq1
  isplitl [Hh0]; · iexact Hh0
  isplitl [HW]; · iexact HW
  iintro ⟨H0, H1, HS0, HS1, Hq0, Hq1, Hh0, ⟨%W', HW'⟩⟩
  isplitl [HS0 HS1 Hg Hq0 Hq1 Hh0]
  · isplitl [HS0 HS1]
    · isplitl [HS0]; · iexact HS0
      iexact HS1
    isplitl [Hg]
    · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  iexact H1

/-- The pipeline's body obligation, at every point. -/
theorem body_obligation (hH : Hx m) (c : Dev nD) : BodyObligation (dats (F := F) m 0 c) (defs₀ (F := F)) Variants.none () Set.univ := fun t => by
  rw [bigSep_W0, bigSep_W0]
  exact sound_body m hH c t

/-! ## The run and the frame -/

set_option backward.isDefEq.respectTransparency.types false in
/-- At the compiled mesh, for any values, from any memory with zero counters, if every index word names a table
    row: every weakly fair execution of @main on the TensorCores terminates, and every final state has every
    array of the pipeline at what the proof data determine and every other unscoped buffer as the region
    found it. -/
theorem run_main (hH : Hx m) : θ_run defs (onTc (τ := τ) (main (F := F))) (s₀ m ρ) (Pipeline.FramePost cfgs (dats m) 0 (V m)) :=
  Pipeline.θ_run_frame_dma cfgs (dats m) (0 : Fin 1) launch0 osem0 defs₀ Variants.none ownSemFacts0 H0 H0_sub m ρ main
    (hbody := fun c => (body_obligation m hH c).loose) (hshare := fun c => (dats m 0 c).share_full fun _ => rfl)
    (howed := fun _ _ => rfl) (V := V m) (hmain := hmain m Variants.none) (hA := A_eq m)
    (hin := fun _ => .rfl) (hout := fun _ => .rfl)

/-- THE FRAME, given that every index word names a table row: the two argument arrays end as launched. -/
theorem frame (hH : Hx m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hH)

/-! ## The hypothesis from the index array's words -/

/-- A block of the index array reads that array's own words, so a bound on every word of the array bounds every
    word of every block. -/
theorem hx_of_idx (hidx : ∀ c : Dev nD, ∀ y, ((m ((c : Thread nD τ).loc main_arg0)) y : BitVec 32).toNat < 100001) : Hx m := by
  intro c t y
  unfold idxAt iblk
  rw [View.read_apply]
  exact hidx c _

end Cert.KernelIdeal.Bag

end
-- ==== Proof.KernelIdealValue.lean ====
/-
  The kernel's value with floats taken as extended reals.
  First the accumulator of the bag loop read at one entry: the body's sum is pointwise addition and a cast
  between a 128-lane vector and a one-row array keeps the lane, so one trip adds to entry (b, d) lane d of the
  table row that the index word at (b, k) names; the accumulator starts at the zero word everywhere, so after
  all 50 trips entry (b, d) is the zero word plus the sum over the 50 positions of bag b.
  Then from blocks to the array: at grid point t the index window holds rows 128 t .. 128 t + 127 of the index
  array and the output window is written back to the same rows of the output, so what point t writes back is
  block t of the bag sum of the two argument arrays; the 128 blocks cover the output's 16384 rows, so the
  output array ends holding the bag sum.
-/
import proofs.«400025_j42666205119354_2_alg».proof.Proof.Spec
import proofs.«400025_j42666205119354_2_alg».proof.Proof.KernelIdealBag
import proofs.«400025_j42666205119354_2_alg».proof.Proof.KernelIdealFrame
import Idealize.ShloMosaic.PureOps.Ideal
import Idealize.ShloMosaic.Lib.ValueIdx
import Idealize.ShloMosaic.Lib.ValueLayout
import Idealize.ShloMosaic.Lib.Pipeline.Value
import Mathlib.Algebra.BigOperators.Fin

set_option maxRecDepth 16384

noncomputable section

open scoped BigOperators

namespace Cert.KernelIdeal.BagValue

open Cert.KernelIdeal Cert.KernelIdeal.Gen Cert.KernelIdeal.Bag
open Idealize.ShloMosaic Idealize.ShloMosaic.TcCoe Idealize.ShloMosaic.ValueIdx
open Idealize.SL Idealize.SL.Sem

/-! ## One trip -/

/-- The body's sum of two one-row arrays, read at lane d: the sum of the two operands' lanes d. -/
theorem rowSum_apply (v w : Vec Ideal S1x128 .f32) (u : Fin 1) (d : Fin 128) :
    k0_pay3 v w (ix2 u d) = v (ix2 (0 : Fin 1) d) + w (ix2 (0 : Fin 1) d) := by
  unfold k0_pay3
  refine (shapeCast_a_1a_apply _ shapeCasts_S128_S1x128 u d).trans ?_
  refine (addf_apply _ _ _).trans ?_
  exact congrArg₂ (· + ·) (shapeCast_1a_a_apply v shapeCasts_S1x128_S128 d)
    (shapeCast_1a_a_apply w shapeCasts_S1x128_S128 d)

/-- Row b of a 128-row array, read at lane d, is the array's entry (b, d). -/
theorem accRow_apply (X : S128x128.Idx → Elt Ideal .f32) (b d : Fin 128) :
    accRow X b (ix2 (0 : Fin 1) d) = X (ix2 b d) := by
  unfold accRow
  show X _ = X _
  refine congrArg X (funext fun a => Fin.ext ?_)
  match a with
  | ⟨0, _⟩ => show b.val + 1 * 0 = b.val; omega
  | ⟨1, _⟩ => show 0 + 1 * d.val = d.val; omega

/-- The table row a word below 100001 names, read at lane d, is the table's entry (row of the word, d). -/
theorem tabRow_apply (T : S100001x128.Idx → Elt Ideal .f32) (v : BitVec 32) (h : v.toNat < 100001) (d : Fin 128) :
    tabRow T v (ix2 (0 : Fin 1) d) = T (ix2 (Cert.Spec.rowOf v) d) := by
  unfold tabRow
  rw [dif_pos h]
  show T _ = T _
  refine congrArg T (funext fun a => Fin.ext ?_)
  match a with
  | ⟨0, _⟩ =>
    show v.toNat + 1 * 0 = (Cert.Spec.rowOf v).val
    rw [Cert.Spec.rowOf_val_of_lt v h]; omega
  | ⟨1, _⟩ => show 0 + 1 * d.val = d.val; omega

/-- One trip, at entry (b, d): what was there plus lane d of the table row named by the word at (b, k). -/
theorem accNext_apply (x0 : Vec Ideal S128x50 .i32) (T : S100001x128.Idx → Elt Ideal .f32) (k : Fin 50)
    (X : S128x128.Idx → Elt Ideal .f32) (b d : Fin 128) (h : (x0 (ix2 b k) : BitVec 32).toNat < 100001) :
    accNext x0 T k X (ix2 b d) = X (ix2 b d) + T (ix2 (Cert.Spec.rowOf (x0 (ix2 b k))) d) := by
  show k0_pay3 (accRow X b) (tabRow T (x0 (ix2 b k))) (ix2 (0 : Fin 1) d) = _
  refine (rowSum_apply _ _ 0 d).trans ?_
  exact congrArg₂ (· + ·) (accRow_apply X b d) (tabRow_apply T _ h d)

/-! ## The start -/

/-- The accumulator starts at the zero word everywhere. -/
theorem acc0_apply (b d : Fin 128) : k0_pay1 (F := Ideal) (ix2 b d) = Ideal.ofBits .f32 0x00000000#32 := by
  unfold k0_pay1
  rw [shapeCast_self]
  rfl

/-! ## All 50 trips -/

/-- After k trips entry (b, d) is the zero word plus the first k named rows' lanes d. -/
theorem accAt_apply_le (x0 : Vec Ideal S128x50 .i32) (T : S100001x128.Idx → Elt Ideal .f32)
    (hx : ∀ y, (x0 y : BitVec 32).toNat < 100001) (b d : Fin 128) :
    ∀ (k : ℕ) (hk : k ≤ 50), accAt x0 T k (ix2 b d)
      = Ideal.ofBits .f32 0x00000000#32
        + ∑ l : Fin k, T (ix2 (Cert.Spec.rowOf (x0 (ix2 b (Fin.castLE hk l)))) d) := by
  intro k
  induction k with
  | zero =>
    intro hk
    rw [accAt_zero, Fin.sum_univ_zero, add_zero]
    exact acc0_apply b d
  | succ k ih =>
    intro hk
    have hk' : k ≤ 50 := Nat.le_of_succ_le hk
    have e := accAt_succ x0 T (⟨k, hk⟩ : Fin 50)
    rw [show accAt x0 T (k + 1) = accNext x0 T ⟨k, hk⟩ (accAt x0 T k) from e]
    rw [accNext_apply x0 T ⟨k, hk⟩ _ b d (hx _), ih hk', Fin.sum_univ_castSucc, add_assoc]
    rfl

/-- After all 50 trips entry (b, d) is the zero word plus the sum over bag b of the named rows' lanes d. -/
theorem accAt_apply (x0 : Vec Ideal S128x50 .i32) (T : S100001x128.Idx → Elt Ideal .f32)
    (hx : ∀ y, (x0 y : BitVec 32).toNat < 100001) (b d : Fin 128) :
    accAt x0 T 50 (ix2 b d)
      = Ideal.ofBits .f32 0x00000000#32 + ∑ l : Fin 50, T (ix2 (Cert.Spec.rowOf (x0 (ix2 b l))) d) :=
  accAt_apply_le x0 T hx b d 50 (le_refl 50)

/-! ## From blocks to the array -/

open Idealize.ShloMosaic.Pipeline (Dat)

/-- The two index maps, decided over the grid: at point t both windows are at block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Block t of the index array, read at (b, k), is the array's word at (128 t + b, k). -/
theorem idxBlock_apply (c : Dev nD) (A0 : Buf (Elt Ideal) ((c : Thread nD τ).loc main_arg0)) (t : Fin cfg0.N)
    (x : S128x50.Idx) (k : S16384x50.Idx) (hk0 : (k 0).val = 128 * t.val + (x 0).val) (hk1 : (k 1).val = (x 1).val) :
    (((cfg0.win 0).blk t).view.read (Elt Ideal) A0 : S128x50.Idx → Elt Ideal .i32) x
      = (A0 : S16384x50.Idx → Elt Ideal .i32) k := by
  obtain ⟨e0, e1, -, -⟩ := idx_facts t
  rw [View.read_apply]
  show A0 _ = A0 _
  congr 1
  funext a
  apply Fin.ext
  match a with
  | ⟨0, _⟩ => show win0_0.index t (0 : Fin 2) * 128 + 1 * (x 0).val = (k 0).val; rw [e0, hk0]; omega
  | ⟨1, _⟩ => show win0_0.index t (1 : Fin 2) * 50 + 1 * (x 1).val = (k 1).val; rw [e1, hk1]; omega

/-- Block t of the output array, read at (b, d), is the array's entry (128 t + b, d). -/
theorem outBlock_apply (c : Dev nD) (A1 : Buf (Elt Ideal) ((c : Thread nD τ).loc main_v0)) (t : Fin cfg0.N)
    (x : S128x128.Idx) (k : S16384x128.Idx) (hk0 : (k 0).val = 128 * t.val + (x 0).val) (hk1 : (k 1).val = (x 1).val) :
    (((cfg0.win 1).blk t).view.read (Elt Ideal) A1 : S128x128.Idx → Elt Ideal .f32) x
      = (A1 : S16384x128.Idx → Elt Ideal .f32) k := by
  obtain ⟨-, -, e0, e1⟩ := idx_facts t
  rw [View.read_apply]
  show A1 _ = A1 _
  congr 1
  funext a
  apply Fin.ext
  match a with
  | ⟨0, _⟩ => show win0_1.index t (0 : Fin 2) * 128 + 1 * (x 0).val = (k 0).val; rw [e0, hk0]; omega
  | ⟨1, _⟩ => show win0_1.index t (1 : Fin 2) * 128 + 1 * (x 1).val = (k 1).val; rw [e1, hk1]; omega

/-- An index of the output array is in point t's block iff each coordinate is in the block's range. -/
theorem mem_blk (t : Fin cfg0.N) (i : S16384x128.Idx) :
    i ∈ ((cfg0.win 1).blk t).view.set ↔ ∀ a : Fin 2, win0_1.index t a * S128x128.size a ≤ (i a).val ∧ (i a).val < win0_1.index t a * S128x128.size a + S128x128.size a := by
  show i ∈ ((View.whole main_v0).slice (win0_1.rect t)).set ↔ _
  rw [View.set_slice_whole, Rect.mem_set_unit]
  exact Iff.rfl

/-- Every row of the output lies in some point's block: row r in the block of point r / 128. -/
theorem cover (i : S16384x128.Idx) :
    ∃ t : Fin cfg0.N, (cfg0.win 1).flush t = true ∧ i ∈ ((cfg0.win 1).blk t).view.set := by
  have hN : cfg0.N = 128 := N_0
  have hi0 : (i 0).val < 16384 := (i 0).isLt
  have hi1 : (i 1).val < 128 := (i 1).isLt
  refine ⟨⟨(i 0).val / 128, by rw [hN]; omega⟩, flush0_1 _, ?_⟩
  rw [mem_blk]
  obtain ⟨-, -, e0, e1⟩ := idx_facts ⟨(i 0).val / 128, by rw [hN]; omega⟩
  intro a
  match a with
  | ⟨0, _⟩ =>
    show win0_1.index _ (0 : Fin 2) * 128 ≤ (i 0).val ∧ (i 0).val < win0_1.index _ (0 : Fin 2) * 128 + 128
    rw [e0]; show (i 0).val / 128 * 128 ≤ (i 0).val ∧ (i 0).val < (i 0).val / 128 * 128 + 128; omega
  | ⟨1, _⟩ =>
    show win0_1.index _ (1 : Fin 2) * 128 ≤ (i 1).val ∧ (i 1).val < win0_1.index _ (1 : Fin 2) * 128 + 128
    rw [e1]; omega

variable (m : (ℓ : Loc nD τ sig) → Buf (Elt Ideal) ℓ)

/-- Row 128 t + b of a 16384-row array, for a point t of the grid and a row b of a block. -/
def rowAt (t : Fin cfg0.N) (b : Fin 128) : Fin 16384 :=
  ⟨128 * t.val + b.val, by have hN : cfg0.N = 128 := N_0; have := t.isLt; have := b.isLt; omega⟩

/-- The accumulator after all 50 trips over block t of an index array and a table, at (b, d): the bag sum of
    the index array and the table at (128 t + b, d). -/
theorem accAt_block (inp : IVec Cert.Spec.SIdx 32) (w : FVec Ideal Cert.Spec.STab .f32) (t : Fin cfg0.N)
    (x0 : Vec Ideal S128x50 .i32) (hx0 : ∀ (b : Fin 128) (l : Fin 50), x0 (ix2 b l) = inp (ix2 (rowAt t b) l))
    (hx : ∀ y, (x0 y : BitVec 32).toNat < 100001) (b d : Fin 128) :
    accAt x0 w 50 (ix2 b d) = Cert.Spec.G inp w (ix2 (rowAt t b) d) := by
  rw [accAt_apply x0 w hx b d]
  show _ = Ideal.ofBits .f32 0x00000000#32 + ∑ l : Fin 50, w (ix2 (Cert.Spec.rowOf (inp (ix2 (rowAt t b) l))) d)
  refine congrArg (Ideal.ofBits .f32 0x00000000#32 + ·) (Finset.sum_congr rfl fun l _ => ?_)
  rw [hx0 b l]

/-- What point t leaves in the output's buffer, at (b, d): the bag sum of the two argument arrays at
    (128 t + b, d). -/
theorem outsAt0_apply (hH : Hx m) (c : Dev nD) (t : Fin cfg0.N) (b d : Fin 128) :
    outsAt0 m c t (ix2 b d) = Cert.Spec.G (V m c main_arg0) (V m c main_arg1) (ix2 (rowAt t b) d) := by
  unfold outsAt0
  exact accAt_block (V m c main_arg0) (V m c main_arg1) t (idxAt m c t)
    (fun b l => idxBlock_apply c (V m c main_arg0) t (ix2 b l) (ix2 (rowAt t b) l) rfl rfl) (hH c t) b d

/-- What point t writes back is block t of the bag sum of the two argument arrays. -/
theorem flushed_eq (hH : Hx m) (c : Dev nD) (t : Fin cfg0.N) :
    (dats m 0 c).flushed 1 t
      = ((cfg0.win 1).blk t).view.read (Elt Ideal) (Cert.Spec.G (V m c main_arg0) (V m c main_arg1)) := by
  show (cfg0.win 1).cut (grid0.coords t) ((dats m 0 c).after 1 t) = _
  rw [after0_1]
  funext j
  obtain ⟨b, d, rfl⟩ : ∃ (b : Fin 128) (d : Fin 128), j = (ix2 b d : S128x128.Idx) := ⟨j 0, j 1, eq_ix2 j⟩
  show outsAt0 m c t (ix2 b d) = _
  rw [outsAt0_apply m hH c t b d]
  exact (outBlock_apply c (Cert.Spec.G (V m c main_arg0) (V m c main_arg1)) t (ix2 b d) (ix2 (rowAt t b) d) rfl rfl).symm

/-- THE OUTPUT ARRAY after the run is the bag sum of the two argument arrays. -/
theorem final (hH : Hx m) (c : Dev nD) :
    (dats (F := Ideal) m 0 c).arrAt 1 cfg0.N = Cert.Spec.G (V m c main_arg0) (V m c main_arg1) :=
  (dats m 0 c).arrAt_eq_of_cover 1 (Cert.Spec.G (V m c main_arg0) (V m c main_arg1))
    (fun t _ => flushed_eq m hH c t) cover

/-! ## The run, read -/

/-- THE KERNEL'S RUN with its result named: if every index word of every block names a table row, every weakly
    fair execution of @main terminates with the output array at the bag sum of the two argument arrays as
    launched, and the two argument arrays as launched. -/
theorem run_value (ρ : Dev nD → PrngReg) (hH : Hx m) :
    θ_run (defs (F := Ideal)) (onTc (τ := τ) (main (F := Ideal))) ⟨m, fun _ => 0, ρ⟩ (fun r => ∀ c : Dev nD,
      r.2.mem ((c.tc : Thread nD τ).loc main_v0)
          = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 1).trans (final m hH c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ hH)

end Cert.KernelIdeal.BagValue

end
-- ==== Proof.lean ====
/-
  An embedding-bag sum: result[r, d] is the sum, over the 50 positions l of bag r, of lane d of the table row that
  the index word input[r, l] names. The kernel walks the grid of 128 blocks of 128 bags; at each block it zeroes a
  128-row accumulator, makes 50 trips, each adding to every accumulator row the table row its bag names at that
  position (fetched by the kernel's own copies out of the table left in HBM, two in flight at most, each waited for
  before its slot is read), and copies the accumulator to the output block. The reference gathers all rows and sums
  over the bag axis. In the extended reals both are the zero word plus the same 50 terms, added in some order, and
  addition there is commutative and associative; finiteness of the table is not needed. The claim is stated under the
  precondition that every index word lies in [0, 100001): outside it the reference itself indexes out of range, and the
  kernel's copy of a row outside the table has no step.
  The three frames: the kernel's (at both instances) from its body's run at one grid point, the reference's from its
  run; the value: the kernel's output array is the bag sum block by block, the reference's result is the bag sum read
  at an index.
-/
import proofs.«400025_j42666205119354_2_alg».proof.Defs
import proofs.«400025_j42666205119354_2_alg».proof.Proof.Gen.Kernel
import proofs.«400025_j42666205119354_2_alg».proof.Proof.Gen.KernelIdeal
import proofs.«400025_j42666205119354_2_alg».proof.Proof.Gen.ReferenceIdeal
import proofs.«400025_j42666205119354_2_alg».proof.Proof.Gen.Pre_finite_inputs
import proofs.«400025_j42666205119354_2_alg».proof.Proof.PreFacts
import proofs.«400025_j42666205119354_2_alg».proof.Proof.RefValue
import proofs.«400025_j42666205119354_2_alg».proof.Proof.KernelFrame
import proofs.«400025_j42666205119354_2_alg».proof.Proof.KernelIdealFrame
import proofs.«400025_j42666205119354_2_alg».proof.Proof.KernelIdealValue

noncomputable section

namespace Cert.Proof

open Idealize.ShloMosaic Idealize.ShloMosaic.TcCoe Idealize.SL.Sem

/-- Under the precondition every index word of every block names a table row (the word-level kernel). -/
theorem hx_kernel (m : (ℓ : Loc Cert.Kernel.nD Cert.Kernel.τ Cert.Kernel.sig) → Buf (Elt Bits) ℓ) (h : Cert.Pre_Kernel m) :
    Cert.Kernel.Bag.Hx m :=
  Cert.Kernel.Bag.hx_of_idx m fun c y => Cert.PreFacts.idx_lt _ _ (h c) y

/-- The same for the idealized kernel. -/
theorem hx_ideal (m : (ℓ : Loc Cert.KernelIdeal.nD Cert.KernelIdeal.τ Cert.KernelIdeal.sig) → Buf (Elt Ideal) ℓ)
    (h : Cert.Pre_KernelIdeal m) : Cert.KernelIdeal.Bag.Hx m :=
  Cert.KernelIdeal.Bag.hx_of_idx m fun c y => Cert.PreFacts.idx_lt _ _ (h c) y

theorem frame_p : Cert.frame_Kernel := fun m ρ h => Cert.Kernel.Bag.frame m ρ (hx_kernel m h)

theorem frame_pi : Cert.frame_KernelIdeal := fun m ρ h => Cert.KernelIdeal.Bag.frame m ρ (hx_ideal m h)

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the bag sum of their (agreeing) arguments. -/
theorem algebraic : Cert.algebraic_KernelIdeal_ReferenceIdeal := by
  intro m ρ m' ρ' hpre hagree
  refine ⟨_, Cert.KernelIdeal.BagValue.run_value m ρ (hx_ideal m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2]
  exact Cert.RefValue.ref_eq _ _ (Cert.PreFacts.idx_range _ _ (hpre c))

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
